-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) (main_arg2 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1024x128 : Shape := ⟨2, ![1024, 128]⟩
abbrev S512x128 : Shape := ⟨2, ![512, 128]⟩
abbrev S1024x1 : Shape := ⟨2, ![1024, 1]⟩
abbrev S1x512 : Shape := ⟨2, ![1, 512]⟩
abbrev S128x512 : Shape := ⟨2, ![128, 512]⟩
abbrev S1024x512 : Shape := ⟨2, ![1024, 512]⟩
abbrev S1024 : Shape := ⟨1, ![1024]⟩

abbrev nBuf : Space → Nat
  | .hbm => 36
  | .vmem => 22
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192, .i32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x128, .f32⟩
  | .hbm, ⟨12, _⟩ => ⟨S8192x128, .f32⟩
  | .hbm, ⟨13, _⟩ => ⟨S8192x128, .bf16⟩
  | .hbm, ⟨14, _⟩ => ⟨S8192x1, .i32⟩
  | .hbm, ⟨15, _⟩ => ⟨S1x8192, .i32⟩
  | .hbm, ⟨16, _⟩ => ⟨S8192x1, .i32⟩
  | .hbm, ⟨17, _⟩ => ⟨S1x8192, .i32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .i1⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S1024x128, .bf16⟩
  | .local _ .vmem, ⟨1, _⟩ => ⟨S1024x128, .bf16⟩
  | .local _ .vmem, ⟨2, _⟩ => ⟨S512x128, .bf16⟩
  | .local _ .vmem, ⟨3, _⟩ => ⟨S512x128, .bf16⟩
  | .local _ .vmem, ⟨4, _⟩ => ⟨S1024x1, .i32⟩
  | .local _ .vmem, ⟨5, _⟩ => ⟨S1024x1, .i32⟩
  | .local _ .vmem, ⟨6, _⟩ => ⟨S1x512, .i32⟩
  | .local _ .vmem, ⟨7, _⟩ => ⟨S1x512, .i32⟩
  | .local _ .vmem, ⟨8, _⟩ => ⟨S1024x1, .i32⟩
  | .local _ .vmem, ⟨9, _⟩ => ⟨S1024x1, .i32⟩
  | .local _ .vmem, ⟨10, _⟩ => ⟨S1x512, .i32⟩
  | .local _ .vmem, ⟨11, _⟩ => ⟨S1x512, .i32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | .local _ .vmem, ⟨17, _⟩ => ⟨S1024x1, .f32⟩
  | .local _ .vmem, ⟨18, _⟩ => ⟨S1024x1, .f32⟩
  | .local _ .vmem, ⟨19, _⟩ => ⟨S1024x1, .f32⟩
  | .local _ .vmem, ⟨20, _⟩ => ⟨S1024x1, .f32⟩
  | .local _ .vmem, ⟨21, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_cst_0 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_call1_v0 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_call2_v0 : Ref sig .tc := ⟨.hbm, 34, rfl⟩
abbrev main_v18 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v107 : BitVec 1 := Scalar.cmpi .eq arg1 c15_i32
  let v108 : BitVec 32 := Scalar.extui v107
  let c0_i32_57 : BitVec 32 := 0#32
  let v109 : BitVec 1 := Scalar.cmpi .ne v108 c0_i32_57
  v109

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bitsLt_bf16_f32 : FTy.bits .bf16 < FTy.bits .f32
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  transposes_S512x128_p1_0_S128x512 : S512x128.Transposes [1, 0] S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  iota_S1024x512_d0_w32 : S1024x512.Iotas .tc 32 [0]
  iota_S1024x512_d1_w32 : S1024x512.Iotas .tc 32 [1]
  reduces_S1024x512_S1024 : S1024x512.Reduces [1] S1024
  shapeCasts_S1024_S1024x1 : S1024.ShapeCasts S1024x1
  natLt_1_32 : 1 < 32
  reducesTo_S8192x1_S_d0_1 : S8192x1.ReducesTo [0, 1] S_
  dot_S1024x128_S128x512_S1024x512_1_0_0_1_n_n_wf : DotDims.WF S1024x128 S128x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .bf16 = 32 ∨ (Rect.block (s := S8192x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S8192x128.size a
  hwx0_1 : ∀ i : grid0.Coords, EltTy.bits .bf16 = 32 ∨ (Rect.block (s := S8192x128) S512x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .i32 = 32 ∨ (Rect.block (s := S1x8192) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .i32 = 32 ∨ (Rect.block (s := S8192x1) S1024x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x8192.size a
  hwx0_5 : ∀ i : grid0.Coords, EltTy.bits .i32 = 32 ∨ (Rect.block (s := S1x8192) S1x512.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S8192x1.size a
  hwx0_7 : ∀ i : grid0.Coords, EltTy.bits .f32 = 32 ∨ (Rect.block (s := S8192x1) S1024x1.size (cc0_transform_7 i) (hinb0_7 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf

abbrev win0_0 : Pipeline.Window sig grid0 :=
  Pipeline.Window.ofSpec (Memref.whole main_v5) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10_0) S1024x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10_1) S1024x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S128x8192 : Shape := ⟨2, ![128, 8192]⟩
abbrev S8192x8192 : Shape := ⟨2, ![8192, 8192]⟩
abbrev S1x8192 : Shape := ⟨2, ![1, 8192]⟩

abbrev nBuf : Space → Nat
  | .hbm => 94
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192, .i32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x128, .f32⟩
  | .hbm, ⟨12, _⟩ => ⟨S8192x128, .f32⟩
  | .hbm, ⟨13, _⟩ => ⟨S128x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .i32⟩
  | .hbm, ⟨19, _⟩ => ⟨S8192x8192, .i32⟩
  | .hbm, ⟨20, _⟩ => ⟨S_, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S8192x1, .i32⟩
  | .hbm, ⟨25, _⟩ => ⟨S1x8192, .i32⟩
  | .hbm, ⟨26, _⟩ => ⟨S8192x8192, .i32⟩
  | .hbm, ⟨27, _⟩ => ⟨S8192x8192, .i32⟩
  | .hbm, ⟨28, _⟩ => ⟨S8192x8192, .i1⟩
  | .hbm, ⟨29, _⟩ => ⟨S8192x8192, .i1⟩
  | .hbm, ⟨30, _⟩ => ⟨S8192x8192, .i1⟩
  | .hbm, ⟨31, _⟩ => ⟨S8192x8192, .i1⟩
  | .hbm, ⟨32, _⟩ => ⟨S8192x1, .i32⟩
  | .hbm, ⟨33, _⟩ => ⟨S1x8192, .i32⟩
  | .hbm, ⟨34, _⟩ => ⟨S8192x8192, .i32⟩
  | .hbm, ⟨35, _⟩ => ⟨S8192x8192, .i32⟩
  | .hbm, ⟨36, _⟩ => ⟨S8192x8192, .i1⟩
  | .hbm, ⟨37, _⟩ => ⟨S8192x8192, .i1⟩
  | .hbm, ⟨38, _⟩ => ⟨S_, .f32⟩
  | .hbm, ⟨39, _⟩ => ⟨S_, .f32⟩
  | .hbm, ⟨40, _⟩ => ⟨S8192x8192, .f32⟩
  | .hbm, ⟨41, _⟩ => ⟨S8192x8192, .f32⟩
  | .hbm, ⟨42, _⟩ => ⟨S_, .f32⟩
  | .hbm, ⟨43, _⟩ => ⟨S8192, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S_, .f32⟩
  | .hbm, ⟨48, _⟩ => ⟨S8192, .f32⟩
  | .hbm, ⟨49, _⟩ => ⟨S_, .f32⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S8192, .f32⟩
  | .hbm, ⟨54, _⟩ => ⟨S_, .i1⟩
  | .hbm, ⟨55, _⟩ => ⟨S8192, .i1⟩
  | .hbm, ⟨56, _⟩ => ⟨S_, .i1⟩
  | .hbm, ⟨57, _⟩ => ⟨S8192, .i1⟩
  | .hbm, ⟨58, _⟩ => ⟨S_, .i1⟩
  | .hbm, ⟨59, _⟩ => ⟨S8192, .i1⟩
  | .hbm, ⟨60, _⟩ => ⟨S8192, .f32⟩
  | .hbm, ⟨61, _⟩ => ⟨S8192, .f32⟩
  | .hbm, ⟨62, _⟩ => ⟨S_, .f32⟩
  | .hbm, ⟨63, _⟩ => ⟨S8192, .f32⟩
  | .hbm, ⟨64, _⟩ => ⟨S8192, .f32⟩
  | .hbm, ⟨65, _⟩ => ⟨S_, .f32⟩
  | .hbm, ⟨66, _⟩ => ⟨S8192, .f32⟩
  | .hbm, ⟨67, _⟩ => ⟨S8192, .f32⟩
  | .hbm, ⟨68, _⟩ => ⟨S8192, .i1⟩
  | .hbm, ⟨69, _⟩ => ⟨S_, .f32⟩
  | .hbm, ⟨70, _⟩ => ⟨S8192, .f32⟩
  | .hbm, ⟨71, _⟩ => ⟨S8192, .i1⟩
  | .hbm, ⟨72, _⟩ => ⟨S8192, .i1⟩
  | .hbm, ⟨73, _⟩ => ⟨S8192, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S8192, .f32⟩
  | .hbm, ⟨79, _⟩ => ⟨S8192, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .i1⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .i1⟩
  | .hbm, ⟨91, _⟩ => ⟨S_, .f32⟩
  | .hbm, ⟨92, _⟩ => ⟨S_, .f32⟩
  | .hbm, ⟨93, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_1 : Ref sig .tc := ⟨.hbm, 38, rfl⟩
abbrev main_v28 : Ref sig .tc := ⟨.hbm, 39, rfl⟩
abbrev main_call1_v0 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_cst_3 : Ref sig .tc := ⟨.hbm, 44, rfl⟩
abbrev main_call2_v0 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_cst_5 : Ref sig .tc := ⟨.hbm, 49, rfl⟩
abbrev main_call3_v0 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_c_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_10 : Ref sig .tc := ⟨.hbm, 62, rfl⟩
abbrev main_v40 : Ref sig .tc := ⟨.hbm, 63, rfl⟩
abbrev main_v41 : Ref sig .tc := ⟨.hbm, 64, rfl⟩
abbrev main_call5_cst : Ref sig .tc := ⟨.hbm, 65, rfl⟩
abbrev main_call5_v0 : Ref sig .tc := ⟨.hbm, 66, rfl⟩
abbrev main_v42 : Ref sig .tc := ⟨.hbm, 67, rfl⟩
abbrev main_v43 : Ref sig .tc := ⟨.hbm, 68, rfl⟩
abbrev main_cst_11 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_12 : Ref sig .tc := ⟨.hbm, 74, rfl⟩
abbrev main_v48 : Ref sig .tc := ⟨.hbm, 75, rfl⟩
abbrev main_cst_13 : Ref sig .tc := ⟨.hbm, 76, rfl⟩
abbrev main_call6_v0 : Ref sig .tc := ⟨.hbm, 77, rfl⟩
abbrev main_call6_v1 : Ref sig .tc := ⟨.hbm, 78, rfl⟩
abbrev main_v49 : Ref sig .tc := ⟨.hbm, 79, rfl⟩
abbrev main_cst_14 : Ref sig .tc := ⟨.hbm, 80, rfl⟩
abbrev main_v50 : Ref sig .tc := ⟨.hbm, 81, rfl⟩
abbrev main_cst_15 : Ref sig .tc := ⟨.hbm, 82, rfl⟩
abbrev main_v51 : Ref sig .tc := ⟨.hbm, 83, rfl⟩
abbrev main_cst_16 : Ref sig .tc := ⟨.hbm, 84, rfl⟩
abbrev main_v52 : Ref sig .tc := ⟨.hbm, 85, rfl⟩
abbrev main_v53 : Ref sig .tc := ⟨.hbm, 86, rfl⟩
abbrev main_cst_17 : Ref sig .tc := ⟨.hbm, 87, rfl⟩
abbrev main_call7_v0 : Ref sig .tc := ⟨.hbm, 88, rfl⟩
abbrev main_v54 : Ref sig .tc := ⟨.hbm, 89, rfl⟩
abbrev main_v55 : Ref sig .tc := ⟨.hbm, 90, rfl⟩
abbrev main_cst_18 : Ref sig .tc := ⟨.hbm, 91, rfl⟩
abbrev main_call8_v0 : Ref sig .tc := ⟨.hbm, 92, rfl⟩
abbrev main_v56 : Ref sig .tc := ⟨.hbm, 93, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  transposes_S8192x128_S128x8192_1_0 : S8192x128.Transposes [1, 0] S128x8192
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.K.Entry.lean ====
/-
  The TensorCore's buffers when the region is entered, and the lines of @main after it.

  Before the region @main normalises the embeddings (fifteen host operations in two stretches:
  the row norms, their clamp at 1e-12, the quotient, its change of format, and the four
  reshapes of labels and groups); `V0` is the valuation those leave, `V` the same read at a
  TensorCore reference. After the region sixteen host operations in four stretches reduce the
  two result columns to the scalar loss; `tailOps` lists them in order.
-/
import proofs.«141537_j90099823936181_1_alg».proof.Proof.Gen.Kernel.Launch
import proofs.«141537_j90099823936181_1_alg».proof.Proof.Gen.Kernel.Skeleton
import proofs.«141537_j90099823936181_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

/-- The host operations before the region, in order. -/
abbrev headOps : List (HloOp τ sig (Elt F)) := List.flatten [hostOps0, hostOps0_1]

/-- The host operations after the region, in order. -/
abbrev tailOps : List (HloOp τ sig (Elt F)) := List.flatten [hostOps1, hostOps1_1, hostOps1_2, hostOps1_3]

/-- Core `c`'s buffer contents when the region is entered, as a valuation. -/
abbrev V0 (c : Dev nD) : Valuation τ sig (Elt F) := StableHlo.after headOps (fun b => m (c, b))

/-- The same read at a TensorCore reference. -/
abbrev V (c : Dev nD) (b : Ref sig .tc) : Buf (Elt F) ((c : Thread nD τ).loc b) := V0 m c (Proc.devRef .tc b)

end Cert.Kernel.Hand

end
-- ==== Proof.K.Runs.lean ====
/-
  What the three runs of the kernel body and the frame over them are stated over.

  The grid is 8 row blocks × 16 column tiles, point `t` at row block `t / 16` and tile `t % 16`. The body
  resets its six running columns when the tile is the first (`t % 16 = 0`) and writes the two result
  columns when it is the last (`t % 16 = 15`); so a point is in one of three cases: first tile, a middle
  tile, last tile. The two result windows are idle (left untouched, not written back) except at the last
  tile. `iblk` is a window's block of its array as the region finds it.
-/
import proofs.«141537_j90099823936181_1_alg».proof.Proof.K.Entry

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not (an unfetched point has
    the block index of the point before), for any proof data whose array is the region-entry contents and whose
    body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not (an unfetched point has
    the block index of the point before), for any proof data whose array is the region-entry contents and whose
    body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not (an unfetched point has
    the block index of the point before), for any proof data whose array is the region-entry contents and whose
    body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or not (an unfetched point has
    the block index of the point before), for any proof data whose array is the region-entry contents and whose
    body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, fetched there or not (an unfetched point has
    the block index of the point before), for any proof data whose array is the region-entry contents and whose
    body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, fetched there or not (an unfetched point has
    the block index of the point before), for any proof data whose array is the region-entry contents and whose
    body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, decided over the grid -/

/-- The first `scf.if`: the tile is the first of its row block. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The second `scf.if`: the tile is the last of its row block. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Result window 6 is idle, and not written back, wherever the tile is not the last; live at the last. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel
/-- Result window 7 is idle, and not written back, wherever the tile is not the last; live at the last. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel

/-! ## The memrefs the body is called with -/

abbrev ms0_0 (t : Fin cfg0.N) : Memref sig .tc .vmem S1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1 .f32 := win0_7.stage (cfg0.slots t 7)
abbrev hs0_7 (t : Fin cfg0.N) : (ms0_7 t).IsWhole := hstage0_7 ((cfg0.slots t 7).cast nbuf0_7)
/-- One staging buffer of each result window, through which its contents are stated. -/
abbrev VO0_6 : View sig .tc .vmem S1024x1 .f32 := (Memref.whole cc0_stg6_0 : Memref sig .tc .vmem S1024x1 .f32).view
abbrev VO0_7 : View sig .tc .vmem S1024x1 .f32 := (Memref.whole cc0_stg7_0 : Memref sig .tc .vmem S1024x1 .f32).view
/-- Running column 0: a whole scoped buffer of the kernel's own, carried from tile to tile. -/
abbrev scM0_0 : Memref sig .tc .vmem S1024x1 .f32 := Memref.whole cc0_scratch0
abbrev VS0_0 : View sig .tc .vmem S1024x1 .f32 := scM0_0.view
/-- Running column 1: a whole scoped buffer of the kernel's own, carried from tile to tile. -/
abbrev scM0_1 : Memref sig .tc .vmem S1024x1 .f32 := Memref.whole cc0_scratch1
abbrev VS0_1 : View sig .tc .vmem S1024x1 .f32 := scM0_1.view
/-- Running column 2: a whole scoped buffer of the kernel's own, carried from tile to tile. -/
abbrev scM0_2 : Memref sig .tc .vmem S1024x1 .f32 := Memref.whole cc0_scratch2
abbrev VS0_2 : View sig .tc .vmem S1024x1 .f32 := scM0_2.view
/-- Running column 3: a whole scoped buffer of the kernel's own, carried from tile to tile. -/
abbrev scM0_3 : Memref sig .tc .vmem S1024x1 .f32 := Memref.whole cc0_scratch3
abbrev VS0_3 : View sig .tc .vmem S1024x1 .f32 := scM0_3.view
/-- Running column 4: a whole scoped buffer of the kernel's own, carried from tile to tile. -/
abbrev scM0_4 : Memref sig .tc .vmem S1024x1 .f32 := Memref.whole cc0_scratch4
abbrev VS0_4 : View sig .tc .vmem S1024x1 .f32 := scM0_4.view
/-- Running column 5: a whole scoped buffer of the kernel's own, carried from tile to tile. -/
abbrev scM0_5 : Memref sig .tc .vmem S1024x1 .f32 := Memref.whole cc0_scratch5
abbrev VS0_5 : View sig .tc .vmem S1024x1 .f32 := scM0_5.view

/-- The class invariant with the six running columns as memrefs owned at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.Kernel.Hand

end
-- ==== Proof.K.RunA.lean ====
/-
  The kernel body run at the first tile of a row block.
-/
import proofs.«141537_j90099823936181_1_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the FIRST tile of a row block: all six running columns are reset to their starting values and then
    updated with this tile; nothing is stored into the two result buffers, which are handed back as they were.
    The pieces each buffer ends with are found by running the body (they are the witness): the statement says that from the
    inputs' buffers at their blocks the body runs to the continuation holding the inputs as they were and each stored
    buffer with its pieces written. -/
noncomputable def kernelRun0_A (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32) :
    Σ' (L6 : List (View.Piece (Elt F) S1024x1 .f32)) (L7 : List (View.Piece (Elt F) S1024x1 .f32)) (LS0 : List (View.Piece (Elt F) S1024x1 .f32)) (LS1 : List (View.Piece (Elt F) S1024x1 .f32)) (LS2 : List (View.Piece (Elt F) S1024x1 .f32)) (LS3 : List (View.Piece (Elt F) S1024x1 .f32)) (LS4 : List (View.Piece (Elt F) S1024x1 .f32)), { LS5 : List (View.Piece (Elt F) S1024x1 .f32) //
      ∀ (xi6 xi7 : Vec F S1024x1 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare xi6
            ∗ owns (c : Thread nD τ) arg9 fullShare xi7
            ∗ (∃ d, owns (c : Thread nD τ) arg10 fullShare d)
            ∗ (∃ d, owns (c : Thread nD τ) arg11 fullShare d)
            ∗ (∃ d, owns (c : Thread nD τ) arg12 fullShare d)
            ∗ (∃ d, owns (c : Thread nD τ) arg13 fullShare d)
            ∗ (∃ d, owns (c : Thread nD τ) arg14 fullShare d)
            ∗ (∃ d, owns (c : Thread nD τ) arg15 fullShare d)
            ∗ (iprop(owns (c : Thread nD τ) arg2 fullShare x0
              ∗ owns (c : Thread nD τ) arg3 fullShare x1
              ∗ owns (c : Thread nD τ) arg4 fullShare x2
              ∗ owns (c : Thread nD τ) arg5 fullShare x3
              ∗ owns (c : Thread nD τ) arg6 fullShare x4
              ∗ owns (c : Thread nD τ) arg7 fullShare x5
              ∗ owns (c : Thread nD τ) arg8 fullShare xi6
              ∗ owns (c : Thread nD τ) arg9 fullShare xi7
              ∗ (∃ f, arg10.view.loc (c : Thread nD τ) ↦[arg10.view.set]{fullShare} arg10.view.writes (Elt F) f LS0)
              ∗ (∃ f, arg11.view.loc (c : Thread nD τ) ↦[arg11.view.set]{fullShare} arg11.view.writes (Elt F) f LS1)
              ∗ (∃ f, arg12.view.loc (c : Thread nD τ) ↦[arg12.view.set]{fullShare} arg12.view.writes (Elt F) f LS2)
              ∗ (∃ f, arg13.view.loc (c : Thread nD τ) ↦[arg13.view.set]{fullShare} arg13.view.writes (Elt F) f LS3)
              ∗ (∃ f, arg14.view.loc (c : Thread nD τ) ↦[arg14.view.set]{fullShare} arg14.view.writes (Elt F) f LS4)
              ∗ (∃ f, arg15.view.loc (c : Thread nD τ) ↦[arg15.view.set]{fullShare} arg15.view.writes (Elt F) f LS5)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], [], ?_, ?_, ?_, ?_, ?_, ?_, fun xi6 xi7 E K => ?run⟩
  case run =>
    simp only [cc0__kernel_eq_skeleton]; unfold cc0__kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.Kernel.Hand

end
-- ==== Proof.K.RunB.lean ====
/-
  The kernel body run at a middle tile of a row block.
-/
import proofs.«141537_j90099823936181_1_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a MIDDLE tile: the six running columns, at what the tile before left, are updated with this tile;
    nothing is stored into the two result buffers, which are handed back as they were.
    The pieces each buffer ends with are found by running the body (they are the witness): the statement says that from the
    inputs' buffers at their blocks the body runs to the continuation holding the inputs as they were and each stored
    buffer with its pieces written. -/
noncomputable def kernelRun0_B (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) :
    Σ' (L6 : List (View.Piece (Elt F) S1024x1 .f32)) (L7 : List (View.Piece (Elt F) S1024x1 .f32)) (LS0 : List (View.Piece (Elt F) S1024x1 .f32)) (LS1 : List (View.Piece (Elt F) S1024x1 .f32)) (LS2 : List (View.Piece (Elt F) S1024x1 .f32)) (LS3 : List (View.Piece (Elt F) S1024x1 .f32)) (LS4 : List (View.Piece (Elt F) S1024x1 .f32)), { LS5 : List (View.Piece (Elt F) S1024x1 .f32) //
      ∀ (xi6 xi7 : Vec F S1024x1 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare xi6
            ∗ owns (c : Thread nD τ) arg9 fullShare xi7
            ∗ owns (c : Thread nD τ) arg10 fullShare xs0
            ∗ owns (c : Thread nD τ) arg11 fullShare xs1
            ∗ owns (c : Thread nD τ) arg12 fullShare xs2
            ∗ owns (c : Thread nD τ) arg13 fullShare xs3
            ∗ owns (c : Thread nD τ) arg14 fullShare xs4
            ∗ owns (c : Thread nD τ) arg15 fullShare xs5
            ∗ (iprop(owns (c : Thread nD τ) arg2 fullShare x0
              ∗ owns (c : Thread nD τ) arg3 fullShare x1
              ∗ owns (c : Thread nD τ) arg4 fullShare x2
              ∗ owns (c : Thread nD τ) arg5 fullShare x3
              ∗ owns (c : Thread nD τ) arg6 fullShare x4
              ∗ owns (c : Thread nD τ) arg7 fullShare x5
              ∗ owns (c : Thread nD τ) arg8 fullShare xi6
              ∗ owns (c : Thread nD τ) arg9 fullShare xi7
              ∗ (∃ f, arg10.view.loc (c : Thread nD τ) ↦[arg10.view.set]{fullShare} arg10.view.writes (Elt F) f LS0)
              ∗ (∃ f, arg11.view.loc (c : Thread nD τ) ↦[arg11.view.set]{fullShare} arg11.view.writes (Elt F) f LS1)
              ∗ (∃ f, arg12.view.loc (c : Thread nD τ) ↦[arg12.view.set]{fullShare} arg12.view.writes (Elt F) f LS2)
              ∗ (∃ f, arg13.view.loc (c : Thread nD τ) ↦[arg13.view.set]{fullShare} arg13.view.writes (Elt F) f LS3)
              ∗ (∃ f, arg14.view.loc (c : Thread nD τ) ↦[arg14.view.set]{fullShare} arg14.view.writes (Elt F) f LS4)
              ∗ (∃ f, arg15.view.loc (c : Thread nD τ) ↦[arg15.view.set]{fullShare} arg15.view.writes (Elt F) f LS5)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], [], ?_, ?_, ?_, ?_, ?_, ?_, fun xi6 xi7 E K => ?run⟩
  case run =>
    simp only [cc0__kernel_eq_skeleton]; unfold cc0__kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1; obtain rfl := harg12.eq_unread hfs2; obtain rfl := harg13.eq_unread hfs3; obtain rfl := harg14.eq_unread hfs4; obtain rfl := harg15.eq_unread hfs5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.Kernel.Hand

end
-- ==== Proof.K.RunC.lean ====
/-
  The kernel body run at the last tile of a row block.
-/
import proofs.«141537_j90099823936181_1_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the LAST tile of a row block: the six running columns, at what the tile before left, are updated with
    this tile, and the row losses and the counted flags are computed from them and stored into the two result buffers.
    The pieces each buffer ends with are found by running the body (they are the witness): the statement says that from the
    inputs' buffers at their blocks the body runs to the continuation holding the inputs as they were and each stored
    buffer with its pieces written. -/
noncomputable def kernelRun0_C (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) :
    Σ' (L6 : List (View.Piece (Elt F) S1024x1 .f32)) (L7 : List (View.Piece (Elt F) S1024x1 .f32)) (LS0 : List (View.Piece (Elt F) S1024x1 .f32)) (LS1 : List (View.Piece (Elt F) S1024x1 .f32)) (LS2 : List (View.Piece (Elt F) S1024x1 .f32)) (LS3 : List (View.Piece (Elt F) S1024x1 .f32)) (LS4 : List (View.Piece (Elt F) S1024x1 .f32)), { LS5 : List (View.Piece (Elt F) S1024x1 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ (∃ d, owns (c : Thread nD τ) arg8 fullShare d)
            ∗ (∃ d, owns (c : Thread nD τ) arg9 fullShare d)
            ∗ owns (c : Thread nD τ) arg10 fullShare xs0
            ∗ owns (c : Thread nD τ) arg11 fullShare xs1
            ∗ owns (c : Thread nD τ) arg12 fullShare xs2
            ∗ owns (c : Thread nD τ) arg13 fullShare xs3
            ∗ owns (c : Thread nD τ) arg14 fullShare xs4
            ∗ owns (c : Thread nD τ) arg15 fullShare xs5
            ∗ (iprop(owns (c : Thread nD τ) arg2 fullShare x0
              ∗ owns (c : Thread nD τ) arg3 fullShare x1
              ∗ owns (c : Thread nD τ) arg4 fullShare x2
              ∗ owns (c : Thread nD τ) arg5 fullShare x3
              ∗ owns (c : Thread nD τ) arg6 fullShare x4
              ∗ owns (c : Thread nD τ) arg7 fullShare x5
              ∗ (∃ f, arg8.view.loc (c : Thread nD τ) ↦[arg8.view.set]{fullShare} arg8.view.writes (Elt F) f L6)
              ∗ (∃ f, arg9.view.loc (c : Thread nD τ) ↦[arg9.view.set]{fullShare} arg9.view.writes (Elt F) f L7)
              ∗ (∃ f, arg10.view.loc (c : Thread nD τ) ↦[arg10.view.set]{fullShare} arg10.view.writes (Elt F) f LS0)
              ∗ (∃ f, arg11.view.loc (c : Thread nD τ) ↦[arg11.view.set]{fullShare} arg11.view.writes (Elt F) f LS1)
              ∗ (∃ f, arg12.view.loc (c : Thread nD τ) ↦[arg12.view.set]{fullShare} arg12.view.writes (Elt F) f LS2)
              ∗ (∃ f, arg13.view.loc (c : Thread nD τ) ↦[arg13.view.set]{fullShare} arg13.view.writes (Elt F) f LS3)
              ∗ (∃ f, arg14.view.loc (c : Thread nD τ) ↦[arg14.view.set]{fullShare} arg14.view.writes (Elt F) f LS4)
              ∗ (∃ f, arg15.view.loc (c : Thread nD τ) ↦[arg15.view.set]{fullShare} arg15.view.writes (Elt F) f LS5)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, ?_, fun E K => ?run⟩
  case run =>
    simp only [cc0__kernel_eq_skeleton]; unfold cc0__kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1; obtain rfl := harg12.eq_unread hfs2; obtain rfl := harg13.eq_unread hfs3; obtain rfl := harg14.eq_unread hfs4; obtain rfl := harg15.eq_unread hfs5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.Kernel.Hand

end
-- ==== Proof.K.Frame.lean ====
/-
  The frame over the three runs: what each case leaves in each buffer (its stores read back), the buffers' contents point
  by point, the invariant that carries the six running columns from tile to tile, the proof data of the region and the
  body obligation at every point.

  Every store of the body overwrites a whole buffer, so the pieces a run finds for a buffer cover it and reading them
  back does not depend on what the buffer held before. The contents after point `n` are defined by recursion on `n`: at
  the first tile of a row block from nothing, at any later tile from what the tile before left in the six running
  columns; the two result buffers are named only at the last tile, where they are stored and written back.
-/
import proofs.«141537_j90099823936181_1_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ (UR sig nD τ) ℕ

/-! ## What each case leaves -/

/-- Case A's pieces for running column 0 cover it (whole-buffer stores). -/
theorem scover0_A_0 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32) (y : S1024x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.1 S1024x1.size (by sl_kernel_rfl) y

/-- What case A leaves in running column 0: its pieces read back. -/
def sout0_A_0 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32) : Vec F S1024x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.1)

/-- Case A's pieces for running column 1 cover it (whole-buffer stores). -/
theorem scover0_A_1 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32) (y : S1024x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.1 S1024x1.size (by sl_kernel_rfl) y

/-- What case A leaves in running column 1: its pieces read back. -/
def sout0_A_1 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32) : Vec F S1024x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.1)

/-- Case A's pieces for running column 2 cover it (whole-buffer stores). -/
theorem scover0_A_2 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32) (y : S1024x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.1 S1024x1.size (by sl_kernel_rfl) y

/-- What case A leaves in running column 2: its pieces read back. -/
def sout0_A_2 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32) : Vec F S1024x1 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.1)

/-- Case A's pieces for running column 3 cover it (whole-buffer stores). -/
theorem scover0_A_3 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32) (y : S1024x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.2.1 S1024x1.size (by sl_kernel_rfl) y

/-- What case A leaves in running column 3: its pieces read back. -/
def sout0_A_3 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32) : Vec F S1024x1 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.2.1)

/-- Case A's pieces for running column 4 cover it (whole-buffer stores). -/
theorem scover0_A_4 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32) (y : S1024x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.2.2.1 S1024x1.size (by sl_kernel_rfl) y

/-- What case A leaves in running column 4: its pieces read back. -/
def sout0_A_4 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32) : Vec F S1024x1 .f32 :=
  VS0_4.read (Elt F) (VS0_4.writes (Elt F) VS0_4.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.2.2.1)

/-- Case A's pieces for running column 5 cover it (whole-buffer stores). -/
theorem scover0_A_5 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32) (y : S1024x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.2.2.2.1 S1024x1.size (by sl_kernel_rfl) y

/-- What case A leaves in running column 5: its pieces read back. -/
def sout0_A_5 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32) : Vec F S1024x1 .f32 :=
  VS0_5.read (Elt F) (VS0_5.writes (Elt F) VS0_5.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.2.2.2.1)

/-- Case B's pieces for running column 0 cover it (whole-buffer stores). -/
theorem scover0_B_0 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.1 S1024x1.size (by sl_kernel_rfl) y

/-- What case B leaves in running column 0: its pieces read back. -/
def sout0_B_0 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.1)

/-- Case B's pieces for running column 1 cover it (whole-buffer stores). -/
theorem scover0_B_1 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.1 S1024x1.size (by sl_kernel_rfl) y

/-- What case B leaves in running column 1: its pieces read back. -/
def sout0_B_1 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.1)

/-- Case B's pieces for running column 2 cover it (whole-buffer stores). -/
theorem scover0_B_2 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.1 S1024x1.size (by sl_kernel_rfl) y

/-- What case B leaves in running column 2: its pieces read back. -/
def sout0_B_2 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) : Vec F S1024x1 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.1)

/-- Case B's pieces for running column 3 cover it (whole-buffer stores). -/
theorem scover0_B_3 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.1 S1024x1.size (by sl_kernel_rfl) y

/-- What case B leaves in running column 3: its pieces read back. -/
def sout0_B_3 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) : Vec F S1024x1 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.1)

/-- Case B's pieces for running column 4 cover it (whole-buffer stores). -/
theorem scover0_B_4 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.1 S1024x1.size (by sl_kernel_rfl) y

/-- What case B leaves in running column 4: its pieces read back. -/
def sout0_B_4 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) : Vec F S1024x1 .f32 :=
  VS0_4.read (Elt F) (VS0_4.writes (Elt F) VS0_4.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.1)

/-- Case B's pieces for running column 5 cover it (whole-buffer stores). -/
theorem scover0_B_5 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.2.1 S1024x1.size (by sl_kernel_rfl) y

/-- What case B leaves in running column 5: its pieces read back. -/
def sout0_B_5 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) : Vec F S1024x1 .f32 :=
  VS0_5.read (Elt F) (VS0_5.writes (Elt F) VS0_5.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.2.1)

/-- Case C's pieces for running column 0 cover it (whole-buffer stores). -/
theorem scover0_C_0 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.1 S1024x1.size (by sl_kernel_rfl) y

/-- What case C leaves in running column 0: its pieces read back. -/
def sout0_C_0 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.1)

/-- Case C's pieces for running column 1 cover it (whole-buffer stores). -/
theorem scover0_C_1 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.1 S1024x1.size (by sl_kernel_rfl) y

/-- What case C leaves in running column 1: its pieces read back. -/
def sout0_C_1 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.1)

/-- Case C's pieces for running column 2 cover it (whole-buffer stores). -/
theorem scover0_C_2 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.1 S1024x1.size (by sl_kernel_rfl) y

/-- What case C leaves in running column 2: its pieces read back. -/
def sout0_C_2 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) : Vec F S1024x1 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.1)

/-- Case C's pieces for running column 3 cover it (whole-buffer stores). -/
theorem scover0_C_3 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.1 S1024x1.size (by sl_kernel_rfl) y

/-- What case C leaves in running column 3: its pieces read back. -/
def sout0_C_3 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) : Vec F S1024x1 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.1)

/-- Case C's pieces for running column 4 cover it (whole-buffer stores). -/
theorem scover0_C_4 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.1 S1024x1.size (by sl_kernel_rfl) y

/-- What case C leaves in running column 4: its pieces read back. -/
def sout0_C_4 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) : Vec F S1024x1 .f32 :=
  VS0_4.read (Elt F) (VS0_4.writes (Elt F) VS0_4.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.1)

/-- Case C's pieces for running column 5 cover it (whole-buffer stores). -/
theorem scover0_C_5 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.2.1 S1024x1.size (by sl_kernel_rfl) y

/-- What case C leaves in running column 5: its pieces read back. -/
def sout0_C_5 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) : Vec F S1024x1 .f32 :=
  VS0_5.read (Elt F) (VS0_5.writes (Elt F) VS0_5.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.2.1)

/-- The last tile's pieces for result buffer 6 cover it. -/
theorem cover0_C_6 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).1 S1024x1.size (by sl_kernel_rfl) y

/-- What the last tile leaves in result buffer 6: its pieces read back. -/
def out0_C_6 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) : Vec F S1024x1 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).1)

/-- The last tile's pieces for result buffer 7 cover it. -/
theorem cover0_C_7 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.1 S1024x1.size (by sl_kernel_rfl) y

/-- What the last tile leaves in result buffer 7: its pieces read back. -/
def out0_C_7 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) : Vec F S1024x1 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.1)

/-! ## The contents point by point -/

/-- The two result buffers and the six running columns. -/
abbrev Tup (F : FTy → Type) [FloatOps F] : Type :=
  Vec F S1024x1 .f32 × Vec F S1024x1 .f32 × Vec F S1024x1 .f32 × Vec F S1024x1 .f32 × Vec F S1024x1 .f32 × Vec F S1024x1 .f32 × Vec F S1024x1 .f32 × Vec F S1024x1 .f32

/-- A result buffer's contents where nothing names them (the window is idle there). -/
abbrev idle6 : Vec F S1024x1 .f32 := VO0_6.read (Elt F) VO0_6.junk
abbrev idle7 : Vec F S1024x1 .f32 := VO0_7.read (Elt F) VO0_7.junk

/-- The contents after a point of case A. -/
def caseA (c : Dev nD) (t : Fin cfg0.N) (h0 : t.val % 16 = 0) (h1 : ¬t.val % 16 = 15) : Tup F :=
  (idle6, idle7,
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t),
    sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t),
    sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t),
    sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t),
    sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t),
    sout0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t))

/-- The contents after a point of case B, over what the point before left. -/
def caseB (c : Dev nD) (t : Fin cfg0.N) (h0 : ¬t.val % 16 = 0) (h1 : ¬t.val % 16 = 15) (prev : Tup F) : Tup F :=
  (idle6, idle7,
    sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) prev.2.2.1 prev.2.2.2.1 prev.2.2.2.2.1 prev.2.2.2.2.2.1 prev.2.2.2.2.2.2.1 prev.2.2.2.2.2.2.2,
    sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) prev.2.2.1 prev.2.2.2.1 prev.2.2.2.2.1 prev.2.2.2.2.2.1 prev.2.2.2.2.2.2.1 prev.2.2.2.2.2.2.2,
    sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) prev.2.2.1 prev.2.2.2.1 prev.2.2.2.2.1 prev.2.2.2.2.2.1 prev.2.2.2.2.2.2.1 prev.2.2.2.2.2.2.2,
    sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) prev.2.2.1 prev.2.2.2.1 prev.2.2.2.2.1 prev.2.2.2.2.2.1 prev.2.2.2.2.2.2.1 prev.2.2.2.2.2.2.2,
    sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) prev.2.2.1 prev.2.2.2.1 prev.2.2.2.2.1 prev.2.2.2.2.2.1 prev.2.2.2.2.2.2.1 prev.2.2.2.2.2.2.2,
    sout0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) prev.2.2.1 prev.2.2.2.1 prev.2.2.2.2.1 prev.2.2.2.2.2.1 prev.2.2.2.2.2.2.1 prev.2.2.2.2.2.2.2)

/-- The contents after a point of case C, over what the point before left. -/
def caseC (c : Dev nD) (t : Fin cfg0.N) (h0 : ¬t.val % 16 = 0) (h1 : t.val % 16 = 15) (prev : Tup F) : Tup F :=
  (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) prev.2.2.1 prev.2.2.2.1 prev.2.2.2.2.1 prev.2.2.2.2.2.1 prev.2.2.2.2.2.2.1 prev.2.2.2.2.2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) prev.2.2.1 prev.2.2.2.1 prev.2.2.2.2.1 prev.2.2.2.2.2.1 prev.2.2.2.2.2.2.1 prev.2.2.2.2.2.2.2,
    sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) prev.2.2.1 prev.2.2.2.1 prev.2.2.2.2.1 prev.2.2.2.2.2.1 prev.2.2.2.2.2.2.1 prev.2.2.2.2.2.2.2,
    sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) prev.2.2.1 prev.2.2.2.1 prev.2.2.2.2.1 prev.2.2.2.2.2.1 prev.2.2.2.2.2.2.1 prev.2.2.2.2.2.2.2,
    sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) prev.2.2.1 prev.2.2.2.1 prev.2.2.2.2.1 prev.2.2.2.2.2.1 prev.2.2.2.2.2.2.1 prev.2.2.2.2.2.2.2,
    sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) prev.2.2.1 prev.2.2.2.1 prev.2.2.2.2.1 prev.2.2.2.2.2.1 prev.2.2.2.2.2.2.1 prev.2.2.2.2.2.2.2,
    sout0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) prev.2.2.1 prev.2.2.2.1 prev.2.2.2.2.1 prev.2.2.2.2.2.1 prev.2.2.2.2.2.2.1 prev.2.2.2.2.2.2.2,
    sout0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) prev.2.2.1 prev.2.2.2.1 prev.2.2.2.2.1 prev.2.2.2.2.2.1 prev.2.2.2.2.2.2.1 prev.2.2.2.2.2.2.2)

/-- THE ACCUMULATION: the contents after the body at position `n`, by recursion on `n`. -/
def outsAt0 (c : Dev nD) : (n : ℕ) → n < cfg0.N → Tup F
  | 0, hn => caseA m c ⟨0, hn⟩ (Nat.zero_mod _) (by show ¬(0 % 16 = 15); decide)
  | n + 1, hn =>
    if h0 : (n + 1) % 16 = 0 then
      if h1 : (n + 1) % 16 = 15 then False.elim (by omega)
      else caseA m c ⟨n + 1, hn⟩ h0 h1
    else
      if h1 : (n + 1) % 16 = 15 then caseC m c ⟨n + 1, hn⟩ h0 h1 (outsAt0 c n (Nat.lt_of_succ_lt hn))
      else caseB m c ⟨n + 1, hn⟩ h0 h1 (outsAt0 c n (Nat.lt_of_succ_lt hn))

theorem outsAt0_A (c : Dev nD) (t : Fin cfg0.N) (h0 : t.val % 16 = 0) (h1 : ¬t.val % 16 = 15) :
    outsAt0 m c t.val t.isLt = caseA m c t h0 h1 := by
  obtain ⟨n, hn⟩ := t
  cases n with
  | zero => rfl
  | succ n => exact (dif_pos h0).trans (dif_neg h1)

theorem outsAt0_B (c : Dev nD) (t : Fin cfg0.N) (h0 : ¬t.val % 16 = 0) (h1 : ¬t.val % 16 = 15) :
    outsAt0 m c t.val t.isLt = caseB m c t h0 h1 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem outsAt0_C (c : Dev nD) (t : Fin cfg0.N) (h0 : ¬t.val % 16 = 0) (h1 : t.val % 16 = 15) :
    outsAt0 m c t.val t.isLt = caseC m c t h0 h1 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

/-! ## The invariant between points -/

/-- Before the first point the class invariant (every running column at anything); afterwards the six running columns
    at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2.1) ∗ owns (c : Thread nD τ) scM0_3 fullShare ((outsAt0 m c n hn).2.2.2.2.2.1) ∗ owns (c : Thread nD τ) scM0_4 fullShare ((outsAt0 m c n hn).2.2.2.2.2.2.1) ∗ owns (c : Thread nD τ) scM0_5 fullShare ((outsAt0 m c n hn).2.2.2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2.1) ∗ owns (c : Thread nD τ) scM0_3 fullShare ((outsAt0 m c n hn).2.2.2.2.2.1) ∗ owns (c : Thread nD τ) scM0_4 fullShare ((outsAt0 m c n hn).2.2.2.2.2.2.1) ∗ owns (c : Thread nD τ) scM0_5 fullShare ((outsAt0 m c n hn).2.2.2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2.1) ∗ owns (c : Thread nD τ) scM0_2 fullShare ((outsAt0 m c (n - 1) (by omega)).2.2.2.2.1) ∗ owns (c : Thread nD τ) scM0_3 fullShare ((outsAt0 m c (n - 1) (by omega)).2.2.2.2.2.1) ∗ owns (c : Thread nD τ) scM0_4 fullShare ((outsAt0 m c (n - 1) (by omega)).2.2.2.2.2.2.1) ∗ owns (c : Thread nD τ) scM0_5 fullShare ((outsAt0 m c (n - 1) (by omega)).2.2.2.2.2.2.2)) ∗ (∃ r, prngReg c r)) := by
  cases n with
  | zero => exact absurd rfl hz
  | succ n => rfl

/-! ## The proof data -/

/-- The share of its array each window holds: the two windows on the normalised embeddings a half each. -/
def winQ : Fin 8 → PosShare TreeShare :=
  fun | 0 => fullShare.left | 1 => fullShare.right | 2 => fullShare | 3 => fullShare | 4 => fullShare | 5 => fullShare
      | 6 => fullShare | 7 => fullShare | ⟨_ + 8, h⟩ => absurd h (Nat.not_lt.2 (Nat.le_add_left _ _))

/-- The region's proof data on core `c`: the arrays as the region finds them; after the body each input's buffer at its
    block and the result buffers at `outsAt0`'s components; the tracking invariant; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
  Φ t := PhiS m c t.val (Nat.le_of_lt_succ t.isLt)
  q := winQ
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

end Cert.Kernel.Hand

end
-- ==== Proof.K.BodyA0.lean ====
/-
  The body at the very first point: a first tile, the six running columns handed over at anything.
-/
import proofs.«141537_j90099823936181_1_alg».proof.Proof.K.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ (UR sig nD τ) ℕ

set_option maxHeartbeats 8000000 in
/-- The body at the very first point: a first tile, the six running columns handed over at anything. -/
theorem sound_A0 (c : Dev nD) (t : Fin cfg0.N) (h0 : t.val % 16 = 0) (h1 : ¬t.val % 16 = 15) (hz : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [Dat.leavesExact_idle (dats m 0 c) 6 t (idleAt0_6 t (fun h => h1 ((hcond0_1 t).mp h))) (noFlush0_6 t (fun h => h1 ((hcond0_1 t).mp h)))]
  rw [Dat.leavesExact_idle (dats m 0 c) 7 t (idleAt0_7 t (fun h => h1 ((hcond0_1 t).mp h))) (noFlush0_7 t (fun h => h1 ((hcond0_1 t).mp h)))]
  rw [outsAt0_A m c t h0 h1]
  unfold caseA sout0_A_0 sout0_A_1 sout0_A_2 sout0_A_3 sout0_A_4 sout0_A_5; (try dsimp only)
  rw [PhiS_castSucc m c t, PhiS_zero m c _ _ hz, PhiA0_eq]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, ⟨%es0, HS0⟩, ⟨%es1, HS1⟩, ⟨%es2, HS2⟩, ⟨%es3, HS3⟩, ⟨%es4, HS4⟩, ⟨%es5, HS5⟩⟩
  isplitl [HS0 HS1 HS2 HS3 HS4 HS5 Hg]
  · isplitl [HS0 HS1 HS2 HS3 HS4 HS5]
    ·
      isplitl [HS0]
      ·
        unfold owns; iexists _; isplitr
        swap; · iexact HS0
        ipureintro; exact View.read_writes_of_cover _ _ _ _ _ (scover0_A_0 c _ _ _ _ _ _ _ _ _ _ _ _ _ _ _ _ _ _ _ _ _ _ _ _ _ _ _ _ _ _ _ _ _ _ _ _ _)
      isplitl [HS1]
      ·
        unfold owns; iexists _; isplitr
        swap; · iexact HS1
        ipureintro; exact View.read_writes_of_cover _ _ _ _ _ (scover0_A_1 c _ _ _ _ _ _ _ _ _ _ _ _ _ _ _ _ _ _ _ _ _ _ _ _ _ _ _ _ _ _ _ _ _ _ _ _ _)
      isplitl [HS2]
      ·
        unfold owns; iexists _; isplitr
        swap; · iexact HS2
        ipureintro; exact View.read_writes_of_cover _ _ _ _ _ (scover0_A_2 c _ _ _ _ _ _ _ _ _ _ _ _ _ _ _ _ _ _ _ _ _ _ _ _ _ _ _ _ _ _ _ _ _ _ _ _ _)
      isplitl [HS3]
      ·
        unfold owns; iexists _; isplitr
        swap; · iexact HS3
        ipureintro; exact View.read_writes_of_cover _ _ _ _ _ (scover0_A_3 c _ _ _ _ _ _ _ _ _ _ _ _ _ _ _ _ _ _ _ _ _ _ _ _ _ _ _ _ _ _ _ _ _ _ _ _ _)
      isplitl [HS4]
      ·
        unfold owns; iexists _; isplitr
        swap; · iexact HS4
        ipureintro; exact View.read_writes_of_cover _ _ _ _ _ (scover0_A_4 c _ _ _ _ _ _ _ _ _ _ _ _ _ _ _ _ _ _ _ _ _ _ _ _ _ _ _ _ _ _ _ _ _ _ _ _ _)
      unfold owns; iexists _; isplitr
      swap; · iexact HS5
      ipureintro; exact View.read_writes_of_cover _ _ _ _ _ (scover0_A_5 c _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

end Cert.Kernel.Hand

end
-- ==== Proof.K.BodyA1.lean ====
/-
  The body at the first tile of a later row block: the running columns are handed over at what the block before left and reset.
-/
import proofs.«141537_j90099823936181_1_alg».proof.Proof.K.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ (UR sig nD τ) ℕ

set_option maxHeartbeats 8000000 in
/-- The body at the first tile of a later row block: the running columns are handed over at what the block before left and reset. -/
theorem sound_A1 (c : Dev nD) (t : Fin cfg0.N) (h0 : t.val % 16 = 0) (h1 : ¬t.val % 16 = 15) (hz : t.val ≠ 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [Dat.leavesExact_idle (dats m 0 c) 6 t (idleAt0_6 t (fun h => h1 ((hcond0_1 t).mp h))) (noFlush0_6 t (fun h => h1 ((hcond0_1 t).mp h)))]
  rw [Dat.leavesExact_idle (dats m 0 c) 7 t (idleAt0_7 t (fun h => h1 ((hcond0_1 t).mp h))) (noFlush0_7 t (fun h => h1 ((hcond0_1 t).mp h)))]
  rw [outsAt0_A m c t h0 h1]
  unfold caseA sout0_A_0 sout0_A_1 sout0_A_2 sout0_A_3 sout0_A_4 sout0_A_5; (try dsimp only)
  rw [PhiS_castSucc m c t, PhiS_pos m c _ _ hz]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexists _; iexact HS0
  isplitl [HS1]; · iexists _; iexact HS1
  isplitl [HS2]; · iexists _; iexact HS2
  isplitl [HS3]; · iexists _; iexact HS3
  isplitl [HS4]; · iexists _; iexact HS4
  isplitl [HS5]; · iexists _; iexact HS5
  iintro ⟨H0, H1, H2, H3, H4, H5, H6, H7, ⟨%es0, HS0⟩, ⟨%es1, HS1⟩, ⟨%es2, HS2⟩, ⟨%es3, HS3⟩, ⟨%es4, HS4⟩, ⟨%es5, HS5⟩⟩
  isplitl [HS0 HS1 HS2 HS3 HS4 HS5 Hg]
  · isplitl [HS0 HS1 HS2 HS3 HS4 HS5]
    ·
      isplitl [HS0]
      ·
        unfold owns; iexists _; isplitr
        swap; · iexact HS0
        ipureintro; exact View.read_writes_of_cover _ _ _ _ _ (scover0_A_0 c _ _ _ _ _ _ _ _ _ _ _ _ _ _ _ _ _ _ _ _ _ _ _ _ _ _ _ _ _ _ _ _ _ _ _ _ _)
      isplitl [HS1]
      ·
        unfold owns; iexists _; isplitr
        swap; · iexact HS1
        ipureintro; exact View.read_writes_of_cover _ _ _ _ _ (scover0_A_1 c _ _ _ _ _ _ _ _ _ _ _ _ _ _ _ _ _ _ _ _ _ _ _ _ _ _ _ _ _ _ _ _ _ _ _ _ _)
      isplitl [HS2]
      ·
        unfold owns; iexists _; isplitr
        swap; · iexact HS2
        ipureintro; exact View.read_writes_of_cover _ _ _ _ _ (scover0_A_2 c _ _ _ _ _ _ _ _ _ _ _ _ _ _ _ _ _ _ _ _ _ _ _ _ _ _ _ _ _ _ _ _ _ _ _ _ _)
      isplitl [HS3]
      ·
        unfold owns; iexists _; isplitr
        swap; · iexact HS3
        ipureintro; exact View.read_writes_of_cover _ _ _ _ _ (scover0_A_3 c _ _ _ _ _ _ _ _ _ _ _ _ _ _ _ _ _ _ _ _ _ _ _ _ _ _ _ _ _ _ _ _ _ _ _ _ _)
      isplitl [HS4]
      ·
        unfold owns; iexists _; isplitr
        swap; · iexact HS4
        ipureintro; exact View.read_writes_of_cover _ _ _ _ _ (scover0_A_4 c _ _ _ _ _ _ _ _ _ _ _ _ _ _ _ _ _ _ _ _ _ _ _ _ _ _ _ _ _ _ _ _ _ _ _ _ _)
      unfold owns; iexists _; isplitr
      swap; · iexact HS5
      ipureintro; exact View.read_writes_of_cover _ _ _ _ _ (scover0_A_5 c _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

end Cert.Kernel.Hand

end
-- ==== Proof.K.BodyB.lean ====
/-
  The body at a middle tile: the running columns go from what the tile before left to this tile's update.
-/
import proofs.«141537_j90099823936181_1_alg».proof.Proof.K.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ (UR sig nD τ) ℕ

set_option maxHeartbeats 8000000 in
/-- The body at a middle tile: the running columns go from what the tile before left to this tile's update. -/
theorem sound_B (c : Dev nD) (t : Fin cfg0.N) (h0 : ¬t.val % 16 = 0) (h1 : ¬t.val % 16 = 15) (hz : t.val ≠ 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [Dat.leavesExact_idle (dats m 0 c) 6 t (idleAt0_6 t (fun h => h1 ((hcond0_1 t).mp h))) (noFlush0_6 t (fun h => h1 ((hcond0_1 t).mp h)))]
  rw [Dat.leavesExact_idle (dats m 0 c) 7 t (idleAt0_7 t (fun h => h1 ((hcond0_1 t).mp h))) (noFlush0_7 t (fun h => h1 ((hcond0_1 t).mp h)))]
  rw [outsAt0_B m c t h0 h1]
  unfold caseB sout0_B_0 sout0_B_1 sout0_B_2 sout0_B_3 sout0_B_4 sout0_B_5; (try dsimp only)
  rw [PhiS_castSucc m c t, PhiS_pos m c _ _ hz]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_B c (grid0.coords t) _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _ _ _ _ _).2.2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, ⟨%es0, HS0⟩, ⟨%es1, HS1⟩, ⟨%es2, HS2⟩, ⟨%es3, HS3⟩, ⟨%es4, HS4⟩, ⟨%es5, HS5⟩⟩
  isplitl [HS0 HS1 HS2 HS3 HS4 HS5 Hg]
  · isplitl [HS0 HS1 HS2 HS3 HS4 HS5]
    ·
      isplitl [HS0]
      ·
        unfold owns; iexists _; isplitr
        swap; · iexact HS0
        ipureintro; exact View.read_writes_of_cover _ _ _ _ _ (scover0_B_0 c _ _ _ _ _ _ _ _ _ _ _ _ _ _ _ _ _ _ _ _ _ _ _ _ _ _ _ _ _ _ _ _ _ _ _ _ _ _ _ _ _ _ _)
      isplitl [HS1]
      ·
        unfold owns; iexists _; isplitr
        swap; · iexact HS1
        ipureintro; exact View.read_writes_of_cover _ _ _ _ _ (scover0_B_1 c _ _ _ _ _ _ _ _ _ _ _ _ _ _ _ _ _ _ _ _ _ _ _ _ _ _ _ _ _ _ _ _ _ _ _ _ _ _ _ _ _ _ _)
      isplitl [HS2]
      ·
        unfold owns; iexists _; isplitr
        swap; · iexact HS2
        ipureintro; exact View.read_writes_of_cover _ _ _ _ _ (scover0_B_2 c _ _ _ _ _ _ _ _ _ _ _ _ _ _ _ _ _ _ _ _ _ _ _ _ _ _ _ _ _ _ _ _ _ _ _ _ _ _ _ _ _ _ _)
      isplitl [HS3]
      ·
        unfold owns; iexists _; isplitr
        swap; · iexact HS3
        ipureintro; exact View.read_writes_of_cover _ _ _ _ _ (scover0_B_3 c _ _ _ _ _ _ _ _ _ _ _ _ _ _ _ _ _ _ _ _ _ _ _ _ _ _ _ _ _ _ _ _ _ _ _ _ _ _ _ _ _ _ _)
      isplitl [HS4]
      ·
        unfold owns; iexists _; isplitr
        swap; · iexact HS4
        ipureintro; exact View.read_writes_of_cover _ _ _ _ _ (scover0_B_4 c _ _ _ _ _ _ _ _ _ _ _ _ _ _ _ _ _ _ _ _ _ _ _ _ _ _ _ _ _ _ _ _ _ _ _ _ _ _ _ _ _ _ _)
      unfold owns; iexists _; isplitr
      swap; · iexact HS5
      ipureintro; exact View.read_writes_of_cover _ _ _ _ _ (scover0_B_5 c _ _ _ _ _ _ _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

end Cert.Kernel.Hand

end
-- ==== Proof.K.BodyC.lean ====
/-
  The body at the last tile: the running columns are updated and the two result buffers stored.
-/
import proofs.«141537_j90099823936181_1_alg».proof.Proof.K.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ (UR sig nD τ) ℕ

set_option maxHeartbeats 8000000 in
/-- The body at the last tile: the running columns are updated and the two result buffers stored. -/
theorem sound_C (c : Dev nD) (t : Fin cfg0.N) (h0 : ¬t.val % 16 = 0) (h1 : t.val % 16 = 15) (hz : t.val ≠ 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t ((hcond0_1 t).mpr h1)], after0_6]
  rw [show (dats m 0 c).leavesExact 7 t = owns (c : Thread nD τ) (ms0_7 t) fullShare ((dats m 0 c).after 7 t) from by
    unfold Dat.leavesExact; rw [liveAt0_7 t ((hcond0_1 t).mpr h1)], after0_7]
  rw [outsAt0_C m c t h0 h1]
  unfold caseC out0_C_6 out0_C_7 sout0_C_0 sout0_C_1 sout0_C_2 sout0_C_3 sout0_C_4 sout0_C_5; (try dsimp only)
  rw [PhiS_castSucc m c t, PhiS_pos m c _ _ hz]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_C c (grid0.coords t) _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _ _ _ _ _).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, ⟨%e6, H6⟩, ⟨%e7, H7⟩, ⟨%es0, HS0⟩, ⟨%es1, HS1⟩, ⟨%es2, HS2⟩, ⟨%es3, HS3⟩, ⟨%es4, HS4⟩, ⟨%es5, HS5⟩⟩
  isplitl [HS0 HS1 HS2 HS3 HS4 HS5 Hg]
  · isplitl [HS0 HS1 HS2 HS3 HS4 HS5]
    ·
      isplitl [HS0]
      ·
        unfold owns; iexists _; isplitr
        swap; · iexact HS0
        ipureintro; exact View.read_writes_of_cover _ _ _ _ _ (scover0_C_0 c _ _ _ _ _ _ _ _ _ _ _ _ _ _ _ _ _ _ _ _ _ _ _ _ _ _ _ _ _ _ _ _ _ _ _ _ _ _ _ _ _ _ _)
      isplitl [HS1]
      ·
        unfold owns; iexists _; isplitr
        swap; · iexact HS1
        ipureintro; exact View.read_writes_of_cover _ _ _ _ _ (scover0_C_1 c _ _ _ _ _ _ _ _ _ _ _ _ _ _ _ _ _ _ _ _ _ _ _ _ _ _ _ _ _ _ _ _ _ _ _ _ _ _ _ _ _ _ _)
      isplitl [HS2]
      ·
        unfold owns; iexists _; isplitr
        swap; · iexact HS2
        ipureintro; exact View.read_writes_of_cover _ _ _ _ _ (scover0_C_2 c _ _ _ _ _ _ _ _ _ _ _ _ _ _ _ _ _ _ _ _ _ _ _ _ _ _ _ _ _ _ _ _ _ _ _ _ _ _ _ _ _ _ _)
      isplitl [HS3]
      ·
        unfold owns; iexists _; isplitr
        swap; · iexact HS3
        ipureintro; exact View.read_writes_of_cover _ _ _ _ _ (scover0_C_3 c _ _ _ _ _ _ _ _ _ _ _ _ _ _ _ _ _ _ _ _ _ _ _ _ _ _ _ _ _ _ _ _ _ _ _ _ _ _ _ _ _ _ _)
      isplitl [HS4]
      ·
        unfold owns; iexists _; isplitr
        swap; · iexact HS4
        ipureintro; exact View.read_writes_of_cover _ _ _ _ _ (scover0_C_4 c _ _ _ _ _ _ _ _ _ _ _ _ _ _ _ _ _ _ _ _ _ _ _ _ _ _ _ _ _ _ _ _ _ _ _ _ _ _ _ _ _ _ _)
      unfold owns; iexists _; isplitr
      swap; · iexact HS5
      ipureintro; exact View.read_writes_of_cover _ _ _ _ _ (scover0_C_5 c _ _ _ _ _ _ _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  ·
    unfold owns; iexists _; isplitr
    swap; · iexact H6
    ipureintro; exact View.read_writes_of_cover _ _ _ _ _ (cover0_C_6 c _ _ _ _ _ _ _ _ _ _ _ _ _ _ _ _ _ _ _ _ _ _ _ _ _ _ _ _ _ _ _ _ _ _ _ _ _ _ _ _ _ _ _)
  unfold owns; iexists _; isplitr
  swap; · iexact H7
  ipureintro; exact View.read_writes_of_cover _ _ _ _ _ (cover0_C_7 c _ _ _ _ _ _ _ _ _ _ _ _ _ _ _ _ _ _ _ _ _ _ _ _ _ _ _ _ _ _ _ _ _ _ _ _ _ _ _ _ _ _ _)

end Cert.Kernel.Hand

end
-- ==== Proof.K.Body.lean ====
/-
  The body obligation at every point, and the invariant's two ends.
-/
import proofs.«141537_j90099823936181_1_alg».proof.Proof.K.BodyA0
import proofs.«141537_j90099823936181_1_alg».proof.Proof.K.BodyA1
import proofs.«141537_j90099823936181_1_alg».proof.Proof.K.BodyB
import proofs.«141537_j90099823936181_1_alg».proof.Proof.K.BodyC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ (UR sig nD τ) ℕ

/-- The body at any point: its case is decided by its position in its row block. -/
theorem sound_body (c : Dev nD) (t : Fin cfg0.N) :
    bodyPre m c t ⊢ wp frame (wpE (defs₀ (F := F)) Variants.none c none) Set.univ (bodyAt0 t) (fun _ => bodyPost m c t) := by
  have hN : t.val < 128 := lt_of_lt_of_eq t.isLt (show cfg0.N = 128 from N_0)
  by_cases h0 : t.val % 16 = 0
  · have h1 : ¬t.val % 16 = 15 := by omega
    by_cases hz : t.val = 0
    · exact sound_A0 m c t h0 h1 hz
    · exact sound_A1 m c t h0 h1 hz
  · have hz : t.val ≠ 0 := fun e => h0 (by rw [e])
    by_cases h1 : t.val % 16 = 15
    · exact sound_C m c t h0 h1 hz
    · exact sound_B m c t h0 h1 hz

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class invariant back: the running columns' contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5⟩, Hg⟩
  isplitl [HS0 HS1 HS2 HS3 HS4 HS5]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  iexact Hg

/-- The same after the last point. -/
theorem hout (c : Dev nD) : (dats m 0 c).Φ (Fin.last cfg0.N) ⊢ Pipeline.ΦA spec0 c :=
  Phi_out m c _ (by rw [Fin.val_last]; have : cfg0.N = 128 := N_0; omega)

end Cert.Kernel.Hand

end
-- ==== Proof.K.Launch.lean ====
/-
  The run of @main around the region, for any proof data of the region.

  Two of the eight windows read the SAME array (the normalised embeddings: the anchor rows'
  block and the candidate rows' block), so the array's full share is dealt between them, a half
  each, when the region is entered and joined again when it is left; the other arrays are held
  whole. @main is taken as its list of segments: the two host stretches before the region, the
  region, the four host stretches after it.
-/
import proofs.«141537_j90099823936181_1_alg».proof.Proof.K.Entry
import Idealize.ShloMosaic.Lib.Pipeline.Regions

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The share of its array each window holds: windows 0 and 1 read one array, a half each. -/
def winShare : Fin 8 → PosShare TreeShare :=
  fun | 0 => fullShare.left | 1 => fullShare.right | 2 => fullShare | 3 => fullShare | 4 => fullShare | 5 => fullShare
      | 6 => fullShare | 7 => fullShare | ⟨_ + 8, h⟩ => absurd h (Nat.not_lt.2 (Nat.le_add_left _ _))

/-- The buffers when the region has been left: the region-entry valuation with the two result columns at what the
    write-backs made of them. -/
def Wfin (dats : (p : Fin 1) → (c : Dev nD) → Dat τ (Elt F) Unit ℕ (UR sig nD τ) ℕ (cfgs p) c) (c : Dev nD) :
    Valuation τ sig (Elt F) :=
  Function.update (Function.update (V0 m c) (Proc.devRef .tc main_v10_0) ((dats 0 c).arrAt 6 cfg0.N))
    (Proc.devRef .tc main_v10_1) ((dats 0 c).arrAt 7 cfg0.N)

theorem Wfin_contrib (dats : (p : Fin 1) → (c : Dev nD) → Dat τ (Elt F) Unit ℕ (UR sig nD τ) ℕ (cfgs p) c) (c : Dev nD) :
    Wfin m dats c (Proc.devRef .tc main_v10_0) = (dats 0 c).arrAt 6 cfg0.N := by
  unfold Wfin
  rw [Function.update_of_ne (StableHlo.devRef_ne_of_ne (by decide))]
  exact Function.update_self _ _ _

theorem Wfin_include (dats : (p : Fin 1) → (c : Dev nD) → Dat τ (Elt F) Unit ℕ (UR sig nD τ) ℕ (cfgs p) c) (c : Dev nD) :
    Wfin m dats c (Proc.devRef .tc main_v10_1) = (dats 0 c).arrAt 7 cfg0.N := by
  unfold Wfin
  exact Function.update_self _ _ _

namespace RunAux

/-- Off the two result columns the valuation is the region-entry one. -/
theorem Wfin_of_ne (dats : (p : Fin 1) → (c : Dev nD) → Dat τ (Elt F) Unit ℕ (UR sig nD τ) ℕ (cfgs p) c) (c : Dev nD)
    (b : Ref sig .tc) (h0 : b ≠ main_v10_0) (h1 : b ≠ main_v10_1) :
    Wfin m dats c (Proc.devRef .tc b) = V m c b := by
  unfold Wfin
  rw [Function.update_of_ne (StableHlo.devRef_ne_of_ne h1), Function.update_of_ne (StableHlo.devRef_ne_of_ne h0)]

/-- A line of operations each writing one listed reference leaves every reference off the list as it was. -/
theorem after_keep : ∀ {ops : List (HloOp τ sig (Elt F))} {W : List (Ref sig .tc)},
    List.Forall₂ (fun op y => op.writes = {Proc.devRef .tc y}) ops W → ∀ {b : Ref sig .tc}, b ∉ W →
    ∀ V : Valuation τ sig (Elt F), StableHlo.after ops V (Proc.devRef .tc b) = V (Proc.devRef .tc b)
  | _, _, h, b, hb, V => StableHlo.after_of_forall_not_mem _ V (by
      induction h with
      | nil => intro op hop; exact nomatch hop
      | @cons op y ops W hw _ ih =>
        intro op' hop'
        rcases List.mem_cons.mp hop' with rfl | hop'
        · rw [hw, Finset.mem_singleton]; exact StableHlo.devRef_ne_of_ne fun e => hb (e ▸ List.mem_cons_self)
        · exact ih (fun hm => hb (List.mem_cons_of_mem _ hm)) op' hop')

theorem writes0 : List.Forall₂ (fun (op : HloOp τ sig (Elt F)) y => op.writes = {Proc.devRef .tc y}) hostOps0
    [main_call0_v0, main_call0_cst, main_call0_v1, main_call0_v2, main_v0] :=
  .cons rfl (.cons rfl (.cons rfl (.cons rfl (.cons rfl .nil))))
theorem writes0_1 : List.Forall₂ (fun (op : HloOp τ sig (Elt F)) y => op.writes = {Proc.devRef .tc y}) hostOps0_1
    [main_cst, main_v1, main_v2, main_v3, main_v4, main_v5, main_v6, main_v7, main_v8, main_v9] :=
  .cons rfl (.cons rfl (.cons rfl (.cons rfl (.cons rfl (.cons rfl (.cons rfl (.cons rfl (.cons rfl (.cons rfl .nil)))))))))
theorem writes1 : List.Forall₂ (fun (op : HloOp τ sig (Elt F)) y => op.writes = {Proc.devRef .tc y}) hostOps1
    [main_cst_0, main_v11, main_cst_1, main_v12, main_cst_2, main_v13, main_cst_3, main_v14, main_v15, main_cst_4] :=
  .cons rfl (.cons rfl (.cons rfl (.cons rfl (.cons rfl (.cons rfl (.cons rfl (.cons rfl (.cons rfl (.cons rfl .nil)))))))))
theorem writes1_1 : List.Forall₂ (fun (op : HloOp τ sig (Elt F)) y => op.writes = {Proc.devRef .tc y}) hostOps1_1
    [main_call1_v0, main_v16] := .cons rfl (.cons rfl .nil)
theorem writes1_2 : List.Forall₂ (fun (op : HloOp τ sig (Elt F)) y => op.writes = {Proc.devRef .tc y}) hostOps1_2
    [main_v17, main_cst_5] := .cons rfl (.cons rfl .nil)
theorem writes1_3 : List.Forall₂ (fun (op : HloOp τ sig (Elt F)) y => op.writes = {Proc.devRef .tc y}) hostOps1_3
    [main_call2_v0, main_v18] := .cons rfl (.cons rfl .nil)

/-- The region-entry valuation, stretch by stretch. -/
theorem V0_eq (c : Dev nD) : V0 m c = StableHlo.after hostOps0_1 (StableHlo.after hostOps0 (fun b => m (c, b))) := by
  show StableHlo.after (hostOps0 ++ (hostOps0_1 ++ [])) _ = _
  rw [List.append_nil, StableHlo.after_append]

/-- The lines after the region, stretch by stretch. -/
theorem tail_eq (W : Valuation τ sig (Elt F)) : StableHlo.after tailOps W
    = StableHlo.after hostOps1_3 (StableHlo.after hostOps1_2 (StableHlo.after hostOps1_1 (StableHlo.after hostOps1 W))) := by
  show StableHlo.after (hostOps1 ++ (hostOps1_1 ++ (hostOps1_2 ++ (hostOps1_3 ++ [])))) _ = _
  rw [List.append_nil, StableHlo.after_append, StableHlo.after_append, StableHlo.after_append]

/-- No line before the region writes an argument. -/
theorem V0_arg (c : Dev nD) (b : Ref sig .tc) (h0 : b ∉ [main_call0_v0, main_call0_cst, main_call0_v1, main_call0_v2, main_v0])
    (h1 : b ∉ [main_cst, main_v1, main_v2, main_v3, main_v4, main_v5, main_v6, main_v7, main_v8, main_v9]) :
    V0 m c (Proc.devRef .tc b) = m ((c : Thread nD τ).loc b) := by
  rw [V0_eq, after_keep writes0_1 h1, after_keep writes0 h0]

/-- No line after the region writes an argument either. -/
theorem tail_arg (W : Valuation τ sig (Elt F)) (b : Ref sig .tc)
    (h1 : b ∉ [main_cst_0, main_v11, main_cst_1, main_v12, main_cst_2, main_v13, main_cst_3, main_v14, main_v15, main_cst_4])
    (h2 : b ∉ [main_call1_v0, main_v16]) (h3 : b ∉ [main_v17, main_cst_5]) (h4 : b ∉ [main_call2_v0, main_v18]) :
    StableHlo.after tailOps W (Proc.devRef .tc b) = W (Proc.devRef .tc b) := by
  rw [tail_eq, after_keep writes1_3 h4, after_keep writes1_2 h3, after_keep writes1_1 h2, after_keep writes1 h1]

end RunAux

namespace RunAux

variable (dats : (p : Fin 1) → (c : Dev nD) → Dat τ (Elt F) Unit ℕ (UR sig nD τ) ℕ (cfgs p) c)

/-- The seven buffers behind the eight windows' arrays, one by one. -/
theorem arrBufs_eq (c : Dev nD) (W : (b : Ref sig .tc) → Buf (Elt F) ((c : Thread nD τ).loc b)) :
    (Pipeline.arrBufs spec0 c W : sProp 𝕄)
      = iprop((((c : Thread nD τ).loc main_v5) ↦{fullShare} W main_v5) ∗ (((c : Thread nD τ).loc main_v6) ↦{fullShare} W main_v6)
          ∗ (((c : Thread nD τ).loc main_v7) ↦{fullShare} W main_v7) ∗ (((c : Thread nD τ).loc main_v8) ↦{fullShare} W main_v8)
          ∗ (((c : Thread nD τ).loc main_v9) ↦{fullShare} W main_v9) ∗ (((c : Thread nD τ).loc main_v10_0) ↦{fullShare} W main_v10_0)
          ∗ (((c : Thread nD τ).loc main_v10_1) ↦{fullShare} W main_v10_1)) :=
  bigSep_eq_bigSepL_of_eq [main_v5, main_v6, main_v7, main_v8, main_v9, main_v10_0, main_v10_1] (by decide) (by decide) _

/-- Every window holds its array at the share stated for it: an output at the full share. -/
theorem share_eq (c : Dev nD) (hq : ∀ w, (dats 0 c).q w = winShare w) : ∀ w, (dats 0 c).share w = winShare w
  | 0 => by unfold Pipeline.Dat.share; rw [if_neg (by decide), hq]
  | 1 => by unfold Pipeline.Dat.share; rw [if_neg (by decide), hq]
  | 2 => by unfold Pipeline.Dat.share; rw [if_neg (by decide), hq]
  | 3 => by unfold Pipeline.Dat.share; rw [if_neg (by decide), hq]
  | 4 => by unfold Pipeline.Dat.share; rw [if_neg (by decide), hq]
  | 5 => by unfold Pipeline.Dat.share; rw [if_neg (by decide), hq]
  | 6 => by unfold Pipeline.Dat.share; rw [if_pos (by decide)]; rfl
  | 7 => by unfold Pipeline.Dat.share; rw [if_pos (by decide)]; rfl
  | ⟨_ + 8, h⟩ => absurd h (Nat.not_lt.2 (Nat.le_add_left _ _))

/-- The windows' arrays one by one, at the shares the windows hold. -/
theorem arrays_eq' (c : Dev nD) (hq : ∀ w, (dats 0 c).q w = winShare w)
    (X : (w : Fin 8) → Buf (Elt F) ((cfg0.win w).arr.view.loc (c : Thread nD τ))) :
    ((dats 0 c).arrays X : sProp 𝕄)
      = iprop((((c : Thread nD τ).loc main_v5) ↦{fullShare.left} X 0) ∗ (((c : Thread nD τ).loc main_v5) ↦{fullShare.right} X 1)
          ∗ (((c : Thread nD τ).loc main_v6) ↦{fullShare} X 2) ∗ (((c : Thread nD τ).loc main_v7) ↦{fullShare} X 3)
          ∗ (((c : Thread nD τ).loc main_v8) ↦{fullShare} X 4) ∗ (((c : Thread nD τ).loc main_v9) ↦{fullShare} X 5)
          ∗ (((c : Thread nD τ).loc main_v10_0) ↦{fullShare} X 6) ∗ (((c : Thread nD τ).loc main_v10_1) ↦{fullShare} X 7)) := by
  unfold Pipeline.Dat.arrays
  exact (bigSep_congr fun w _ => by rw [(arr_whole0 w).set_eq_univ, share_eq dats c hq w]).trans
    (bigSep_W0 (fun w => (((c : Thread nD τ).loc (Pipeline.arrRef spec0 w)) ↦{winShare w} X w : sProp 𝕄)))

end RunAux

namespace RunAux

variable (dats : (p : Fin 1) → (c : Dev nD) → Dat τ (Elt F) Unit ℕ (UR sig nD τ) ℕ (cfgs p) c)

/-- The seven buffers, whole, make the eight windows' arrays at the same contents: the shared buffer's full share
    is dealt, a half to each of its two windows. -/
theorem arrays_of_bufs (c : Dev nD) (hq : ∀ w, (dats 0 c).q w = winShare w)
    (X : (w : Fin 8) → Buf (Elt F) ((cfg0.win w).arr.view.loc (c : Thread nD τ)))
    (W : (b : Ref sig .tc) → Buf (Elt F) ((c : Thread nD τ).loc b))
    (h0 : X 0 = W main_v5) (h1 : X 1 = W main_v5) (h2 : X 2 = W main_v6) (h3 : X 3 = W main_v7) (h4 : X 4 = W main_v8)
    (h5 : X 5 = W main_v9) (h6 : X 6 = W main_v10_0) (h7 : X 7 = W main_v10_1) :
    (Pipeline.arrBufs spec0 c W : sProp 𝕄) ⊢ (dats 0 c).arrays X := by
  rw [arrBufs_eq, arrays_eq' dats c hq, h0, h1, h2, h3, h4, h5, h6, h7]
  iintro ⟨H5, H6, H7, H8, H9, Ha, Hb⟩
  ihave H5 := (pointsTo_share (PosShare.mem_left_op_right fullShare)).1 $$ H5
  icases H5 with ⟨H5l, H5r⟩
  isplitl [H5l]; · iexact H5l
  isplitl [H5r]; · iexact H5r
  isplitl [H6]; · iexact H6
  isplitl [H7]; · iexact H7
  isplitl [H8]; · iexact H8
  isplitl [H9]; · iexact H9
  isplitl [Ha]; · iexact Ha
  iexact Hb

/-- And back: the two halves of the shared buffer joined. -/
theorem bufs_of_arrays (c : Dev nD) (hq : ∀ w, (dats 0 c).q w = winShare w)
    (X : (w : Fin 8) → Buf (Elt F) ((cfg0.win w).arr.view.loc (c : Thread nD τ)))
    (W : (b : Ref sig .tc) → Buf (Elt F) ((c : Thread nD τ).loc b))
    (h0 : X 0 = W main_v5) (h1 : X 1 = W main_v5) (h2 : X 2 = W main_v6) (h3 : X 3 = W main_v7) (h4 : X 4 = W main_v8)
    (h5 : X 5 = W main_v9) (h6 : X 6 = W main_v10_0) (h7 : X 7 = W main_v10_1) :
    ((dats 0 c).arrays X : sProp 𝕄) ⊢ Pipeline.arrBufs spec0 c W := by
  rw [arrBufs_eq, arrays_eq' dats c hq, h0, h1, h2, h3, h4, h5, h6, h7]
  iintro ⟨H5l, H5r, H6, H7, H8, H9, Ha, Hb⟩
  ihave H5 := (pointsTo_share (PosShare.mem_left_op_right fullShare)).2 $$ [H5l H5r]
  · isplitl [H5l]; · iexact H5l
    iexact H5r
  isplitl [H5]; · iexact H5
  isplitl [H6]; · iexact H6
  isplitl [H7]; · iexact H7
  isplitl [H8]; · iexact H8
  isplitl [H9]; · iexact H9
  isplitl [Ha]; · iexact Ha
  iexact Hb

end RunAux

namespace RunAux

variable (dats : (p : Fin 1) → (c : Dev nD) → Dat τ (Elt F) Unit ℕ (UR sig nD τ) ℕ (cfgs p) c)

/-- ENTRY, the buffers: the core's unscoped buffers at a valuation the proof data's entry arrays are read off are the
    windows' arrays at their entry contents and the buffers no window reads or writes. -/
theorem entry_split (c : Dev nD) (Vv : Valuation τ sig (Elt F))
    (hA : ∀ w, (dats 0 c).A w = Vv (Proc.devRef .tc (Pipeline.arrRef spec0 w))) (hq : ∀ w, (dats 0 c).q w = winShare w) :
    (StableHlo.held (c : Thread nD τ) (Pipeline.ucRefs τ sig) Vv : sProp 𝕄)
      ⊢ iprop((dats 0 c).arrays ((dats 0 c).arrAt · 0) ∗ Pipeline.unscopedRest spec0 c (fun b => Vv b)) := by
  rw [← Pipeline.unscopedBufs_held c Vv, Pipeline.unscopedBufs_split₀ cfgs 0 winFacts₀0.arr_unscoped c]
  exact sep_mono (arrays_of_bufs dats c hq _ _ (hA 0) (hA 1) (hA 2) (hA 3) (hA 4) (hA 5) (hA 6) (hA 7)) .rfl

/-- EXIT, the buffers: the windows' arrays after every write-back and the bypassing buffers are the core's unscoped
    buffers at a valuation that differs from the entry one at the two result columns only. -/
theorem exit_join (c : Dev nD) (Vv Wv : Valuation τ sig (Elt F))
    (hA : ∀ w, (dats 0 c).A w = Vv (Proc.devRef .tc (Pipeline.arrRef spec0 w))) (hq : ∀ w, (dats 0 c).q w = winShare w)
    (hW : ∀ b : Ref sig .tc, b ≠ main_v10_0 → b ≠ main_v10_1 → Wv (Proc.devRef .tc b) = Vv (Proc.devRef .tc b))
    (h6 : Wv (Proc.devRef .tc main_v10_0) = (dats 0 c).arrAt 6 cfg0.N)
    (h7 : Wv (Proc.devRef .tc main_v10_1) = (dats 0 c).arrAt 7 cfg0.N) :
    iprop((dats 0 c).arrays ((dats 0 c).arrAt · cfg0.N) ∗ Pipeline.unscopedRest spec0 c (fun b => Vv b))
      ⊢ (StableHlo.held (c : Thread nD τ) (Pipeline.ucRefs τ sig) Wv : sProp 𝕄) := by
  rw [← Pipeline.unscopedBufs_held c Wv, Pipeline.unscopedBufs_split₀ cfgs 0 winFacts₀0.arr_unscoped c]
  refine sep_mono (bufs_of_arrays dats c hq _ _ ?_ ?_ ?_ ?_ ?_ ?_ h6.symm h7.symm) (Entails.of_eq ?_)
  · exact ((dats 0 c).arrAt_in 0 rfl _).trans ((hA 0).trans (hW main_v5 (by decide) (by decide)).symm)
  · exact ((dats 0 c).arrAt_in 1 rfl _).trans ((hA 1).trans (hW main_v5 (by decide) (by decide)).symm)
  · exact ((dats 0 c).arrAt_in 2 rfl _).trans ((hA 2).trans (hW main_v6 (by decide) (by decide)).symm)
  · exact ((dats 0 c).arrAt_in 3 rfl _).trans ((hA 3).trans (hW main_v7 (by decide) (by decide)).symm)
  · exact ((dats 0 c).arrAt_in 4 rfl _).trans ((hA 4).trans (hW main_v8 (by decide) (by decide)).symm)
  · exact ((dats 0 c).arrAt_in 5 rfl _).trans ((hA 5).trans (hW main_v9 (by decide) (by decide)).symm)
  · unfold Pipeline.unscopedRest
    refine bigSep_congr fun b hb => ?_
    have hb' := (Finset.mem_sdiff.mp hb).2
    simp only [hW b (fun e => hb' (Finset.mem_image.mpr ⟨6, Finset.mem_univ _, e.symm⟩))
      (fun e => hb' (Finset.mem_image.mpr ⟨7, Finset.mem_univ _, e.symm⟩))]

end RunAux

namespace RunAux

variable (dats : (p : Fin 1) → (c : Dev nD) → Dat τ (Elt F) Unit ℕ (UR sig nD τ) ℕ (cfgs p) c)

/-- The prefetched tables' admissible contents: no table. -/
abbrev adm : (p : Fin 1) → (pcfgs (F := F) p).Adm := fun p => (cfgs p).toPCfg_adm
/-- No core owes another anything: no level is assigned. -/
abbrev L : GSem nD τ sig → Finset Unit := fun _ => ∅
abbrev lv : GSem nD τ sig → Unit → ℕ := fun _ _ => 0

/-- What rides beside the buffers through the lines before the region: the core owes nothing and has recorded no
    wait; its generator register is at some state. -/
abbrev R₀ (c : Dev nD) : sProp 𝕄 :=
  iprop(owes (c : Thread nD τ) (0 : CellTallies nD τ sig Unit) ∅ ∗ ∃ r, prngReg c r)
/-- And through the lines after it: the waits recorded are those of the region. -/
abbrev R₁ (c : Dev nD) : sProp 𝕄 :=
  iprop((∃ W, owes (c : Thread nD τ) (0 : CellTallies nD τ sig Unit) W) ∗ ∃ r, prngReg c r)

local notation "ℍ" => Pipeline.HostSeg (Name := ℕ) (U := UR sig nD τ) (pcfgs (F := F)) defs₀ Variants.none L lv

/-- A stretch of host operations over the core's unscoped buffers. -/
def hseg (ops : List (HloOp τ sig (Elt F))) (hsub : ops.Forall fun op => op.bufs ⊆ StableHlo.tcRefs τ sig)
    (hf : ∀ op ∈ ops, op.fresh = ∅) (W : Dev nD → Valuation τ sig (Elt F)) (R : Dev nD → sProp 𝕄) : ℍ :=
  Pipeline.HostSeg.ofOps _ _ _ _ _ (Pipeline.ucRefs τ sig) ops
    (fun op h => Pipeline.sub_ucRefs op ((List.forall_iff_forall_mem.mp hsub) op h)) hf W R

theorem fresh0 : ∀ op ∈ (hostOps0 : List (HloOp τ sig (Elt F))), op.fresh = ∅ := by
  intro _ h; (repeat (cases h with | head => rfl | tail _ h => ?_)); exact nomatch h
theorem fresh0_1 : ∀ op ∈ (hostOps0_1 : List (HloOp τ sig (Elt F))), op.fresh = ∅ := by
  intro _ h; (repeat (cases h with | head => rfl | tail _ h => ?_)); exact nomatch h
theorem fresh1 : ∀ op ∈ (hostOps1 : List (HloOp τ sig (Elt F))), op.fresh = ∅ := by
  intro _ h; (repeat (cases h with | head => rfl | tail _ h => ?_)); exact nomatch h
theorem fresh1_1 : ∀ op ∈ (hostOps1_1 : List (HloOp τ sig (Elt F))), op.fresh = ∅ := by
  intro _ h; (repeat (cases h with | head => rfl | tail _ h => ?_)); exact nomatch h
theorem fresh1_2 : ∀ op ∈ (hostOps1_2 : List (HloOp τ sig (Elt F))), op.fresh = ∅ := by
  intro _ h; (repeat (cases h with | head => rfl | tail _ h => ?_)); exact nomatch h
theorem fresh1_3 : ∀ op ∈ (hostOps1_3 : List (HloOp τ sig (Elt F))), op.fresh = ∅ := by
  intro _ h; (repeat (cases h with | head => rfl | tail _ h => ?_)); exact nomatch h

end RunAux

namespace RunAux

variable (dats : (p : Fin 1) → (c : Dev nD) → Dat τ (Elt F) Unit ℕ (UR sig nD τ) ℕ (cfgs p) c)

set_option backward.isDefEq.respectTransparency.types false in
/-- THE REGION: entered from the buffers at the region-entry valuation — the windows' arrays into the pipeline, the
    generator register into the invariant, every other unscoped buffer bypassing —, left with the buffers at `Wfin`. -/
def reg (hbody : ∀ c, BodyObligation (dats 0 c) (defs₀ (F := F)) Variants.none () Set.univ)
    (hA : ∀ c w, (dats 0 c).A w = V m c (Pipeline.arrRef spec0 w))
    (hq : ∀ c w, (dats 0 c).q w = winShare w)
    (howed : ∀ c t, (dats 0 c).owed t = 0)
    (hin : ∀ c, (Pipeline.ΦA spec0 c : sProp 𝕄) ⊢ (dats 0 c).Φ 0)
    (hout : ∀ c, (dats 0 c).Φ (Fin.last cfg0.N) ⊢ (Pipeline.ΦA spec0 c : sProp 𝕄)) :
    Pipeline.RegionSeg (pcfgs (F := F)) adm dats () defs₀ Variants.none L lv 0 where
  win := winFacts₀0
  block_pos := block_pos0
  stage_whole := stage_whole0
  K := PEmpty
  osem := fun k => k.elim
  ho := Pipeline.OwnSemFacts.none spec0
  hbody c := (hbody c).loose
  hwaits := Pipeline.hwaits_of_owed_zero _ _ _ _ L lv 0 howed
  pre c := iprop(StableHlo.held (c : Thread nD τ) (Pipeline.ucRefs τ sig) (V0 m c) ∗ R₀ c)
  post c := iprop(StableHlo.held (c : Thread nD τ) (Pipeline.ucRefs τ sig) (Wfin m dats c) ∗ R₁ c)
  X c := iprop(∃ r, prngReg c r)
  Y c := iprop(∃ r, prngReg c r)
  Z c := Pipeline.unscopedRest spec0 c (V m c)
  hentry c := by
    iintro ⟨⟨Hh, HO, Hp⟩, -, -⟩
    ihave H := (entry_split dats c (V0 m c) (hA c) (hq c)) $$ Hh
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      iexists ∅; isplitr; · ipureintro; intro x hx; exact absurd hx (by simp)
      iexact HO
    isplitl [Hp]; · iexact Hp
    iexact Hr
  hin c := by
    refine BIBase.Entails.trans ?_ (hin c)
    unfold Pipeline.ΦA
    iintro ⟨Hp, -, Hr⟩
    isplitl [Hr]; · iexact Hr
    iexact Hp
  hout c := by
    refine (hout c).trans ?_
    rw [Pipeline.ownSems0_none]; unfold Pipeline.ΦA
    iintro ⟨Hr, Hp⟩
    isplitl [Hp]; · iexact Hp
    isplitr; · iempintro
    iexact Hr
  hexit c := by
    iintro ⟨Ha, HO, HY, HZ⟩
    ihave Hh := (exit_join dats c (V0 m c) (Wfin m dats c) (hA c) (hq c) (Wfin_of_ne m dats c) (Wfin_contrib m dats c) (Wfin_include m dats c)) $$ [Ha HZ]
    · isplitl [Ha]; · iexact Ha
      iexact HZ
    imodintro
    isplitl [Hh]; · iexact Hh
    isplitl [HO]
    · unfold Pipeline.Dat.owesAt Pipeline.owesWithin
      rw [howed c (Fin.last _)]
      icases HO with ⟨%W, -, HO⟩; iexists W; iexact HO
    iexact HY

end RunAux

namespace RunAux

variable (dats : (p : Fin 1) → (c : Dev nD) → Dat τ (Elt F) Unit ℕ (UR sig nD τ) ℕ (cfgs p) c)

/-- The buffers after the four stretches that follow the region, from the valuation the region leaves. -/
abbrev Wend (c : Dev nD) : Valuation τ sig (Elt F) :=
  StableHlo.after hostOps1_3 (StableHlo.after hostOps1_2 (StableHlo.after hostOps1_1 (StableHlo.after hostOps1 (Wfin m dats c))))

/-- @main as its seven segments: two host stretches, the region, four host stretches. -/
def segs (hbody : ∀ c, BodyObligation (dats 0 c) (defs₀ (F := F)) Variants.none () Set.univ)
    (hA : ∀ c w, (dats 0 c).A w = V m c (Pipeline.arrRef spec0 w))
    (hq : ∀ c w, (dats 0 c).q w = winShare w)
    (howed : ∀ c t, (dats 0 c).owed t = 0)
    (hin : ∀ c, (Pipeline.ΦA spec0 c : sProp 𝕄) ⊢ (dats 0 c).Φ 0)
    (hout : ∀ c, (dats 0 c).Φ (Fin.last cfg0.N) ⊢ (Pipeline.ΦA spec0 c : sProp 𝕄)) :
    List (Pipeline.Seg (pcfgs (F := F)) adm dats () defs₀ Variants.none L lv) :=
  [ .host (hseg hostOps0 hostOps0_sub fresh0 (fun c b => m (c, b)) R₀),
    .host (hseg hostOps0_1 hostOps0_1_sub fresh0_1 (fun c => StableHlo.after hostOps0 (fun b => m (c, b))) R₀),
    .region (reg m dats hbody hA hq howed hin hout),
    .host (hseg hostOps1 hostOps1_sub fresh1 (fun c => Wfin m dats c) R₁),
    .host (hseg hostOps1_1 hostOps1_1_sub fresh1_1 (fun c => StableHlo.after hostOps1 (Wfin m dats c)) R₁),
    .host (hseg hostOps1_2 hostOps1_2_sub fresh1_2 (fun c => StableHlo.after hostOps1_1 (StableHlo.after hostOps1 (Wfin m dats c))) R₁),
    .host (hseg hostOps1_3 hostOps1_3_sub fresh1_3
      (fun c => StableHlo.after hostOps1_2 (StableHlo.after hostOps1_1 (StableHlo.after hostOps1 (Wfin m dats c)))) R₁) ]

/-- The stretches after the region taken together. -/
theorem Wend_eq (c : Dev nD) : Wend m dats c = StableHlo.after tailOps (Wfin m dats c) := (tail_eq _).symm

/-- A reference no stretch writes, and no result column, ends as launched. -/
theorem Wend_arg (c : Dev nD) (b : Ref sig .tc)
    (h0 : b ∉ [main_call0_v0, main_call0_cst, main_call0_v1, main_call0_v2, main_v0])
    (h0' : b ∉ [main_cst, main_v1, main_v2, main_v3, main_v4, main_v5, main_v6, main_v7, main_v8, main_v9])
    (ha : b ≠ main_v10_0) (hb : b ≠ main_v10_1)
    (h1 : b ∉ [main_cst_0, main_v11, main_cst_1, main_v12, main_cst_2, main_v13, main_cst_3, main_v14, main_v15, main_cst_4])
    (h2 : b ∉ [main_call1_v0, main_v16]) (h3 : b ∉ [main_v17, main_cst_5]) (h4 : b ∉ [main_call2_v0, main_v18]) :
    Wend m dats c (Proc.devRef .tc b) = m ((c : Thread nD τ).loc b) := by
  rw [Wend_eq, tail_arg _ b h1 h2 h3 h4, Wfin_of_ne m dats c b ha hb]
  exact V0_arg m c b h0 h0'

/-- An unscoped TensorCore reference is among the buffers the host stretches run within. -/
theorem mem_ucRefs (b : Ref sig .tc) (hb : b.isScoped = false) : Proc.devRef .tc b ∈ Pipeline.ucRefs τ sig :=
  Finset.mem_filter.mpr ⟨StableHlo.devRef_mem_tcRefs b, fun h => Bool.false_ne_true (hb.symm.trans h)⟩

end RunAux

set_option backward.isDefEq.respectTransparency.types false in
/-- THE RUN. For proof data whose arrays are the region-entry contents, whose windows hold the shares `winShare`,
    that owe nothing, and whose invariant starts from and ends in the class invariant: every weakly fair execution of
    @main terminates without a fault, with the result the lines after the region compute from the two columns the
    region left, and the three arguments as they were. -/
theorem run_of (dats : (p : Fin 1) → (c : Dev nD) → Dat τ (Elt F) Unit ℕ (UR sig nD τ) ℕ (cfgs p) c)
    (hbody : ∀ c, BodyObligation (dats 0 c) (defs₀ (F := F)) Variants.none () Set.univ)
    (hA : ∀ c w, (dats 0 c).A w = V m c (Pipeline.arrRef spec0 w))
    (hq : ∀ c w, (dats 0 c).q w = winShare w)
    (howed : ∀ c t, (dats 0 c).owed t = 0)
    (hin : ∀ c, (Pipeline.ΦA spec0 c : sProp 𝕄) ⊢ (dats 0 c).Φ 0)
    (hout : ∀ c, (dats 0 c).Φ (Fin.last cfg0.N) ⊢ (Pipeline.ΦA spec0 c : sProp 𝕄)) :
    θ_run defs (onTc (τ := τ) (main (F := F))) ⟨m, fun _ => 0, ρ⟩ (fun r => ∀ c : Dev nD,
      r.2.mem ((c.tc : Thread nD τ).loc main_v18) = StableHlo.after tailOps (Wfin m dats c) (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) RunAux.adm dats () cellOf_inj emb₁ defs₀ Variants.none RunAux.L RunAux.lv m ρ main
    (RunAux.segs m dats hbody hA hq howed hin hout)
    (fun c Q => by rw [main_chain c, Pipeline.Seg.run_eq_chain]; exact .rfl)
    (by unfold RunAux.segs; simp only [Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) RunAux.adm) cellOf_inj) (Pipeline.launchToks (Pipeline.pin (pcfgs (F := F)) RunAux.adm) cellOf_inj))
    (hu₀ := by
      iintro Hu; imodintro
      isplitl [Hu]
      · iapply (show (ownU _ : sProp 𝕄) ⊢ BI.own (emb₁ (initOf (Pipeline.cells (Pipeline.pin (pcfgs (F := F)) RunAux.adm) cellOf_inj)
          (Pipeline.launchToks (Pipeline.pin (pcfgs (F := F)) RunAux.adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m (c, b)) ∗ RunAux.R₀ c))
    (Tₙ := fun c => iprop(StableHlo.held (c : Thread nD τ) (Pipeline.ucRefs τ sig) (RunAux.Wend m dats c) ∗ ∃ r, prngReg c r))
    (hch := ⟨fun _ => .rfl, fun _ => .rfl,
      fun c => Entails.of_eq (congrArg (fun W => iprop(StableHlo.held (c : Thread nD τ) (Pipeline.ucRefs τ sig) W ∗ RunAux.R₀ c)) (RunAux.V0_eq m c).symm),
      fun _ => .rfl, fun _ => .rfl, fun _ => .rfl, fun _ => .rfl,
      fun c => by
        show iprop(StableHlo.held (c : Thread nD τ) (Pipeline.ucRefs τ sig) (RunAux.Wend m dats c) ∗ RunAux.R₁ c) ⊢ _
        iintro ⟨Hh, HO, Hp⟩
        isplitr [HO]
        · isplitl [Hh]; · iexact Hh
          iexact Hp
        · iexact HO⟩)
    (hinit := by
      refine Pipeline.initEach RunAux.L RunAux.lv fun c => ?_
      rw [show unscopedBufs c (fun b => m ((c : Thread nD τ).loc b)) = StableHlo.held (c : Thread nD τ) (Pipeline.ucRefs τ sig) (fun b => m (c, b))
        from Pipeline.unscopedBufs_held c (fun b => m (c, b))]
      iintro ⟨⟨Hh, -, HO, -, Hp, -⟩, -⟩
      imodintro
      isplitl [Hh]; · iexact Hh
      isplitl [HO]; · iexact HO
      iexists _; iexact Hp)
    (QY := fun c s => ∀ b ∈ Pipeline.ucRefs τ sig, s.mem ((c : Thread nD τ).1, b) = RunAux.Wend m dats c b)
    (hfin := fun c s' => by
      unfold StableHlo.held
      iintro ⟨⟨Hh, -⟩, HSI⟩
      imodintro
      iapply (pointsTo_read_all (Pipeline.ucRefs τ sig) (fun b => ((c : Thread nD τ).1, b)) (RunAux.Wend m dats c) s')
      isplitl [Hh]; · iexact Hh
      iexact HSI)
    (hQ := fun s h c => by
      refine ⟨?_, ?_, ?_, ?_⟩
      · rw [← RunAux.Wend_eq]; exact h c _ (RunAux.mem_ucRefs main_v18 rfl)
      · exact (h c _ (RunAux.mem_ucRefs main_arg0 rfl)).trans
          (RunAux.Wend_arg m dats c main_arg0 (by decide) (by decide) (by decide) (by decide) (by decide) (by decide) (by decide) (by decide))
      · exact (h c _ (RunAux.mem_ucRefs main_arg1 rfl)).trans
          (RunAux.Wend_arg m dats c main_arg1 (by decide) (by decide) (by decide) (by decide) (by decide) (by decide) (by decide) (by decide))
      · exact (h c _ (RunAux.mem_ucRefs main_arg2 rfl)).trans
          (RunAux.Wend_arg m dats c main_arg2 (by decide) (by decide) (by decide) (by decide) (by decide) (by decide) (by decide) (by decide)))

end Cert.Kernel.Hand

end
-- ==== Proof.K.Run.lean ====
/-
  The run of @main and the frame claim, from the region's body obligation and the launch.
-/
import proofs.«141537_j90099823936181_1_alg».proof.Proof.K.Body
import proofs.«141537_j90099823936181_1_alg».proof.Proof.K.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data deal the embeddings' array between its two windows, a half each. -/
theorem hq (c : Dev nD) (w : Fin cfg0.W) : (dats m 0 c).q w = winShare w := by
  dsimp only [dats]
  match w with
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl

/-- THE RUN: every weakly fair execution of @main terminates without a fault, its result what the lines after the
    region compute from the two columns the region left, its three arguments unchanged. -/
theorem run_main :
    θ_run defs (onTc (τ := τ) (main (F := F))) ⟨m, fun _ => 0, ρ⟩ (fun r => ∀ c : Dev nD,
      r.2.mem ((c.tc : Thread nD τ).loc main_v18) = StableHlo.after tailOps (Wfin m (dats m) c) (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_of m ρ (dats m) (fun c => body_obligation m c) (fun c w => A_eq m c w) (fun c w => hq m c w) (fun _ _ => rfl)
    (fun c => hin m c) (fun c => hout m c)

/-- THE FRAME: the run with its result dropped. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.Kernel.Hand

end
-- ==== Proof.KI.Entry.lean ====
/-
  The TensorCore's buffers when the region is entered, and the lines of @main after it.

  Before the region @main normalises the embeddings (fifteen host operations in two stretches:
  the row norms, their clamp at 1e-12, the quotient, its change of format, and the four
  reshapes of labels and groups); `V0` is the valuation those leave, `V` the same read at a
  TensorCore reference. After the region sixteen host operations in four stretches reduce the
  two result columns to the scalar loss; `tailOps` lists them in order.
-/
import proofs.«141537_j90099823936181_1_alg».proof.Proof.Gen.KernelIdeal.Launch
import proofs.«141537_j90099823936181_1_alg».proof.Proof.Gen.KernelIdeal.Skeleton
import proofs.«141537_j90099823936181_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

/-- The host operations before the region, in order. -/
abbrev headOps : List (HloOp τ sig (Elt F)) := List.flatten [hostOps0, hostOps0_1]

/-- The host operations after the region, in order. -/
abbrev tailOps : List (HloOp τ sig (Elt F)) := List.flatten [hostOps1, hostOps1_1, hostOps1_2, hostOps1_3]

/-- Core `c`'s buffer contents when the region is entered, as a valuation. -/
abbrev V0 (c : Dev nD) : Valuation τ sig (Elt F) := StableHlo.after headOps (fun b => m (c, b))

/-- The same read at a TensorCore reference. -/
abbrev V (c : Dev nD) (b : Ref sig .tc) : Buf (Elt F) ((c : Thread nD τ).loc b) := V0 m c (Proc.devRef .tc b)

end Cert.KernelIdeal.Hand

end
-- ==== Proof.KI.Runs.lean ====
/-
  What the three runs of the kernel body and the frame over them are stated over.

  The grid is 8 row blocks × 16 column tiles, point `t` at row block `t / 16` and tile `t % 16`. The body
  resets its six running columns when the tile is the first (`t % 16 = 0`) and writes the two result
  columns when it is the last (`t % 16 = 15`); so a point is in one of three cases: first tile, a middle
  tile, last tile. The two result windows are idle (left untouched, not written back) except at the last
  tile. `iblk` is a window's block of its array as the region finds it.
-/
import proofs.«141537_j90099823936181_1_alg».proof.Proof.KI.Entry

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not (an unfetched point has
    the block index of the point before), for any proof data whose array is the region-entry contents and whose
    body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not (an unfetched point has
    the block index of the point before), for any proof data whose array is the region-entry contents and whose
    body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not (an unfetched point has
    the block index of the point before), for any proof data whose array is the region-entry contents and whose
    body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or not (an unfetched point has
    the block index of the point before), for any proof data whose array is the region-entry contents and whose
    body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, fetched there or not (an unfetched point has
    the block index of the point before), for any proof data whose array is the region-entry contents and whose
    body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, fetched there or not (an unfetched point has
    the block index of the point before), for any proof data whose array is the region-entry contents and whose
    body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, decided over the grid -/

/-- The first `scf.if`: the tile is the first of its row block. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The second `scf.if`: the tile is the last of its row block. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Result window 6 is idle, and not written back, wherever the tile is not the last; live at the last. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel
/-- Result window 7 is idle, and not written back, wherever the tile is not the last; live at the last. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel

/-! ## The memrefs the body is called with -/

abbrev ms0_0 (t : Fin cfg0.N) : Memref sig .tc .vmem S1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1 .f32 := win0_7.stage (cfg0.slots t 7)
abbrev hs0_7 (t : Fin cfg0.N) : (ms0_7 t).IsWhole := hstage0_7 ((cfg0.slots t 7).cast nbuf0_7)
/-- One staging buffer of each result window, through which its contents are stated. -/
abbrev VO0_6 : View sig .tc .vmem S1024x1 .f32 := (Memref.whole cc0_stg6_0 : Memref sig .tc .vmem S1024x1 .f32).view
abbrev VO0_7 : View sig .tc .vmem S1024x1 .f32 := (Memref.whole cc0_stg7_0 : Memref sig .tc .vmem S1024x1 .f32).view
/-- Running column 0: a whole scoped buffer of the kernel's own, carried from tile to tile. -/
abbrev scM0_0 : Memref sig .tc .vmem S1024x1 .f32 := Memref.whole cc0_scratch0
abbrev VS0_0 : View sig .tc .vmem S1024x1 .f32 := scM0_0.view
/-- Running column 1: a whole scoped buffer of the kernel's own, carried from tile to tile. -/
abbrev scM0_1 : Memref sig .tc .vmem S1024x1 .f32 := Memref.whole cc0_scratch1
abbrev VS0_1 : View sig .tc .vmem S1024x1 .f32 := scM0_1.view
/-- Running column 2: a whole scoped buffer of the kernel's own, carried from tile to tile. -/
abbrev scM0_2 : Memref sig .tc .vmem S1024x1 .f32 := Memref.whole cc0_scratch2
abbrev VS0_2 : View sig .tc .vmem S1024x1 .f32 := scM0_2.view
/-- Running column 3: a whole scoped buffer of the kernel's own, carried from tile to tile. -/
abbrev scM0_3 : Memref sig .tc .vmem S1024x1 .f32 := Memref.whole cc0_scratch3
abbrev VS0_3 : View sig .tc .vmem S1024x1 .f32 := scM0_3.view
/-- Running column 4: a whole scoped buffer of the kernel's own, carried from tile to tile. -/
abbrev scM0_4 : Memref sig .tc .vmem S1024x1 .f32 := Memref.whole cc0_scratch4
abbrev VS0_4 : View sig .tc .vmem S1024x1 .f32 := scM0_4.view
/-- Running column 5: a whole scoped buffer of the kernel's own, carried from tile to tile. -/
abbrev scM0_5 : Memref sig .tc .vmem S1024x1 .f32 := Memref.whole cc0_scratch5
abbrev VS0_5 : View sig .tc .vmem S1024x1 .f32 := scM0_5.view

/-- The class invariant with the six running columns as memrefs owned at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Hand

end
-- ==== Proof.KI.RunA.lean ====
/-
  The kernel body run at the first tile of a row block.
-/
import proofs.«141537_j90099823936181_1_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the FIRST tile of a row block: all six running columns are reset to their starting values and then
    updated with this tile; nothing is stored into the two result buffers, which are handed back as they were.
    The pieces each buffer ends with are found by running the body (they are the witness): the statement says that from the
    inputs' buffers at their blocks the body runs to the continuation holding the inputs as they were and each stored
    buffer with its pieces written. -/
noncomputable def kernelRun0_A (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32) :
    Σ' (L6 : List (View.Piece (Elt F) S1024x1 .f32)) (L7 : List (View.Piece (Elt F) S1024x1 .f32)) (LS0 : List (View.Piece (Elt F) S1024x1 .f32)) (LS1 : List (View.Piece (Elt F) S1024x1 .f32)) (LS2 : List (View.Piece (Elt F) S1024x1 .f32)) (LS3 : List (View.Piece (Elt F) S1024x1 .f32)) (LS4 : List (View.Piece (Elt F) S1024x1 .f32)), { LS5 : List (View.Piece (Elt F) S1024x1 .f32) //
      ∀ (xi6 xi7 : Vec F S1024x1 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare xi6
            ∗ owns (c : Thread nD τ) arg9 fullShare xi7
            ∗ (∃ d, owns (c : Thread nD τ) arg10 fullShare d)
            ∗ (∃ d, owns (c : Thread nD τ) arg11 fullShare d)
            ∗ (∃ d, owns (c : Thread nD τ) arg12 fullShare d)
            ∗ (∃ d, owns (c : Thread nD τ) arg13 fullShare d)
            ∗ (∃ d, owns (c : Thread nD τ) arg14 fullShare d)
            ∗ (∃ d, owns (c : Thread nD τ) arg15 fullShare d)
            ∗ (iprop(owns (c : Thread nD τ) arg2 fullShare x0
              ∗ owns (c : Thread nD τ) arg3 fullShare x1
              ∗ owns (c : Thread nD τ) arg4 fullShare x2
              ∗ owns (c : Thread nD τ) arg5 fullShare x3
              ∗ owns (c : Thread nD τ) arg6 fullShare x4
              ∗ owns (c : Thread nD τ) arg7 fullShare x5
              ∗ owns (c : Thread nD τ) arg8 fullShare xi6
              ∗ owns (c : Thread nD τ) arg9 fullShare xi7
              ∗ (∃ f, arg10.view.loc (c : Thread nD τ) ↦[arg10.view.set]{fullShare} arg10.view.writes (Elt F) f LS0)
              ∗ (∃ f, arg11.view.loc (c : Thread nD τ) ↦[arg11.view.set]{fullShare} arg11.view.writes (Elt F) f LS1)
              ∗ (∃ f, arg12.view.loc (c : Thread nD τ) ↦[arg12.view.set]{fullShare} arg12.view.writes (Elt F) f LS2)
              ∗ (∃ f, arg13.view.loc (c : Thread nD τ) ↦[arg13.view.set]{fullShare} arg13.view.writes (Elt F) f LS3)
              ∗ (∃ f, arg14.view.loc (c : Thread nD τ) ↦[arg14.view.set]{fullShare} arg14.view.writes (Elt F) f LS4)
              ∗ (∃ f, arg15.view.loc (c : Thread nD τ) ↦[arg15.view.set]{fullShare} arg15.view.writes (Elt F) f LS5)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], [], ?_, ?_, ?_, ?_, ?_, ?_, fun xi6 xi7 E K => ?run⟩
  case run =>
    simp only [cc0__kernel_eq_skeleton]; unfold cc0__kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Hand

end
-- ==== Proof.KI.RunB.lean ====
/-
  The kernel body run at a middle tile of a row block.
-/
import proofs.«141537_j90099823936181_1_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a MIDDLE tile: the six running columns, at what the tile before left, are updated with this tile;
    nothing is stored into the two result buffers, which are handed back as they were.
    The pieces each buffer ends with are found by running the body (they are the witness): the statement says that from the
    inputs' buffers at their blocks the body runs to the continuation holding the inputs as they were and each stored
    buffer with its pieces written. -/
noncomputable def kernelRun0_B (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) :
    Σ' (L6 : List (View.Piece (Elt F) S1024x1 .f32)) (L7 : List (View.Piece (Elt F) S1024x1 .f32)) (LS0 : List (View.Piece (Elt F) S1024x1 .f32)) (LS1 : List (View.Piece (Elt F) S1024x1 .f32)) (LS2 : List (View.Piece (Elt F) S1024x1 .f32)) (LS3 : List (View.Piece (Elt F) S1024x1 .f32)) (LS4 : List (View.Piece (Elt F) S1024x1 .f32)), { LS5 : List (View.Piece (Elt F) S1024x1 .f32) //
      ∀ (xi6 xi7 : Vec F S1024x1 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare xi6
            ∗ owns (c : Thread nD τ) arg9 fullShare xi7
            ∗ owns (c : Thread nD τ) arg10 fullShare xs0
            ∗ owns (c : Thread nD τ) arg11 fullShare xs1
            ∗ owns (c : Thread nD τ) arg12 fullShare xs2
            ∗ owns (c : Thread nD τ) arg13 fullShare xs3
            ∗ owns (c : Thread nD τ) arg14 fullShare xs4
            ∗ owns (c : Thread nD τ) arg15 fullShare xs5
            ∗ (iprop(owns (c : Thread nD τ) arg2 fullShare x0
              ∗ owns (c : Thread nD τ) arg3 fullShare x1
              ∗ owns (c : Thread nD τ) arg4 fullShare x2
              ∗ owns (c : Thread nD τ) arg5 fullShare x3
              ∗ owns (c : Thread nD τ) arg6 fullShare x4
              ∗ owns (c : Thread nD τ) arg7 fullShare x5
              ∗ owns (c : Thread nD τ) arg8 fullShare xi6
              ∗ owns (c : Thread nD τ) arg9 fullShare xi7
              ∗ (∃ f, arg10.view.loc (c : Thread nD τ) ↦[arg10.view.set]{fullShare} arg10.view.writes (Elt F) f LS0)
              ∗ (∃ f, arg11.view.loc (c : Thread nD τ) ↦[arg11.view.set]{fullShare} arg11.view.writes (Elt F) f LS1)
              ∗ (∃ f, arg12.view.loc (c : Thread nD τ) ↦[arg12.view.set]{fullShare} arg12.view.writes (Elt F) f LS2)
              ∗ (∃ f, arg13.view.loc (c : Thread nD τ) ↦[arg13.view.set]{fullShare} arg13.view.writes (Elt F) f LS3)
              ∗ (∃ f, arg14.view.loc (c : Thread nD τ) ↦[arg14.view.set]{fullShare} arg14.view.writes (Elt F) f LS4)
              ∗ (∃ f, arg15.view.loc (c : Thread nD τ) ↦[arg15.view.set]{fullShare} arg15.view.writes (Elt F) f LS5)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], [], ?_, ?_, ?_, ?_, ?_, ?_, fun xi6 xi7 E K => ?run⟩
  case run =>
    simp only [cc0__kernel_eq_skeleton]; unfold cc0__kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1; obtain rfl := harg12.eq_unread hfs2; obtain rfl := harg13.eq_unread hfs3; obtain rfl := harg14.eq_unread hfs4; obtain rfl := harg15.eq_unread hfs5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Hand

end
-- ==== Proof.KI.RunC.lean ====
/-
  The kernel body run at the last tile of a row block.
-/
import proofs.«141537_j90099823936181_1_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the LAST tile of a row block: the six running columns, at what the tile before left, are updated with
    this tile, and the row losses and the counted flags are computed from them and stored into the two result buffers.
    The pieces each buffer ends with are found by running the body (they are the witness): the statement says that from the
    inputs' buffers at their blocks the body runs to the continuation holding the inputs as they were and each stored
    buffer with its pieces written. -/
noncomputable def kernelRun0_C (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) :
    Σ' (L6 : List (View.Piece (Elt F) S1024x1 .f32)) (L7 : List (View.Piece (Elt F) S1024x1 .f32)) (LS0 : List (View.Piece (Elt F) S1024x1 .f32)) (LS1 : List (View.Piece (Elt F) S1024x1 .f32)) (LS2 : List (View.Piece (Elt F) S1024x1 .f32)) (LS3 : List (View.Piece (Elt F) S1024x1 .f32)) (LS4 : List (View.Piece (Elt F) S1024x1 .f32)), { LS5 : List (View.Piece (Elt F) S1024x1 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ (∃ d, owns (c : Thread nD τ) arg8 fullShare d)
            ∗ (∃ d, owns (c : Thread nD τ) arg9 fullShare d)
            ∗ owns (c : Thread nD τ) arg10 fullShare xs0
            ∗ owns (c : Thread nD τ) arg11 fullShare xs1
            ∗ owns (c : Thread nD τ) arg12 fullShare xs2
            ∗ owns (c : Thread nD τ) arg13 fullShare xs3
            ∗ owns (c : Thread nD τ) arg14 fullShare xs4
            ∗ owns (c : Thread nD τ) arg15 fullShare xs5
            ∗ (iprop(owns (c : Thread nD τ) arg2 fullShare x0
              ∗ owns (c : Thread nD τ) arg3 fullShare x1
              ∗ owns (c : Thread nD τ) arg4 fullShare x2
              ∗ owns (c : Thread nD τ) arg5 fullShare x3
              ∗ owns (c : Thread nD τ) arg6 fullShare x4
              ∗ owns (c : Thread nD τ) arg7 fullShare x5
              ∗ (∃ f, arg8.view.loc (c : Thread nD τ) ↦[arg8.view.set]{fullShare} arg8.view.writes (Elt F) f L6)
              ∗ (∃ f, arg9.view.loc (c : Thread nD τ) ↦[arg9.view.set]{fullShare} arg9.view.writes (Elt F) f L7)
              ∗ (∃ f, arg10.view.loc (c : Thread nD τ) ↦[arg10.view.set]{fullShare} arg10.view.writes (Elt F) f LS0)
              ∗ (∃ f, arg11.view.loc (c : Thread nD τ) ↦[arg11.view.set]{fullShare} arg11.view.writes (Elt F) f LS1)
              ∗ (∃ f, arg12.view.loc (c : Thread nD τ) ↦[arg12.view.set]{fullShare} arg12.view.writes (Elt F) f LS2)
              ∗ (∃ f, arg13.view.loc (c : Thread nD τ) ↦[arg13.view.set]{fullShare} arg13.view.writes (Elt F) f LS3)
              ∗ (∃ f, arg14.view.loc (c : Thread nD τ) ↦[arg14.view.set]{fullShare} arg14.view.writes (Elt F) f LS4)
              ∗ (∃ f, arg15.view.loc (c : Thread nD τ) ↦[arg15.view.set]{fullShare} arg15.view.writes (Elt F) f LS5)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, ?_, fun E K => ?run⟩
  case run =>
    simp only [cc0__kernel_eq_skeleton]; unfold cc0__kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1; obtain rfl := harg12.eq_unread hfs2; obtain rfl := harg13.eq_unread hfs3; obtain rfl := harg14.eq_unread hfs4; obtain rfl := harg15.eq_unread hfs5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Hand

end
-- ==== Proof.KI.Frame.lean ====
/-
  The frame over the three runs: what each case leaves in each buffer (its stores read back), the buffers' contents point
  by point, the invariant that carries the six running columns from tile to tile, the proof data of the region and the
  body obligation at every point.

  Every store of the body overwrites a whole buffer, so the pieces a run finds for a buffer cover it and reading them
  back does not depend on what the buffer held before. The contents after point `n` are defined by recursion on `n`: at
  the first tile of a row block from nothing, at any later tile from what the tile before left in the six running
  columns; the two result buffers are named only at the last tile, where they are stored and written back.
-/
import proofs.«141537_j90099823936181_1_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ (UR sig nD τ) ℕ

/-! ## What each case leaves -/

/-- Case A's pieces for running column 0 cover it (whole-buffer stores). -/
theorem scover0_A_0 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32) (y : S1024x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.1 S1024x1.size (by sl_kernel_rfl) y

/-- What case A leaves in running column 0: its pieces read back. -/
def sout0_A_0 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32) : Vec F S1024x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.1)

/-- Case A's pieces for running column 1 cover it (whole-buffer stores). -/
theorem scover0_A_1 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32) (y : S1024x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.1 S1024x1.size (by sl_kernel_rfl) y

/-- What case A leaves in running column 1: its pieces read back. -/
def sout0_A_1 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32) : Vec F S1024x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.1)

/-- Case A's pieces for running column 2 cover it (whole-buffer stores). -/
theorem scover0_A_2 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32) (y : S1024x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.1 S1024x1.size (by sl_kernel_rfl) y

/-- What case A leaves in running column 2: its pieces read back. -/
def sout0_A_2 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32) : Vec F S1024x1 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.1)

/-- Case A's pieces for running column 3 cover it (whole-buffer stores). -/
theorem scover0_A_3 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32) (y : S1024x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.2.1 S1024x1.size (by sl_kernel_rfl) y

/-- What case A leaves in running column 3: its pieces read back. -/
def sout0_A_3 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32) : Vec F S1024x1 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.2.1)

/-- Case A's pieces for running column 4 cover it (whole-buffer stores). -/
theorem scover0_A_4 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32) (y : S1024x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.2.2.1 S1024x1.size (by sl_kernel_rfl) y

/-- What case A leaves in running column 4: its pieces read back. -/
def sout0_A_4 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32) : Vec F S1024x1 .f32 :=
  VS0_4.read (Elt F) (VS0_4.writes (Elt F) VS0_4.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.2.2.1)

/-- Case A's pieces for running column 5 cover it (whole-buffer stores). -/
theorem scover0_A_5 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32) (y : S1024x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.2.2.2.1 S1024x1.size (by sl_kernel_rfl) y

/-- What case A leaves in running column 5: its pieces read back. -/
def sout0_A_5 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32) : Vec F S1024x1 .f32 :=
  VS0_5.read (Elt F) (VS0_5.writes (Elt F) VS0_5.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.2.2.2.1)

/-- Case B's pieces for running column 0 cover it (whole-buffer stores). -/
theorem scover0_B_0 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.1 S1024x1.size (by sl_kernel_rfl) y

/-- What case B leaves in running column 0: its pieces read back. -/
def sout0_B_0 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.1)

/-- Case B's pieces for running column 1 cover it (whole-buffer stores). -/
theorem scover0_B_1 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.1 S1024x1.size (by sl_kernel_rfl) y

/-- What case B leaves in running column 1: its pieces read back. -/
def sout0_B_1 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.1)

/-- Case B's pieces for running column 2 cover it (whole-buffer stores). -/
theorem scover0_B_2 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.1 S1024x1.size (by sl_kernel_rfl) y

/-- What case B leaves in running column 2: its pieces read back. -/
def sout0_B_2 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) : Vec F S1024x1 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.1)

/-- Case B's pieces for running column 3 cover it (whole-buffer stores). -/
theorem scover0_B_3 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.1 S1024x1.size (by sl_kernel_rfl) y

/-- What case B leaves in running column 3: its pieces read back. -/
def sout0_B_3 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) : Vec F S1024x1 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.1)

/-- Case B's pieces for running column 4 cover it (whole-buffer stores). -/
theorem scover0_B_4 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.1 S1024x1.size (by sl_kernel_rfl) y

/-- What case B leaves in running column 4: its pieces read back. -/
def sout0_B_4 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) : Vec F S1024x1 .f32 :=
  VS0_4.read (Elt F) (VS0_4.writes (Elt F) VS0_4.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.1)

/-- Case B's pieces for running column 5 cover it (whole-buffer stores). -/
theorem scover0_B_5 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.2.1 S1024x1.size (by sl_kernel_rfl) y

/-- What case B leaves in running column 5: its pieces read back. -/
def sout0_B_5 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : ¬cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) : Vec F S1024x1 .f32 :=
  VS0_5.read (Elt F) (VS0_5.writes (Elt F) VS0_5.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.2.1)

/-- Case C's pieces for running column 0 cover it (whole-buffer stores). -/
theorem scover0_C_0 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.1 S1024x1.size (by sl_kernel_rfl) y

/-- What case C leaves in running column 0: its pieces read back. -/
def sout0_C_0 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.1)

/-- Case C's pieces for running column 1 cover it (whole-buffer stores). -/
theorem scover0_C_1 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.1 S1024x1.size (by sl_kernel_rfl) y

/-- What case C leaves in running column 1: its pieces read back. -/
def sout0_C_1 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.1)

/-- Case C's pieces for running column 2 cover it (whole-buffer stores). -/
theorem scover0_C_2 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.1 S1024x1.size (by sl_kernel_rfl) y

/-- What case C leaves in running column 2: its pieces read back. -/
def sout0_C_2 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) : Vec F S1024x1 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.1)

/-- Case C's pieces for running column 3 cover it (whole-buffer stores). -/
theorem scover0_C_3 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.1 S1024x1.size (by sl_kernel_rfl) y

/-- What case C leaves in running column 3: its pieces read back. -/
def sout0_C_3 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) : Vec F S1024x1 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.1)

/-- Case C's pieces for running column 4 cover it (whole-buffer stores). -/
theorem scover0_C_4 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.1 S1024x1.size (by sl_kernel_rfl) y

/-- What case C leaves in running column 4: its pieces read back. -/
def sout0_C_4 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) : Vec F S1024x1 .f32 :=
  VS0_4.read (Elt F) (VS0_4.writes (Elt F) VS0_4.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.1)

/-- Case C's pieces for running column 5 cover it (whole-buffer stores). -/
theorem scover0_C_5 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.2.1 S1024x1.size (by sl_kernel_rfl) y

/-- What case C leaves in running column 5: its pieces read back. -/
def sout0_C_5 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) : Vec F S1024x1 .f32 :=
  VS0_5.read (Elt F) (VS0_5.writes (Elt F) VS0_5.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.2.1)

/-- The last tile's pieces for result buffer 6 cover it. -/
theorem cover0_C_6 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).1 S1024x1.size (by sl_kernel_rfl) y

/-- What the last tile leaves in result buffer 6: its pieces read back. -/
def out0_C_6 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) : Vec F S1024x1 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).1)

/-- The last tile's pieces for result buffer 7 cover it. -/
theorem cover0_C_7 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.1 S1024x1.size (by sl_kernel_rfl) y

/-- What the last tile leaves in result buffer 7: its pieces read back. -/
def out0_C_7 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond0_0 i) (hc1 : cond0_1 i)
    (x0 : Vec F S1024x128 .bf16) (x1 : Vec F S512x128 .bf16) (x2 : Vec F S1024x1 .i32) (x3 : Vec F S1x512 .i32) (x4 : Vec F S1024x1 .i32) (x5 : Vec F S1x512 .i32)
    (xs0 : Vec F S1024x1 .f32) (xs1 : Vec F S1024x1 .f32) (xs2 : Vec F S1024x1 .f32) (xs3 : Vec F S1024x1 .f32) (xs4 : Vec F S1024x1 .f32) (xs5 : Vec F S1024x1 .f32) : Vec F S1024x1 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.1)

/-! ## The contents point by point -/

/-- The two result buffers and the six running columns. -/
abbrev Tup (F : FTy → Type) [FloatOps F] : Type :=
  Vec F S1024x1 .f32 × Vec F S1024x1 .f32 × Vec F S1024x1 .f32 × Vec F S1024x1 .f32 × Vec F S1024x1 .f32 × Vec F S1024x1 .f32 × Vec F S1024x1 .f32 × Vec F S1024x1 .f32

/-- A result buffer's contents where nothing names them (the window is idle there). -/
abbrev idle6 : Vec F S1024x1 .f32 := VO0_6.read (Elt F) VO0_6.junk
abbrev idle7 : Vec F S1024x1 .f32 := VO0_7.read (Elt F) VO0_7.junk

/-- The contents after a point of case A. -/
def caseA (c : Dev nD) (t : Fin cfg0.N) (h0 : t.val % 16 = 0) (h1 : ¬t.val % 16 = 15) : Tup F :=
  (idle6, idle7,
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t),
    sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t),
    sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t),
    sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t),
    sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t),
    sout0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t))

/-- The contents after a point of case B, over what the point before left. -/
def caseB (c : Dev nD) (t : Fin cfg0.N) (h0 : ¬t.val % 16 = 0) (h1 : ¬t.val % 16 = 15) (prev : Tup F) : Tup F :=
  (idle6, idle7,
    sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) prev.2.2.1 prev.2.2.2.1 prev.2.2.2.2.1 prev.2.2.2.2.2.1 prev.2.2.2.2.2.2.1 prev.2.2.2.2.2.2.2,
    sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) prev.2.2.1 prev.2.2.2.1 prev.2.2.2.2.1 prev.2.2.2.2.2.1 prev.2.2.2.2.2.2.1 prev.2.2.2.2.2.2.2,
    sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) prev.2.2.1 prev.2.2.2.1 prev.2.2.2.2.1 prev.2.2.2.2.2.1 prev.2.2.2.2.2.2.1 prev.2.2.2.2.2.2.2,
    sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) prev.2.2.1 prev.2.2.2.1 prev.2.2.2.2.1 prev.2.2.2.2.2.1 prev.2.2.2.2.2.2.1 prev.2.2.2.2.2.2.2,
    sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) prev.2.2.1 prev.2.2.2.1 prev.2.2.2.2.1 prev.2.2.2.2.2.1 prev.2.2.2.2.2.2.1 prev.2.2.2.2.2.2.2,
    sout0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) prev.2.2.1 prev.2.2.2.1 prev.2.2.2.2.1 prev.2.2.2.2.2.1 prev.2.2.2.2.2.2.1 prev.2.2.2.2.2.2.2)

/-- The contents after a point of case C, over what the point before left. -/
def caseC (c : Dev nD) (t : Fin cfg0.N) (h0 : ¬t.val % 16 = 0) (h1 : t.val % 16 = 15) (prev : Tup F) : Tup F :=
  (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) prev.2.2.1 prev.2.2.2.1 prev.2.2.2.2.1 prev.2.2.2.2.2.1 prev.2.2.2.2.2.2.1 prev.2.2.2.2.2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) prev.2.2.1 prev.2.2.2.1 prev.2.2.2.2.1 prev.2.2.2.2.2.1 prev.2.2.2.2.2.2.1 prev.2.2.2.2.2.2.2,
    sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) prev.2.2.1 prev.2.2.2.1 prev.2.2.2.2.1 prev.2.2.2.2.2.1 prev.2.2.2.2.2.2.1 prev.2.2.2.2.2.2.2,
    sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) prev.2.2.1 prev.2.2.2.1 prev.2.2.2.2.1 prev.2.2.2.2.2.1 prev.2.2.2.2.2.2.1 prev.2.2.2.2.2.2.2,
    sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) prev.2.2.1 prev.2.2.2.1 prev.2.2.2.2.1 prev.2.2.2.2.2.1 prev.2.2.2.2.2.2.1 prev.2.2.2.2.2.2.2,
    sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) prev.2.2.1 prev.2.2.2.1 prev.2.2.2.2.1 prev.2.2.2.2.2.1 prev.2.2.2.2.2.2.1 prev.2.2.2.2.2.2.2,
    sout0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) prev.2.2.1 prev.2.2.2.1 prev.2.2.2.2.1 prev.2.2.2.2.2.1 prev.2.2.2.2.2.2.1 prev.2.2.2.2.2.2.2,
    sout0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) prev.2.2.1 prev.2.2.2.1 prev.2.2.2.2.1 prev.2.2.2.2.2.1 prev.2.2.2.2.2.2.1 prev.2.2.2.2.2.2.2)

/-- THE ACCUMULATION: the contents after the body at position `n`, by recursion on `n`. -/
def outsAt0 (c : Dev nD) : (n : ℕ) → n < cfg0.N → Tup F
  | 0, hn => caseA m c ⟨0, hn⟩ (Nat.zero_mod _) (by show ¬(0 % 16 = 15); decide)
  | n + 1, hn =>
    if h0 : (n + 1) % 16 = 0 then
      if h1 : (n + 1) % 16 = 15 then False.elim (by omega)
      else caseA m c ⟨n + 1, hn⟩ h0 h1
    else
      if h1 : (n + 1) % 16 = 15 then caseC m c ⟨n + 1, hn⟩ h0 h1 (outsAt0 c n (Nat.lt_of_succ_lt hn))
      else caseB m c ⟨n + 1, hn⟩ h0 h1 (outsAt0 c n (Nat.lt_of_succ_lt hn))

theorem outsAt0_A (c : Dev nD) (t : Fin cfg0.N) (h0 : t.val % 16 = 0) (h1 : ¬t.val % 16 = 15) :
    outsAt0 m c t.val t.isLt = caseA m c t h0 h1 := by
  obtain ⟨n, hn⟩ := t
  cases n with
  | zero => rfl
  | succ n => exact (dif_pos h0).trans (dif_neg h1)

theorem outsAt0_B (c : Dev nD) (t : Fin cfg0.N) (h0 : ¬t.val % 16 = 0) (h1 : ¬t.val % 16 = 15) :
    outsAt0 m c t.val t.isLt = caseB m c t h0 h1 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem outsAt0_C (c : Dev nD) (t : Fin cfg0.N) (h0 : ¬t.val % 16 = 0) (h1 : t.val % 16 = 15) :
    outsAt0 m c t.val t.isLt = caseC m c t h0 h1 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

/-! ## The invariant between points -/

/-- Before the first point the class invariant (every running column at anything); afterwards the six running columns
    at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2.1) ∗ owns (c : Thread nD τ) scM0_3 fullShare ((outsAt0 m c n hn).2.2.2.2.2.1) ∗ owns (c : Thread nD τ) scM0_4 fullShare ((outsAt0 m c n hn).2.2.2.2.2.2.1) ∗ owns (c : Thread nD τ) scM0_5 fullShare ((outsAt0 m c n hn).2.2.2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2.1) ∗ owns (c : Thread nD τ) scM0_3 fullShare ((outsAt0 m c n hn).2.2.2.2.2.1) ∗ owns (c : Thread nD τ) scM0_4 fullShare ((outsAt0 m c n hn).2.2.2.2.2.2.1) ∗ owns (c : Thread nD τ) scM0_5 fullShare ((outsAt0 m c n hn).2.2.2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2.1) ∗ owns (c : Thread nD τ) scM0_2 fullShare ((outsAt0 m c (n - 1) (by omega)).2.2.2.2.1) ∗ owns (c : Thread nD τ) scM0_3 fullShare ((outsAt0 m c (n - 1) (by omega)).2.2.2.2.2.1) ∗ owns (c : Thread nD τ) scM0_4 fullShare ((outsAt0 m c (n - 1) (by omega)).2.2.2.2.2.2.1) ∗ owns (c : Thread nD τ) scM0_5 fullShare ((outsAt0 m c (n - 1) (by omega)).2.2.2.2.2.2.2)) ∗ (∃ r, prngReg c r)) := by
  cases n with
  | zero => exact absurd rfl hz
  | succ n => rfl

/-! ## The proof data -/

/-- The share of its array each window holds: the two windows on the normalised embeddings a half each. -/
def winQ : Fin 8 → PosShare TreeShare :=
  fun | 0 => fullShare.left | 1 => fullShare.right | 2 => fullShare | 3 => fullShare | 4 => fullShare | 5 => fullShare
      | 6 => fullShare | 7 => fullShare | ⟨_ + 8, h⟩ => absurd h (Nat.not_lt.2 (Nat.le_add_left _ _))

/-- The region's proof data on core `c`: the arrays as the region finds them; after the body each input's buffer at its
    block and the result buffers at `outsAt0`'s components; the tracking invariant; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
  Φ t := PhiS m c t.val (Nat.le_of_lt_succ t.isLt)
  q := winQ
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

end Cert.KernelIdeal.Hand

end
-- ==== Proof.KI.BodyA0.lean ====
/-
  The body at the very first point: a first tile, the six running columns handed over at anything.
-/
import proofs.«141537_j90099823936181_1_alg».proof.Proof.KI.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ (UR sig nD τ) ℕ

set_option maxHeartbeats 8000000 in
/-- The body at the very first point: a first tile, the six running columns handed over at anything. -/
theorem sound_A0 (c : Dev nD) (t : Fin cfg0.N) (h0 : t.val % 16 = 0) (h1 : ¬t.val % 16 = 15) (hz : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [Dat.leavesExact_idle (dats m 0 c) 6 t (idleAt0_6 t (fun h => h1 ((hcond0_1 t).mp h))) (noFlush0_6 t (fun h => h1 ((hcond0_1 t).mp h)))]
  rw [Dat.leavesExact_idle (dats m 0 c) 7 t (idleAt0_7 t (fun h => h1 ((hcond0_1 t).mp h))) (noFlush0_7 t (fun h => h1 ((hcond0_1 t).mp h)))]
  rw [outsAt0_A m c t h0 h1]
  unfold caseA sout0_A_0 sout0_A_1 sout0_A_2 sout0_A_3 sout0_A_4 sout0_A_5; (try dsimp only)
  rw [PhiS_castSucc m c t, PhiS_zero m c _ _ hz, PhiA0_eq]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, ⟨%es0, HS0⟩, ⟨%es1, HS1⟩, ⟨%es2, HS2⟩, ⟨%es3, HS3⟩, ⟨%es4, HS4⟩, ⟨%es5, HS5⟩⟩
  isplitl [HS0 HS1 HS2 HS3 HS4 HS5 Hg]
  · isplitl [HS0 HS1 HS2 HS3 HS4 HS5]
    ·
      isplitl [HS0]
      ·
        unfold owns; iexists _; isplitr
        swap; · iexact HS0
        ipureintro; exact View.read_writes_of_cover _ _ _ _ _ (scover0_A_0 c _ _ _ _ _ _ _ _ _ _ _ _ _ _ _ _ _ _ _ _ _ _ _ _ _ _ _ _ _ _ _ _ _ _ _ _ _)
      isplitl [HS1]
      ·
        unfold owns; iexists _; isplitr
        swap; · iexact HS1
        ipureintro; exact View.read_writes_of_cover _ _ _ _ _ (scover0_A_1 c _ _ _ _ _ _ _ _ _ _ _ _ _ _ _ _ _ _ _ _ _ _ _ _ _ _ _ _ _ _ _ _ _ _ _ _ _)
      isplitl [HS2]
      ·
        unfold owns; iexists _; isplitr
        swap; · iexact HS2
        ipureintro; exact View.read_writes_of_cover _ _ _ _ _ (scover0_A_2 c _ _ _ _ _ _ _ _ _ _ _ _ _ _ _ _ _ _ _ _ _ _ _ _ _ _ _ _ _ _ _ _ _ _ _ _ _)
      isplitl [HS3]
      ·
        unfold owns; iexists _; isplitr
        swap; · iexact HS3
        ipureintro; exact View.read_writes_of_cover _ _ _ _ _ (scover0_A_3 c _ _ _ _ _ _ _ _ _ _ _ _ _ _ _ _ _ _ _ _ _ _ _ _ _ _ _ _ _ _ _ _ _ _ _ _ _)
      isplitl [HS4]
      ·
        unfold owns; iexists _; isplitr
        swap; · iexact HS4
        ipureintro; exact View.read_writes_of_cover _ _ _ _ _ (scover0_A_4 c _ _ _ _ _ _ _ _ _ _ _ _ _ _ _ _ _ _ _ _ _ _ _ _ _ _ _ _ _ _ _ _ _ _ _ _ _)
      unfold owns; iexists _; isplitr
      swap; · iexact HS5
      ipureintro; exact View.read_writes_of_cover _ _ _ _ _ (scover0_A_5 c _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

end Cert.KernelIdeal.Hand

end
-- ==== Proof.KI.BodyA1.lean ====
/-
  The body at the first tile of a later row block: the running columns are handed over at what the block before left and reset.
-/
import proofs.«141537_j90099823936181_1_alg».proof.Proof.KI.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ (UR sig nD τ) ℕ

set_option maxHeartbeats 8000000 in
/-- The body at the first tile of a later row block: the running columns are handed over at what the block before left and reset. -/
theorem sound_A1 (c : Dev nD) (t : Fin cfg0.N) (h0 : t.val % 16 = 0) (h1 : ¬t.val % 16 = 15) (hz : t.val ≠ 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [Dat.leavesExact_idle (dats m 0 c) 6 t (idleAt0_6 t (fun h => h1 ((hcond0_1 t).mp h))) (noFlush0_6 t (fun h => h1 ((hcond0_1 t).mp h)))]
  rw [Dat.leavesExact_idle (dats m 0 c) 7 t (idleAt0_7 t (fun h => h1 ((hcond0_1 t).mp h))) (noFlush0_7 t (fun h => h1 ((hcond0_1 t).mp h)))]
  rw [outsAt0_A m c t h0 h1]
  unfold caseA sout0_A_0 sout0_A_1 sout0_A_2 sout0_A_3 sout0_A_4 sout0_A_5; (try dsimp only)
  rw [PhiS_castSucc m c t, PhiS_pos m c _ _ hz]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexists _; iexact HS0
  isplitl [HS1]; · iexists _; iexact HS1
  isplitl [HS2]; · iexists _; iexact HS2
  isplitl [HS3]; · iexists _; iexact HS3
  isplitl [HS4]; · iexists _; iexact HS4
  isplitl [HS5]; · iexists _; iexact HS5
  iintro ⟨H0, H1, H2, H3, H4, H5, H6, H7, ⟨%es0, HS0⟩, ⟨%es1, HS1⟩, ⟨%es2, HS2⟩, ⟨%es3, HS3⟩, ⟨%es4, HS4⟩, ⟨%es5, HS5⟩⟩
  isplitl [HS0 HS1 HS2 HS3 HS4 HS5 Hg]
  · isplitl [HS0 HS1 HS2 HS3 HS4 HS5]
    ·
      isplitl [HS0]
      ·
        unfold owns; iexists _; isplitr
        swap; · iexact HS0
        ipureintro; exact View.read_writes_of_cover _ _ _ _ _ (scover0_A_0 c _ _ _ _ _ _ _ _ _ _ _ _ _ _ _ _ _ _ _ _ _ _ _ _ _ _ _ _ _ _ _ _ _ _ _ _ _)
      isplitl [HS1]
      ·
        unfold owns; iexists _; isplitr
        swap; · iexact HS1
        ipureintro; exact View.read_writes_of_cover _ _ _ _ _ (scover0_A_1 c _ _ _ _ _ _ _ _ _ _ _ _ _ _ _ _ _ _ _ _ _ _ _ _ _ _ _ _ _ _ _ _ _ _ _ _ _)
      isplitl [HS2]
      ·
        unfold owns; iexists _; isplitr
        swap; · iexact HS2
        ipureintro; exact View.read_writes_of_cover _ _ _ _ _ (scover0_A_2 c _ _ _ _ _ _ _ _ _ _ _ _ _ _ _ _ _ _ _ _ _ _ _ _ _ _ _ _ _ _ _ _ _ _ _ _ _)
      isplitl [HS3]
      ·
        unfold owns; iexists _; isplitr
        swap; · iexact HS3
        ipureintro; exact View.read_writes_of_cover _ _ _ _ _ (scover0_A_3 c _ _ _ _ _ _ _ _ _ _ _ _ _ _ _ _ _ _ _ _ _ _ _ _ _ _ _ _ _ _ _ _ _ _ _ _ _)
      isplitl [HS4]
      ·
        unfold owns; iexists _; isplitr
        swap; · iexact HS4
        ipureintro; exact View.read_writes_of_cover _ _ _ _ _ (scover0_A_4 c _ _ _ _ _ _ _ _ _ _ _ _ _ _ _ _ _ _ _ _ _ _ _ _ _ _ _ _ _ _ _ _ _ _ _ _ _)
      unfold owns; iexists _; isplitr
      swap; · iexact HS5
      ipureintro; exact View.read_writes_of_cover _ _ _ _ _ (scover0_A_5 c _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

end Cert.KernelIdeal.Hand

end
-- ==== Proof.KI.BodyB.lean ====
/-
  The body at a middle tile: the running columns go from what the tile before left to this tile's update.
-/
import proofs.«141537_j90099823936181_1_alg».proof.Proof.KI.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ (UR sig nD τ) ℕ

set_option maxHeartbeats 8000000 in
/-- The body at a middle tile: the running columns go from what the tile before left to this tile's update. -/
theorem sound_B (c : Dev nD) (t : Fin cfg0.N) (h0 : ¬t.val % 16 = 0) (h1 : ¬t.val % 16 = 15) (hz : t.val ≠ 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [Dat.leavesExact_idle (dats m 0 c) 6 t (idleAt0_6 t (fun h => h1 ((hcond0_1 t).mp h))) (noFlush0_6 t (fun h => h1 ((hcond0_1 t).mp h)))]
  rw [Dat.leavesExact_idle (dats m 0 c) 7 t (idleAt0_7 t (fun h => h1 ((hcond0_1 t).mp h))) (noFlush0_7 t (fun h => h1 ((hcond0_1 t).mp h)))]
  rw [outsAt0_B m c t h0 h1]
  unfold caseB sout0_B_0 sout0_B_1 sout0_B_2 sout0_B_3 sout0_B_4 sout0_B_5; (try dsimp only)
  rw [PhiS_castSucc m c t, PhiS_pos m c _ _ hz]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_B c (grid0.coords t) _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _ _ _ _ _).2.2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, ⟨%es0, HS0⟩, ⟨%es1, HS1⟩, ⟨%es2, HS2⟩, ⟨%es3, HS3⟩, ⟨%es4, HS4⟩, ⟨%es5, HS5⟩⟩
  isplitl [HS0 HS1 HS2 HS3 HS4 HS5 Hg]
  · isplitl [HS0 HS1 HS2 HS3 HS4 HS5]
    ·
      isplitl [HS0]
      ·
        unfold owns; iexists _; isplitr
        swap; · iexact HS0
        ipureintro; exact View.read_writes_of_cover _ _ _ _ _ (scover0_B_0 c _ _ _ _ _ _ _ _ _ _ _ _ _ _ _ _ _ _ _ _ _ _ _ _ _ _ _ _ _ _ _ _ _ _ _ _ _ _ _ _ _ _ _)
      isplitl [HS1]
      ·
        unfold owns; iexists _; isplitr
        swap; · iexact HS1
        ipureintro; exact View.read_writes_of_cover _ _ _ _ _ (scover0_B_1 c _ _ _ _ _ _ _ _ _ _ _ _ _ _ _ _ _ _ _ _ _ _ _ _ _ _ _ _ _ _ _ _ _ _ _ _ _ _ _ _ _ _ _)
      isplitl [HS2]
      ·
        unfold owns; iexists _; isplitr
        swap; · iexact HS2
        ipureintro; exact View.read_writes_of_cover _ _ _ _ _ (scover0_B_2 c _ _ _ _ _ _ _ _ _ _ _ _ _ _ _ _ _ _ _ _ _ _ _ _ _ _ _ _ _ _ _ _ _ _ _ _ _ _ _ _ _ _ _)
      isplitl [HS3]
      ·
        unfold owns; iexists _; isplitr
        swap; · iexact HS3
        ipureintro; exact View.read_writes_of_cover _ _ _ _ _ (scover0_B_3 c _ _ _ _ _ _ _ _ _ _ _ _ _ _ _ _ _ _ _ _ _ _ _ _ _ _ _ _ _ _ _ _ _ _ _ _ _ _ _ _ _ _ _)
      isplitl [HS4]
      ·
        unfold owns; iexists _; isplitr
        swap; · iexact HS4
        ipureintro; exact View.read_writes_of_cover _ _ _ _ _ (scover0_B_4 c _ _ _ _ _ _ _ _ _ _ _ _ _ _ _ _ _ _ _ _ _ _ _ _ _ _ _ _ _ _ _ _ _ _ _ _ _ _ _ _ _ _ _)
      unfold owns; iexists _; isplitr
      swap; · iexact HS5
      ipureintro; exact View.read_writes_of_cover _ _ _ _ _ (scover0_B_5 c _ _ _ _ _ _ _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

end Cert.KernelIdeal.Hand

end
-- ==== Proof.KI.BodyC.lean ====
/-
  The body at the last tile: the running columns are updated and the two result buffers stored.
-/
import proofs.«141537_j90099823936181_1_alg».proof.Proof.KI.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ (UR sig nD τ) ℕ

set_option maxHeartbeats 8000000 in
/-- The body at the last tile: the running columns are updated and the two result buffers stored. -/
theorem sound_C (c : Dev nD) (t : Fin cfg0.N) (h0 : ¬t.val % 16 = 0) (h1 : t.val % 16 = 15) (hz : t.val ≠ 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t ((hcond0_1 t).mpr h1)], after0_6]
  rw [show (dats m 0 c).leavesExact 7 t = owns (c : Thread nD τ) (ms0_7 t) fullShare ((dats m 0 c).after 7 t) from by
    unfold Dat.leavesExact; rw [liveAt0_7 t ((hcond0_1 t).mpr h1)], after0_7]
  rw [outsAt0_C m c t h0 h1]
  unfold caseC out0_C_6 out0_C_7 sout0_C_0 sout0_C_1 sout0_C_2 sout0_C_3 sout0_C_4 sout0_C_5; (try dsimp only)
  rw [PhiS_castSucc m c t, PhiS_pos m c _ _ hz]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_C c (grid0.coords t) _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _ _ _ _ _).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, ⟨%e6, H6⟩, ⟨%e7, H7⟩, ⟨%es0, HS0⟩, ⟨%es1, HS1⟩, ⟨%es2, HS2⟩, ⟨%es3, HS3⟩, ⟨%es4, HS4⟩, ⟨%es5, HS5⟩⟩
  isplitl [HS0 HS1 HS2 HS3 HS4 HS5 Hg]
  · isplitl [HS0 HS1 HS2 HS3 HS4 HS5]
    ·
      isplitl [HS0]
      ·
        unfold owns; iexists _; isplitr
        swap; · iexact HS0
        ipureintro; exact View.read_writes_of_cover _ _ _ _ _ (scover0_C_0 c _ _ _ _ _ _ _ _ _ _ _ _ _ _ _ _ _ _ _ _ _ _ _ _ _ _ _ _ _ _ _ _ _ _ _ _ _ _ _ _ _ _ _)
      isplitl [HS1]
      ·
        unfold owns; iexists _; isplitr
        swap; · iexact HS1
        ipureintro; exact View.read_writes_of_cover _ _ _ _ _ (scover0_C_1 c _ _ _ _ _ _ _ _ _ _ _ _ _ _ _ _ _ _ _ _ _ _ _ _ _ _ _ _ _ _ _ _ _ _ _ _ _ _ _ _ _ _ _)
      isplitl [HS2]
      ·
        unfold owns; iexists _; isplitr
        swap; · iexact HS2
        ipureintro; exact View.read_writes_of_cover _ _ _ _ _ (scover0_C_2 c _ _ _ _ _ _ _ _ _ _ _ _ _ _ _ _ _ _ _ _ _ _ _ _ _ _ _ _ _ _ _ _ _ _ _ _ _ _ _ _ _ _ _)
      isplitl [HS3]
      ·
        unfold owns; iexists _; isplitr
        swap; · iexact HS3
        ipureintro; exact View.read_writes_of_cover _ _ _ _ _ (scover0_C_3 c _ _ _ _ _ _ _ _ _ _ _ _ _ _ _ _ _ _ _ _ _ _ _ _ _ _ _ _ _ _ _ _ _ _ _ _ _ _ _ _ _ _ _)
      isplitl [HS4]
      ·
        unfold owns; iexists _; isplitr
        swap; · iexact HS4
        ipureintro; exact View.read_writes_of_cover _ _ _ _ _ (scover0_C_4 c _ _ _ _ _ _ _ _ _ _ _ _ _ _ _ _ _ _ _ _ _ _ _ _ _ _ _ _ _ _ _ _ _ _ _ _ _ _ _ _ _ _ _)
      unfold owns; iexists _; isplitr
      swap; · iexact HS5
      ipureintro; exact View.read_writes_of_cover _ _ _ _ _ (scover0_C_5 c _ _ _ _ _ _ _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  ·
    unfold owns; iexists _; isplitr
    swap; · iexact H6
    ipureintro; exact View.read_writes_of_cover _ _ _ _ _ (cover0_C_6 c _ _ _ _ _ _ _ _ _ _ _ _ _ _ _ _ _ _ _ _ _ _ _ _ _ _ _ _ _ _ _ _ _ _ _ _ _ _ _ _ _ _ _)
  unfold owns; iexists _; isplitr
  swap; · iexact H7
  ipureintro; exact View.read_writes_of_cover _ _ _ _ _ (cover0_C_7 c _ _ _ _ _ _ _ _ _ _ _ _ _ _ _ _ _ _ _ _ _ _ _ _ _ _ _ _ _ _ _ _ _ _ _ _ _ _ _ _ _ _ _)

end Cert.KernelIdeal.Hand

end
-- ==== Proof.KI.Body.lean ====
/-
  The body obligation at every point, and the invariant's two ends.
-/
import proofs.«141537_j90099823936181_1_alg».proof.Proof.KI.BodyA0
import proofs.«141537_j90099823936181_1_alg».proof.Proof.KI.BodyA1
import proofs.«141537_j90099823936181_1_alg».proof.Proof.KI.BodyB
import proofs.«141537_j90099823936181_1_alg».proof.Proof.KI.BodyC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ (UR sig nD τ) ℕ

/-- The body at any point: its case is decided by its position in its row block. -/
theorem sound_body (c : Dev nD) (t : Fin cfg0.N) :
    bodyPre m c t ⊢ wp frame (wpE (defs₀ (F := F)) Variants.none c none) Set.univ (bodyAt0 t) (fun _ => bodyPost m c t) := by
  have hN : t.val < 128 := lt_of_lt_of_eq t.isLt (show cfg0.N = 128 from N_0)
  by_cases h0 : t.val % 16 = 0
  · have h1 : ¬t.val % 16 = 15 := by omega
    by_cases hz : t.val = 0
    · exact sound_A0 m c t h0 h1 hz
    · exact sound_A1 m c t h0 h1 hz
  · have hz : t.val ≠ 0 := fun e => h0 (by rw [e])
    by_cases h1 : t.val % 16 = 15
    · exact sound_C m c t h0 h1 hz
    · exact sound_B m c t h0 h1 hz

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class invariant back: the running columns' contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5⟩, Hg⟩
  isplitl [HS0 HS1 HS2 HS3 HS4 HS5]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  iexact Hg

/-- The same after the last point. -/
theorem hout (c : Dev nD) : (dats m 0 c).Φ (Fin.last cfg0.N) ⊢ Pipeline.ΦA spec0 c :=
  Phi_out m c _ (by rw [Fin.val_last]; have : cfg0.N = 128 := N_0; omega)

end Cert.KernelIdeal.Hand

end
-- ==== Proof.KI.Launch.lean ====
/-
  The run of @main around the region, for any proof data of the region.

  Two of the eight windows read the SAME array (the normalised embeddings: the anchor rows'
  block and the candidate rows' block), so the array's full share is dealt between them, a half
  each, when the region is entered and joined again when it is left; the other arrays are held
  whole. @main is taken as its list of segments: the two host stretches before the region, the
  region, the four host stretches after it.
-/
import proofs.«141537_j90099823936181_1_alg».proof.Proof.KI.Entry
import Idealize.ShloMosaic.Lib.Pipeline.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The share of its array each window holds: windows 0 and 1 read one array, a half each. -/
def winShare : Fin 8 → PosShare TreeShare :=
  fun | 0 => fullShare.left | 1 => fullShare.right | 2 => fullShare | 3 => fullShare | 4 => fullShare | 5 => fullShare
      | 6 => fullShare | 7 => fullShare | ⟨_ + 8, h⟩ => absurd h (Nat.not_lt.2 (Nat.le_add_left _ _))

/-- The buffers when the region has been left: the region-entry valuation with the two result columns at what the
    write-backs made of them. -/
def Wfin (dats : (p : Fin 1) → (c : Dev nD) → Dat τ (Elt F) Unit ℕ (UR sig nD τ) ℕ (cfgs p) c) (c : Dev nD) :
    Valuation τ sig (Elt F) :=
  Function.update (Function.update (V0 m c) (Proc.devRef .tc main_v10_0) ((dats 0 c).arrAt 6 cfg0.N))
    (Proc.devRef .tc main_v10_1) ((dats 0 c).arrAt 7 cfg0.N)

theorem Wfin_contrib (dats : (p : Fin 1) → (c : Dev nD) → Dat τ (Elt F) Unit ℕ (UR sig nD τ) ℕ (cfgs p) c) (c : Dev nD) :
    Wfin m dats c (Proc.devRef .tc main_v10_0) = (dats 0 c).arrAt 6 cfg0.N := by
  unfold Wfin
  rw [Function.update_of_ne (StableHlo.devRef_ne_of_ne (by decide))]
  exact Function.update_self _ _ _

theorem Wfin_include (dats : (p : Fin 1) → (c : Dev nD) → Dat τ (Elt F) Unit ℕ (UR sig nD τ) ℕ (cfgs p) c) (c : Dev nD) :
    Wfin m dats c (Proc.devRef .tc main_v10_1) = (dats 0 c).arrAt 7 cfg0.N := by
  unfold Wfin
  exact Function.update_self _ _ _

namespace RunAux

/-- Off the two result columns the valuation is the region-entry one. -/
theorem Wfin_of_ne (dats : (p : Fin 1) → (c : Dev nD) → Dat τ (Elt F) Unit ℕ (UR sig nD τ) ℕ (cfgs p) c) (c : Dev nD)
    (b : Ref sig .tc) (h0 : b ≠ main_v10_0) (h1 : b ≠ main_v10_1) :
    Wfin m dats c (Proc.devRef .tc b) = V m c b := by
  unfold Wfin
  rw [Function.update_of_ne (StableHlo.devRef_ne_of_ne h1), Function.update_of_ne (StableHlo.devRef_ne_of_ne h0)]

/-- A line of operations each writing one listed reference leaves every reference off the list as it was. -/
theorem after_keep : ∀ {ops : List (HloOp τ sig (Elt F))} {W : List (Ref sig .tc)},
    List.Forall₂ (fun op y => op.writes = {Proc.devRef .tc y}) ops W → ∀ {b : Ref sig .tc}, b ∉ W →
    ∀ V : Valuation τ sig (Elt F), StableHlo.after ops V (Proc.devRef .tc b) = V (Proc.devRef .tc b)
  | _, _, h, b, hb, V => StableHlo.after_of_forall_not_mem _ V (by
      induction h with
      | nil => intro op hop; exact nomatch hop
      | @cons op y ops W hw _ ih =>
        intro op' hop'
        rcases List.mem_cons.mp hop' with rfl | hop'
        · rw [hw, Finset.mem_singleton]; exact StableHlo.devRef_ne_of_ne fun e => hb (e ▸ List.mem_cons_self)
        · exact ih (fun hm => hb (List.mem_cons_of_mem _ hm)) op' hop')

theorem writes0 : List.Forall₂ (fun (op : HloOp τ sig (Elt F)) y => op.writes = {Proc.devRef .tc y}) hostOps0
    [main_call0_v0, main_call0_cst, main_call0_v1, main_call0_v2, main_v0] :=
  .cons rfl (.cons rfl (.cons rfl (.cons rfl (.cons rfl .nil))))
theorem writes0_1 : List.Forall₂ (fun (op : HloOp τ sig (Elt F)) y => op.writes = {Proc.devRef .tc y}) hostOps0_1
    [main_cst, main_v1, main_v2, main_v3, main_v4, main_v5, main_v6, main_v7, main_v8, main_v9] :=
  .cons rfl (.cons rfl (.cons rfl (.cons rfl (.cons rfl (.cons rfl (.cons rfl (.cons rfl (.cons rfl (.cons rfl .nil)))))))))
theorem writes1 : List.Forall₂ (fun (op : HloOp τ sig (Elt F)) y => op.writes = {Proc.devRef .tc y}) hostOps1
    [main_cst_0, main_v11, main_cst_1, main_v12, main_cst_2, main_v13, main_cst_3, main_v14, main_v15, main_cst_4] :=
  .cons rfl (.cons rfl (.cons rfl (.cons rfl (.cons rfl (.cons rfl (.cons rfl (.cons rfl (.cons rfl (.cons rfl .nil)))))))))
theorem writes1_1 : List.Forall₂ (fun (op : HloOp τ sig (Elt F)) y => op.writes = {Proc.devRef .tc y}) hostOps1_1
    [main_call1_v0, main_v16] := .cons rfl (.cons rfl .nil)
theorem writes1_2 : List.Forall₂ (fun (op : HloOp τ sig (Elt F)) y => op.writes = {Proc.devRef .tc y}) hostOps1_2
    [main_v17, main_cst_5] := .cons rfl (.cons rfl .nil)
theorem writes1_3 : List.Forall₂ (fun (op : HloOp τ sig (Elt F)) y => op.writes = {Proc.devRef .tc y}) hostOps1_3
    [main_call2_v0, main_v18] := .cons rfl (.cons rfl .nil)

/-- The region-entry valuation, stretch by stretch. -/
theorem V0_eq (c : Dev nD) : V0 m c = StableHlo.after hostOps0_1 (StableHlo.after hostOps0 (fun b => m (c, b))) := by
  show StableHlo.after (hostOps0 ++ (hostOps0_1 ++ [])) _ = _
  rw [List.append_nil, StableHlo.after_append]

/-- The lines after the region, stretch by stretch. -/
theorem tail_eq (W : Valuation τ sig (Elt F)) : StableHlo.after tailOps W
    = StableHlo.after hostOps1_3 (StableHlo.after hostOps1_2 (StableHlo.after hostOps1_1 (StableHlo.after hostOps1 W))) := by
  show StableHlo.after (hostOps1 ++ (hostOps1_1 ++ (hostOps1_2 ++ (hostOps1_3 ++ [])))) _ = _
  rw [List.append_nil, StableHlo.after_append, StableHlo.after_append, StableHlo.after_append]

/-- No line before the region writes an argument. -/
theorem V0_arg (c : Dev nD) (b : Ref sig .tc) (h0 : b ∉ [main_call0_v0, main_call0_cst, main_call0_v1, main_call0_v2, main_v0])
    (h1 : b ∉ [main_cst, main_v1, main_v2, main_v3, main_v4, main_v5, main_v6, main_v7, main_v8, main_v9]) :
    V0 m c (Proc.devRef .tc b) = m ((c : Thread nD τ).loc b) := by
  rw [V0_eq, after_keep writes0_1 h1, after_keep writes0 h0]

/-- No line after the region writes an argument either. -/
theorem tail_arg (W : Valuation τ sig (Elt F)) (b : Ref sig .tc)
    (h1 : b ∉ [main_cst_0, main_v11, main_cst_1, main_v12, main_cst_2, main_v13, main_cst_3, main_v14, main_v15, main_cst_4])
    (h2 : b ∉ [main_call1_v0, main_v16]) (h3 : b ∉ [main_v17, main_cst_5]) (h4 : b ∉ [main_call2_v0, main_v18]) :
    StableHlo.after tailOps W (Proc.devRef .tc b) = W (Proc.devRef .tc b) := by
  rw [tail_eq, after_keep writes1_3 h4, after_keep writes1_2 h3, after_keep writes1_1 h2, after_keep writes1 h1]

end RunAux

namespace RunAux

variable (dats : (p : Fin 1) → (c : Dev nD) → Dat τ (Elt F) Unit ℕ (UR sig nD τ) ℕ (cfgs p) c)

/-- The seven buffers behind the eight windows' arrays, one by one. -/
theorem arrBufs_eq (c : Dev nD) (W : (b : Ref sig .tc) → Buf (Elt F) ((c : Thread nD τ).loc b)) :
    (Pipeline.arrBufs spec0 c W : sProp 𝕄)
      = iprop((((c : Thread nD τ).loc main_v5) ↦{fullShare} W main_v5) ∗ (((c : Thread nD τ).loc main_v6) ↦{fullShare} W main_v6)
          ∗ (((c : Thread nD τ).loc main_v7) ↦{fullShare} W main_v7) ∗ (((c : Thread nD τ).loc main_v8) ↦{fullShare} W main_v8)
          ∗ (((c : Thread nD τ).loc main_v9) ↦{fullShare} W main_v9) ∗ (((c : Thread nD τ).loc main_v10_0) ↦{fullShare} W main_v10_0)
          ∗ (((c : Thread nD τ).loc main_v10_1) ↦{fullShare} W main_v10_1)) :=
  bigSep_eq_bigSepL_of_eq [main_v5, main_v6, main_v7, main_v8, main_v9, main_v10_0, main_v10_1] (by decide) (by decide) _

/-- Every window holds its array at the share stated for it: an output at the full share. -/
theorem share_eq (c : Dev nD) (hq : ∀ w, (dats 0 c).q w = winShare w) : ∀ w, (dats 0 c).share w = winShare w
  | 0 => by unfold Pipeline.Dat.share; rw [if_neg (by decide), hq]
  | 1 => by unfold Pipeline.Dat.share; rw [if_neg (by decide), hq]
  | 2 => by unfold Pipeline.Dat.share; rw [if_neg (by decide), hq]
  | 3 => by unfold Pipeline.Dat.share; rw [if_neg (by decide), hq]
  | 4 => by unfold Pipeline.Dat.share; rw [if_neg (by decide), hq]
  | 5 => by unfold Pipeline.Dat.share; rw [if_neg (by decide), hq]
  | 6 => by unfold Pipeline.Dat.share; rw [if_pos (by decide)]; rfl
  | 7 => by unfold Pipeline.Dat.share; rw [if_pos (by decide)]; rfl
  | ⟨_ + 8, h⟩ => absurd h (Nat.not_lt.2 (Nat.le_add_left _ _))

/-- The windows' arrays one by one, at the shares the windows hold. -/
theorem arrays_eq' (c : Dev nD) (hq : ∀ w, (dats 0 c).q w = winShare w)
    (X : (w : Fin 8) → Buf (Elt F) ((cfg0.win w).arr.view.loc (c : Thread nD τ))) :
    ((dats 0 c).arrays X : sProp 𝕄)
      = iprop((((c : Thread nD τ).loc main_v5) ↦{fullShare.left} X 0) ∗ (((c : Thread nD τ).loc main_v5) ↦{fullShare.right} X 1)
          ∗ (((c : Thread nD τ).loc main_v6) ↦{fullShare} X 2) ∗ (((c : Thread nD τ).loc main_v7) ↦{fullShare} X 3)
          ∗ (((c : Thread nD τ).loc main_v8) ↦{fullShare} X 4) ∗ (((c : Thread nD τ).loc main_v9) ↦{fullShare} X 5)
          ∗ (((c : Thread nD τ).loc main_v10_0) ↦{fullShare} X 6) ∗ (((c : Thread nD τ).loc main_v10_1) ↦{fullShare} X 7)) := by
  unfold Pipeline.Dat.arrays
  exact (bigSep_congr fun w _ => by rw [(arr_whole0 w).set_eq_univ, share_eq dats c hq w]).trans
    (bigSep_W0 (fun w => (((c : Thread nD τ).loc (Pipeline.arrRef spec0 w)) ↦{winShare w} X w : sProp 𝕄)))

end RunAux

namespace RunAux

variable (dats : (p : Fin 1) → (c : Dev nD) → Dat τ (Elt F) Unit ℕ (UR sig nD τ) ℕ (cfgs p) c)

/-- The seven buffers, whole, make the eight windows' arrays at the same contents: the shared buffer's full share
    is dealt, a half to each of its two windows. -/
theorem arrays_of_bufs (c : Dev nD) (hq : ∀ w, (dats 0 c).q w = winShare w)
    (X : (w : Fin 8) → Buf (Elt F) ((cfg0.win w).arr.view.loc (c : Thread nD τ)))
    (W : (b : Ref sig .tc) → Buf (Elt F) ((c : Thread nD τ).loc b))
    (h0 : X 0 = W main_v5) (h1 : X 1 = W main_v5) (h2 : X 2 = W main_v6) (h3 : X 3 = W main_v7) (h4 : X 4 = W main_v8)
    (h5 : X 5 = W main_v9) (h6 : X 6 = W main_v10_0) (h7 : X 7 = W main_v10_1) :
    (Pipeline.arrBufs spec0 c W : sProp 𝕄) ⊢ (dats 0 c).arrays X := by
  rw [arrBufs_eq, arrays_eq' dats c hq, h0, h1, h2, h3, h4, h5, h6, h7]
  iintro ⟨H5, H6, H7, H8, H9, Ha, Hb⟩
  ihave H5 := (pointsTo_share (PosShare.mem_left_op_right fullShare)).1 $$ H5
  icases H5 with ⟨H5l, H5r⟩
  isplitl [H5l]; · iexact H5l
  isplitl [H5r]; · iexact H5r
  isplitl [H6]; · iexact H6
  isplitl [H7]; · iexact H7
  isplitl [H8]; · iexact H8
  isplitl [H9]; · iexact H9
  isplitl [Ha]; · iexact Ha
  iexact Hb

/-- And back: the two halves of the shared buffer joined. -/
theorem bufs_of_arrays (c : Dev nD) (hq : ∀ w, (dats 0 c).q w = winShare w)
    (X : (w : Fin 8) → Buf (Elt F) ((cfg0.win w).arr.view.loc (c : Thread nD τ)))
    (W : (b : Ref sig .tc) → Buf (Elt F) ((c : Thread nD τ).loc b))
    (h0 : X 0 = W main_v5) (h1 : X 1 = W main_v5) (h2 : X 2 = W main_v6) (h3 : X 3 = W main_v7) (h4 : X 4 = W main_v8)
    (h5 : X 5 = W main_v9) (h6 : X 6 = W main_v10_0) (h7 : X 7 = W main_v10_1) :
    ((dats 0 c).arrays X : sProp 𝕄) ⊢ Pipeline.arrBufs spec0 c W := by
  rw [arrBufs_eq, arrays_eq' dats c hq, h0, h1, h2, h3, h4, h5, h6, h7]
  iintro ⟨H5l, H5r, H6, H7, H8, H9, Ha, Hb⟩
  ihave H5 := (pointsTo_share (PosShare.mem_left_op_right fullShare)).2 $$ [H5l H5r]
  · isplitl [H5l]; · iexact H5l
    iexact H5r
  isplitl [H5]; · iexact H5
  isplitl [H6]; · iexact H6
  isplitl [H7]; · iexact H7
  isplitl [H8]; · iexact H8
  isplitl [H9]; · iexact H9
  isplitl [Ha]; · iexact Ha
  iexact Hb

end RunAux

namespace RunAux

variable (dats : (p : Fin 1) → (c : Dev nD) → Dat τ (Elt F) Unit ℕ (UR sig nD τ) ℕ (cfgs p) c)

/-- ENTRY, the buffers: the core's unscoped buffers at a valuation the proof data's entry arrays are read off are the
    windows' arrays at their entry contents and the buffers no window reads or writes. -/
theorem entry_split (c : Dev nD) (Vv : Valuation τ sig (Elt F))
    (hA : ∀ w, (dats 0 c).A w = Vv (Proc.devRef .tc (Pipeline.arrRef spec0 w))) (hq : ∀ w, (dats 0 c).q w = winShare w) :
    (StableHlo.held (c : Thread nD τ) (Pipeline.ucRefs τ sig) Vv : sProp 𝕄)
      ⊢ iprop((dats 0 c).arrays ((dats 0 c).arrAt · 0) ∗ Pipeline.unscopedRest spec0 c (fun b => Vv b)) := by
  rw [← Pipeline.unscopedBufs_held c Vv, Pipeline.unscopedBufs_split₀ cfgs 0 winFacts₀0.arr_unscoped c]
  exact sep_mono (arrays_of_bufs dats c hq _ _ (hA 0) (hA 1) (hA 2) (hA 3) (hA 4) (hA 5) (hA 6) (hA 7)) .rfl

/-- EXIT, the buffers: the windows' arrays after every write-back and the bypassing buffers are the core's unscoped
    buffers at a valuation that differs from the entry one at the two result columns only. -/
theorem exit_join (c : Dev nD) (Vv Wv : Valuation τ sig (Elt F))
    (hA : ∀ w, (dats 0 c).A w = Vv (Proc.devRef .tc (Pipeline.arrRef spec0 w))) (hq : ∀ w, (dats 0 c).q w = winShare w)
    (hW : ∀ b : Ref sig .tc, b ≠ main_v10_0 → b ≠ main_v10_1 → Wv (Proc.devRef .tc b) = Vv (Proc.devRef .tc b))
    (h6 : Wv (Proc.devRef .tc main_v10_0) = (dats 0 c).arrAt 6 cfg0.N)
    (h7 : Wv (Proc.devRef .tc main_v10_1) = (dats 0 c).arrAt 7 cfg0.N) :
    iprop((dats 0 c).arrays ((dats 0 c).arrAt · cfg0.N) ∗ Pipeline.unscopedRest spec0 c (fun b => Vv b))
      ⊢ (StableHlo.held (c : Thread nD τ) (Pipeline.ucRefs τ sig) Wv : sProp 𝕄) := by
  rw [← Pipeline.unscopedBufs_held c Wv, Pipeline.unscopedBufs_split₀ cfgs 0 winFacts₀0.arr_unscoped c]
  refine sep_mono (bufs_of_arrays dats c hq _ _ ?_ ?_ ?_ ?_ ?_ ?_ h6.symm h7.symm) (Entails.of_eq ?_)
  · exact ((dats 0 c).arrAt_in 0 rfl _).trans ((hA 0).trans (hW main_v5 (by decide) (by decide)).symm)
  · exact ((dats 0 c).arrAt_in 1 rfl _).trans ((hA 1).trans (hW main_v5 (by decide) (by decide)).symm)
  · exact ((dats 0 c).arrAt_in 2 rfl _).trans ((hA 2).trans (hW main_v6 (by decide) (by decide)).symm)
  · exact ((dats 0 c).arrAt_in 3 rfl _).trans ((hA 3).trans (hW main_v7 (by decide) (by decide)).symm)
  · exact ((dats 0 c).arrAt_in 4 rfl _).trans ((hA 4).trans (hW main_v8 (by decide) (by decide)).symm)
  · exact ((dats 0 c).arrAt_in 5 rfl _).trans ((hA 5).trans (hW main_v9 (by decide) (by decide)).symm)
  · unfold Pipeline.unscopedRest
    refine bigSep_congr fun b hb => ?_
    have hb' := (Finset.mem_sdiff.mp hb).2
    simp only [hW b (fun e => hb' (Finset.mem_image.mpr ⟨6, Finset.mem_univ _, e.symm⟩))
      (fun e => hb' (Finset.mem_image.mpr ⟨7, Finset.mem_univ _, e.symm⟩))]

end RunAux

namespace RunAux

variable (dats : (p : Fin 1) → (c : Dev nD) → Dat τ (Elt F) Unit ℕ (UR sig nD τ) ℕ (cfgs p) c)

/-- The prefetched tables' admissible contents: no table. -/
abbrev adm : (p : Fin 1) → (pcfgs (F := F) p).Adm := fun p => (cfgs p).toPCfg_adm
/-- No core owes another anything: no level is assigned. -/
abbrev L : GSem nD τ sig → Finset Unit := fun _ => ∅
abbrev lv : GSem nD τ sig → Unit → ℕ := fun _ _ => 0

/-- What rides beside the buffers through the lines before the region: the core owes nothing and has recorded no
    wait; its generator register is at some state. -/
abbrev R₀ (c : Dev nD) : sProp 𝕄 :=
  iprop(owes (c : Thread nD τ) (0 : CellTallies nD τ sig Unit) ∅ ∗ ∃ r, prngReg c r)
/-- And through the lines after it: the waits recorded are those of the region. -/
abbrev R₁ (c : Dev nD) : sProp 𝕄 :=
  iprop((∃ W, owes (c : Thread nD τ) (0 : CellTallies nD τ sig Unit) W) ∗ ∃ r, prngReg c r)

local notation "ℍ" => Pipeline.HostSeg (Name := ℕ) (U := UR sig nD τ) (pcfgs (F := F)) defs₀ Variants.none L lv

/-- A stretch of host operations over the core's unscoped buffers. -/
def hseg (ops : List (HloOp τ sig (Elt F))) (hsub : ops.Forall fun op => op.bufs ⊆ StableHlo.tcRefs τ sig)
    (hf : ∀ op ∈ ops, op.fresh = ∅) (W : Dev nD → Valuation τ sig (Elt F)) (R : Dev nD → sProp 𝕄) : ℍ :=
  Pipeline.HostSeg.ofOps _ _ _ _ _ (Pipeline.ucRefs τ sig) ops
    (fun op h => Pipeline.sub_ucRefs op ((List.forall_iff_forall_mem.mp hsub) op h)) hf W R

theorem fresh0 : ∀ op ∈ (hostOps0 : List (HloOp τ sig (Elt F))), op.fresh = ∅ := by
  intro _ h; (repeat (cases h with | head => rfl | tail _ h => ?_)); exact nomatch h
theorem fresh0_1 : ∀ op ∈ (hostOps0_1 : List (HloOp τ sig (Elt F))), op.fresh = ∅ := by
  intro _ h; (repeat (cases h with | head => rfl | tail _ h => ?_)); exact nomatch h
theorem fresh1 : ∀ op ∈ (hostOps1 : List (HloOp τ sig (Elt F))), op.fresh = ∅ := by
  intro _ h; (repeat (cases h with | head => rfl | tail _ h => ?_)); exact nomatch h
theorem fresh1_1 : ∀ op ∈ (hostOps1_1 : List (HloOp τ sig (Elt F))), op.fresh = ∅ := by
  intro _ h; (repeat (cases h with | head => rfl | tail _ h => ?_)); exact nomatch h
theorem fresh1_2 : ∀ op ∈ (hostOps1_2 : List (HloOp τ sig (Elt F))), op.fresh = ∅ := by
  intro _ h; (repeat (cases h with | head => rfl | tail _ h => ?_)); exact nomatch h
theorem fresh1_3 : ∀ op ∈ (hostOps1_3 : List (HloOp τ sig (Elt F))), op.fresh = ∅ := by
  intro _ h; (repeat (cases h with | head => rfl | tail _ h => ?_)); exact nomatch h

end RunAux

namespace RunAux

variable (dats : (p : Fin 1) → (c : Dev nD) → Dat τ (Elt F) Unit ℕ (UR sig nD τ) ℕ (cfgs p) c)

set_option backward.isDefEq.respectTransparency.types false in
/-- THE REGION: entered from the buffers at the region-entry valuation — the windows' arrays into the pipeline, the
    generator register into the invariant, every other unscoped buffer bypassing —, left with the buffers at `Wfin`. -/
def reg (hbody : ∀ c, BodyObligation (dats 0 c) (defs₀ (F := F)) Variants.none () Set.univ)
    (hA : ∀ c w, (dats 0 c).A w = V m c (Pipeline.arrRef spec0 w))
    (hq : ∀ c w, (dats 0 c).q w = winShare w)
    (howed : ∀ c t, (dats 0 c).owed t = 0)
    (hin : ∀ c, (Pipeline.ΦA spec0 c : sProp 𝕄) ⊢ (dats 0 c).Φ 0)
    (hout : ∀ c, (dats 0 c).Φ (Fin.last cfg0.N) ⊢ (Pipeline.ΦA spec0 c : sProp 𝕄)) :
    Pipeline.RegionSeg (pcfgs (F := F)) adm dats () defs₀ Variants.none L lv 0 where
  win := winFacts₀0
  block_pos := block_pos0
  stage_whole := stage_whole0
  K := PEmpty
  osem := fun k => k.elim
  ho := Pipeline.OwnSemFacts.none spec0
  hbody c := (hbody c).loose
  hwaits := Pipeline.hwaits_of_owed_zero _ _ _ _ L lv 0 howed
  pre c := iprop(StableHlo.held (c : Thread nD τ) (Pipeline.ucRefs τ sig) (V0 m c) ∗ R₀ c)
  post c := iprop(StableHlo.held (c : Thread nD τ) (Pipeline.ucRefs τ sig) (Wfin m dats c) ∗ R₁ c)
  X c := iprop(∃ r, prngReg c r)
  Y c := iprop(∃ r, prngReg c r)
  Z c := Pipeline.unscopedRest spec0 c (V m c)
  hentry c := by
    iintro ⟨⟨Hh, HO, Hp⟩, -, -⟩
    ihave H := (entry_split dats c (V0 m c) (hA c) (hq c)) $$ Hh
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      iexists ∅; isplitr; · ipureintro; intro x hx; exact absurd hx (by simp)
      iexact HO
    isplitl [Hp]; · iexact Hp
    iexact Hr
  hin c := by
    refine BIBase.Entails.trans ?_ (hin c)
    unfold Pipeline.ΦA
    iintro ⟨Hp, -, Hr⟩
    isplitl [Hr]; · iexact Hr
    iexact Hp
  hout c := by
    refine (hout c).trans ?_
    rw [Pipeline.ownSems0_none]; unfold Pipeline.ΦA
    iintro ⟨Hr, Hp⟩
    isplitl [Hp]; · iexact Hp
    isplitr; · iempintro
    iexact Hr
  hexit c := by
    iintro ⟨Ha, HO, HY, HZ⟩
    ihave Hh := (exit_join dats c (V0 m c) (Wfin m dats c) (hA c) (hq c) (Wfin_of_ne m dats c) (Wfin_contrib m dats c) (Wfin_include m dats c)) $$ [Ha HZ]
    · isplitl [Ha]; · iexact Ha
      iexact HZ
    imodintro
    isplitl [Hh]; · iexact Hh
    isplitl [HO]
    · unfold Pipeline.Dat.owesAt Pipeline.owesWithin
      rw [howed c (Fin.last _)]
      icases HO with ⟨%W, -, HO⟩; iexists W; iexact HO
    iexact HY

end RunAux

namespace RunAux

variable (dats : (p : Fin 1) → (c : Dev nD) → Dat τ (Elt F) Unit ℕ (UR sig nD τ) ℕ (cfgs p) c)

/-- The buffers after the four stretches that follow the region, from the valuation the region leaves. -/
abbrev Wend (c : Dev nD) : Valuation τ sig (Elt F) :=
  StableHlo.after hostOps1_3 (StableHlo.after hostOps1_2 (StableHlo.after hostOps1_1 (StableHlo.after hostOps1 (Wfin m dats c))))

/-- @main as its seven segments: two host stretches, the region, four host stretches. -/
def segs (hbody : ∀ c, BodyObligation (dats 0 c) (defs₀ (F := F)) Variants.none () Set.univ)
    (hA : ∀ c w, (dats 0 c).A w = V m c (Pipeline.arrRef spec0 w))
    (hq : ∀ c w, (dats 0 c).q w = winShare w)
    (howed : ∀ c t, (dats 0 c).owed t = 0)
    (hin : ∀ c, (Pipeline.ΦA spec0 c : sProp 𝕄) ⊢ (dats 0 c).Φ 0)
    (hout : ∀ c, (dats 0 c).Φ (Fin.last cfg0.N) ⊢ (Pipeline.ΦA spec0 c : sProp 𝕄)) :
    List (Pipeline.Seg (pcfgs (F := F)) adm dats () defs₀ Variants.none L lv) :=
  [ .host (hseg hostOps0 hostOps0_sub fresh0 (fun c b => m (c, b)) R₀),
    .host (hseg hostOps0_1 hostOps0_1_sub fresh0_1 (fun c => StableHlo.after hostOps0 (fun b => m (c, b))) R₀),
    .region (reg m dats hbody hA hq howed hin hout),
    .host (hseg hostOps1 hostOps1_sub fresh1 (fun c => Wfin m dats c) R₁),
    .host (hseg hostOps1_1 hostOps1_1_sub fresh1_1 (fun c => StableHlo.after hostOps1 (Wfin m dats c)) R₁),
    .host (hseg hostOps1_2 hostOps1_2_sub fresh1_2 (fun c => StableHlo.after hostOps1_1 (StableHlo.after hostOps1 (Wfin m dats c))) R₁),
    .host (hseg hostOps1_3 hostOps1_3_sub fresh1_3
      (fun c => StableHlo.after hostOps1_2 (StableHlo.after hostOps1_1 (StableHlo.after hostOps1 (Wfin m dats c)))) R₁) ]

/-- The stretches after the region taken together. -/
theorem Wend_eq (c : Dev nD) : Wend m dats c = StableHlo.after tailOps (Wfin m dats c) := (tail_eq _).symm

/-- A reference no stretch writes, and no result column, ends as launched. -/
theorem Wend_arg (c : Dev nD) (b : Ref sig .tc)
    (h0 : b ∉ [main_call0_v0, main_call0_cst, main_call0_v1, main_call0_v2, main_v0])
    (h0' : b ∉ [main_cst, main_v1, main_v2, main_v3, main_v4, main_v5, main_v6, main_v7, main_v8, main_v9])
    (ha : b ≠ main_v10_0) (hb : b ≠ main_v10_1)
    (h1 : b ∉ [main_cst_0, main_v11, main_cst_1, main_v12, main_cst_2, main_v13, main_cst_3, main_v14, main_v15, main_cst_4])
    (h2 : b ∉ [main_call1_v0, main_v16]) (h3 : b ∉ [main_v17, main_cst_5]) (h4 : b ∉ [main_call2_v0, main_v18]) :
    Wend m dats c (Proc.devRef .tc b) = m ((c : Thread nD τ).loc b) := by
  rw [Wend_eq, tail_arg _ b h1 h2 h3 h4, Wfin_of_ne m dats c b ha hb]
  exact V0_arg m c b h0 h0'

/-- An unscoped TensorCore reference is among the buffers the host stretches run within. -/
theorem mem_ucRefs (b : Ref sig .tc) (hb : b.isScoped = false) : Proc.devRef .tc b ∈ Pipeline.ucRefs τ sig :=
  Finset.mem_filter.mpr ⟨StableHlo.devRef_mem_tcRefs b, fun h => Bool.false_ne_true (hb.symm.trans h)⟩

end RunAux

set_option backward.isDefEq.respectTransparency.types false in
/-- THE RUN. For proof data whose arrays are the region-entry contents, whose windows hold the shares `winShare`,
    that owe nothing, and whose invariant starts from and ends in the class invariant: every weakly fair execution of
    @main terminates without a fault, with the result the lines after the region compute from the two columns the
    region left, and the three arguments as they were. -/
theorem run_of (dats : (p : Fin 1) → (c : Dev nD) → Dat τ (Elt F) Unit ℕ (UR sig nD τ) ℕ (cfgs p) c)
    (hbody : ∀ c, BodyObligation (dats 0 c) (defs₀ (F := F)) Variants.none () Set.univ)
    (hA : ∀ c w, (dats 0 c).A w = V m c (Pipeline.arrRef spec0 w))
    (hq : ∀ c w, (dats 0 c).q w = winShare w)
    (howed : ∀ c t, (dats 0 c).owed t = 0)
    (hin : ∀ c, (Pipeline.ΦA spec0 c : sProp 𝕄) ⊢ (dats 0 c).Φ 0)
    (hout : ∀ c, (dats 0 c).Φ (Fin.last cfg0.N) ⊢ (Pipeline.ΦA spec0 c : sProp 𝕄)) :
    θ_run defs (onTc (τ := τ) (main (F := F))) ⟨m, fun _ => 0, ρ⟩ (fun r => ∀ c : Dev nD,
      r.2.mem ((c.tc : Thread nD τ).loc main_v18) = StableHlo.after tailOps (Wfin m dats c) (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) RunAux.adm dats () cellOf_inj emb₁ defs₀ Variants.none RunAux.L RunAux.lv m ρ main
    (RunAux.segs m dats hbody hA hq howed hin hout)
    (fun c Q => by rw [main_chain c, Pipeline.Seg.run_eq_chain]; exact .rfl)
    (by unfold RunAux.segs; simp only [Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) RunAux.adm) cellOf_inj) (Pipeline.launchToks (Pipeline.pin (pcfgs (F := F)) RunAux.adm) cellOf_inj))
    (hu₀ := by
      iintro Hu; imodintro
      isplitl [Hu]
      · iapply (show (ownU _ : sProp 𝕄) ⊢ BI.own (emb₁ (initOf (Pipeline.cells (Pipeline.pin (pcfgs (F := F)) RunAux.adm) cellOf_inj)
          (Pipeline.launchToks (Pipeline.pin (pcfgs (F := F)) RunAux.adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m (c, b)) ∗ RunAux.R₀ c))
    (Tₙ := fun c => iprop(StableHlo.held (c : Thread nD τ) (Pipeline.ucRefs τ sig) (RunAux.Wend m dats c) ∗ ∃ r, prngReg c r))
    (hch := ⟨fun _ => .rfl, fun _ => .rfl,
      fun c => Entails.of_eq (congrArg (fun W => iprop(StableHlo.held (c : Thread nD τ) (Pipeline.ucRefs τ sig) W ∗ RunAux.R₀ c)) (RunAux.V0_eq m c).symm),
      fun _ => .rfl, fun _ => .rfl, fun _ => .rfl, fun _ => .rfl,
      fun c => by
        show iprop(StableHlo.held (c : Thread nD τ) (Pipeline.ucRefs τ sig) (RunAux.Wend m dats c) ∗ RunAux.R₁ c) ⊢ _
        iintro ⟨Hh, HO, Hp⟩
        isplitr [HO]
        · isplitl [Hh]; · iexact Hh
          iexact Hp
        · iexact HO⟩)
    (hinit := by
      refine Pipeline.initEach RunAux.L RunAux.lv fun c => ?_
      rw [show unscopedBufs c (fun b => m ((c : Thread nD τ).loc b)) = StableHlo.held (c : Thread nD τ) (Pipeline.ucRefs τ sig) (fun b => m (c, b))
        from Pipeline.unscopedBufs_held c (fun b => m (c, b))]
      iintro ⟨⟨Hh, -, HO, -, Hp, -⟩, -⟩
      imodintro
      isplitl [Hh]; · iexact Hh
      isplitl [HO]; · iexact HO
      iexists _; iexact Hp)
    (QY := fun c s => ∀ b ∈ Pipeline.ucRefs τ sig, s.mem ((c : Thread nD τ).1, b) = RunAux.Wend m dats c b)
    (hfin := fun c s' => by
      unfold StableHlo.held
      iintro ⟨⟨Hh, -⟩, HSI⟩
      imodintro
      iapply (pointsTo_read_all (Pipeline.ucRefs τ sig) (fun b => ((c : Thread nD τ).1, b)) (RunAux.Wend m dats c) s')
      isplitl [Hh]; · iexact Hh
      iexact HSI)
    (hQ := fun s h c => by
      refine ⟨?_, ?_, ?_, ?_⟩
      · rw [← RunAux.Wend_eq]; exact h c _ (RunAux.mem_ucRefs main_v18 rfl)
      · exact (h c _ (RunAux.mem_ucRefs main_arg0 rfl)).trans
          (RunAux.Wend_arg m dats c main_arg0 (by decide) (by decide) (by decide) (by decide) (by decide) (by decide) (by decide) (by decide))
      · exact (h c _ (RunAux.mem_ucRefs main_arg1 rfl)).trans
          (RunAux.Wend_arg m dats c main_arg1 (by decide) (by decide) (by decide) (by decide) (by decide) (by decide) (by decide) (by decide))
      · exact (h c _ (RunAux.mem_ucRefs main_arg2 rfl)).trans
          (RunAux.Wend_arg m dats c main_arg2 (by decide) (by decide) (by decide) (by decide) (by decide) (by decide) (by decide) (by decide)))

end Cert.KernelIdeal.Hand

end
-- ==== Proof.KI.Run.lean ====
/-
  The run of @main and the frame claim, from the region's body obligation and the launch.
-/
import proofs.«141537_j90099823936181_1_alg».proof.Proof.KI.Body
import proofs.«141537_j90099823936181_1_alg».proof.Proof.KI.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data deal the embeddings' array between its two windows, a half each. -/
theorem hq (c : Dev nD) (w : Fin cfg0.W) : (dats m 0 c).q w = winShare w := by
  dsimp only [dats]
  match w with
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl

/-- THE RUN: every weakly fair execution of @main terminates without a fault, its result what the lines after the
    region compute from the two columns the region left, its three arguments unchanged. -/
theorem run_main :
    θ_run defs (onTc (τ := τ) (main (F := F))) ⟨m, fun _ => 0, ρ⟩ (fun r => ∀ c : Dev nD,
      r.2.mem ((c.tc : Thread nD τ).loc main_v18) = StableHlo.after tailOps (Wfin m (dats m) c) (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_of m ρ (dats m) (fun c => body_obligation m c) (fun c w => A_eq m c w) (fun c w => hq m c w) (fun _ _ => rfl)
    (fun c => hin m c) (fun c => hout m c)

/-- THE FRAME: the run with its result dropped. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.KernelIdeal.Hand

end
-- ==== Proof.KI.Pieces.lean ====
/-
  What each case leaves in each buffer, as the body's named values at the point's blocks.

  Every store overwrites its whole buffer, so what a case's pieces read back to is the value of the buffer's LAST
  store, a load after a store in the same run reading the stored value. At the first tile each running column ends
  at its update of the reset value; at a later tile at its update of what the tile before left; at the last tile the
  two result buffers end at the loss column and the count column computed from the six updated running columns.
-/
import proofs.«141537_j90099823936181_1_alg».proof.Proof.KI.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ (UR sig nD τ) ℕ

/-! ## The pieces of a run, over any buffers

Every load and every store of the body goes through the rectangle of its whole buffer at offsets zero. So a load of an
input buffer reads the block it holds, a load of a running column after a store of the same run reads the value stored,
and the pieces a run leaves for a buffer read back to the value of the last one. -/

/-- The offsets of every load and store of the body: zero on both axes. -/
theorem offsets_zero : (![0, 0] : Fin 2 → Nat) = fun _ => 0 :=
  funext fun a => match a with | ⟨0, _⟩ => rfl | ⟨1, _⟩ => rfl

/-- Reads every load of a run: of an input buffer the block it holds, of a column stored before in the same run the value
    stored. -/
local macro "loads_read" : tactic =>
  `(tactic| simp only [View.readAt_eq_ld, Memref.IsWhole.read_unread, View.ld_unit_zero (S := S1024x128) offsets_zero,
    View.ld_unit_zero (S := S512x128) offsets_zero, View.ld_unit_zero (S := S1024x1) offsets_zero,
    View.ld_unit_zero (S := S1x512) offsets_zero, View.readCov_unit_zero (S := S1024x1) _ offsets_zero])

section Pieces

variable (c : Dev nD) (i : grid0.Coords)
  (arg2 : Memref sig .tc .vmem S1024x128 .bf16) (harg2 : arg2.IsWhole) (arg3 : Memref sig .tc .vmem S512x128 .bf16) (harg3 : arg3.IsWhole)
  (arg4 : Memref sig .tc .vmem S1024x1 .i32) (harg4 : arg4.IsWhole) (arg5 : Memref sig .tc .vmem S1x512 .i32) (harg5 : arg5.IsWhole)
  (arg6 : Memref sig .tc .vmem S1024x1 .i32) (harg6 : arg6.IsWhole) (arg7 : Memref sig .tc .vmem S1x512 .i32) (harg7 : arg7.IsWhole)
  (arg8 : Memref sig .tc .vmem S1024x1 .f32) (harg8 : arg8.IsWhole) (arg9 : Memref sig .tc .vmem S1024x1 .f32) (harg9 : arg9.IsWhole)
  (arg10 : Memref sig .tc .vmem S1024x1 .f32) (harg10 : arg10.IsWhole) (arg11 : Memref sig .tc .vmem S1024x1 .f32) (harg11 : arg11.IsWhole)
  (arg12 : Memref sig .tc .vmem S1024x1 .f32) (harg12 : arg12.IsWhole) (arg13 : Memref sig .tc .vmem S1024x1 .f32) (harg13 : arg13.IsWhole)
  (arg14 : Memref sig .tc .vmem S1024x1 .f32) (harg14 : arg14.IsWhole) (arg15 : Memref sig .tc .vmem S1024x1 .f32) (harg15 : arg15.IsWhole)
  (x0 : Vec F S1024x128 .bf16) (x1 : Vec F S512x128 .bf16) (x2 : Vec F S1024x1 .i32) (x3 : Vec F S1x512 .i32)
  (x4 : Vec F S1024x1 .i32) (x5 : Vec F S1x512 .i32)
  (xs0 xs1 xs2 xs3 xs4 xs5 : Vec F S1024x1 .f32)

/-! ### The first tile: each column is reset, read back, and updated -/

theorem soutA_0 (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5
      = k0_pay17 (k0_pay11 x0 x1) (k0_pay14 i x2 x3) (k0_pay5 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5)]
  unfold kernelRun0_A
  dsimp only
  sl_unfold_words
  rw [View.canon_cons_unit_zero (S := S1024x1) offsets_zero]
  loads_read

theorem soutA_1 (hc0 : cond0_0 i) (hc1 : ¬cond0_1 i) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5
      = k0_pay18 (k0_pay11 x0 x1) (k0_pay13 x4 x5) (k0_pay15 x2 x3) (k0_pay6 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5)]
  unfold kernelRun0_A
  dsimp only
  sl_unfold_words
  rw [View.canon_cons_unit_zero (S := S1024x1) offsets_zero]
  loads_read

theorem soutA_2 (hc0 : cond0_0 i) (hc1 : ¬cond0_1 i) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5
      = k0_pay19 (k0_pay11 x0 x1) (k0_pay15 x2 x3) (k0_pay7 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5)]
  unfold kernelRun0_A
  dsimp only
  sl_unfold_words
  rw [View.canon_cons_unit_zero (S := S1024x1) offsets_zero]
  loads_read

theorem soutA_3 (hc0 : cond0_0 i) (hc1 : ¬cond0_1 i) :
    sout0_A_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5
      = k0_pay21 (k0_pay8 (F := F)) (k0_pay20 (F := F) (k0_pay14 i x2 x3)) (Scalar.ofBits .f32 0x00000000#32) := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5)]
  unfold kernelRun0_A
  dsimp only
  sl_unfold_words
  rw [View.canon_cons_unit_zero (S := S1024x1) offsets_zero]
  loads_read

theorem soutA_4 (hc0 : cond0_0 i) (hc1 : ¬cond0_1 i) :
    sout0_A_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5
      = k0_pay22 (k0_pay16 (k0_pay13 x4 x5) (k0_pay15 x2 x3)) (k0_pay9 (F := F)) := by
  unfold sout0_A_4
  rw [View.read_writes_eq_canon _ _ _ (scover0_A_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5)]
  unfold kernelRun0_A
  dsimp only
  sl_unfold_words
  rw [View.canon_cons_unit_zero (S := S1024x1) offsets_zero]
  loads_read

theorem soutA_5 (hc0 : cond0_0 i) (hc1 : ¬cond0_1 i) :
    sout0_A_5 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5
      = k0_pay23 (k0_pay15 x2 x3) (k0_pay10 (F := F)) := by
  unfold sout0_A_5
  rw [View.read_writes_eq_canon _ _ _ (scover0_A_5 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5)]
  unfold kernelRun0_A
  dsimp only
  sl_unfold_words
  rw [View.canon_cons_unit_zero (S := S1024x1) offsets_zero]
  loads_read

/-! ### A middle tile: each column is updated from what the tile before left -/

theorem soutB_0 (hc0 : ¬cond0_0 i) (hc1 : ¬cond0_1 i) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5
      = k0_pay17 (k0_pay11 x0 x1) (k0_pay14 i x2 x3) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5)]
  unfold kernelRun0_B
  dsimp only
  sl_unfold_words
  rw [View.canon_unit_zero offsets_zero]
  loads_read

theorem soutB_1 (hc0 : ¬cond0_0 i) (hc1 : ¬cond0_1 i) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5
      = k0_pay18 (k0_pay11 x0 x1) (k0_pay13 x4 x5) (k0_pay15 x2 x3) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5)]
  unfold kernelRun0_B
  dsimp only
  sl_unfold_words
  rw [View.canon_unit_zero offsets_zero]
  loads_read

theorem soutB_2 (hc0 : ¬cond0_0 i) (hc1 : ¬cond0_1 i) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5
      = k0_pay19 (k0_pay11 x0 x1) (k0_pay15 x2 x3) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5)]
  unfold kernelRun0_B
  dsimp only
  sl_unfold_words
  rw [View.canon_unit_zero offsets_zero]
  loads_read

theorem soutB_3 (hc0 : ¬cond0_0 i) (hc1 : ¬cond0_1 i) :
    sout0_B_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5
      = k0_pay21 xs3 (k0_pay20 (F := F) (k0_pay14 i x2 x3)) (Scalar.ofBits .f32 0x00000000#32) := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5)]
  unfold kernelRun0_B
  dsimp only
  sl_unfold_words
  rw [View.canon_unit_zero offsets_zero]
  loads_read

theorem soutB_4 (hc0 : ¬cond0_0 i) (hc1 : ¬cond0_1 i) :
    sout0_B_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5
      = k0_pay22 (k0_pay16 (k0_pay13 x4 x5) (k0_pay15 x2 x3)) xs4 := by
  unfold sout0_B_4
  rw [View.read_writes_eq_canon _ _ _ (scover0_B_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5)]
  unfold kernelRun0_B
  dsimp only
  sl_unfold_words
  rw [View.canon_unit_zero offsets_zero]
  loads_read

theorem soutB_5 (hc0 : ¬cond0_0 i) (hc1 : ¬cond0_1 i) :
    sout0_B_5 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5
      = k0_pay23 (k0_pay15 x2 x3) xs5 := by
  unfold sout0_B_5
  rw [View.read_writes_eq_canon _ _ _ (scover0_B_5 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5)]
  unfold kernelRun0_B
  dsimp only
  sl_unfold_words
  rw [View.canon_unit_zero offsets_zero]
  loads_read

/-! ### The last tile: the columns are updated as at a middle tile, then read back into the two result columns -/

theorem soutC_0 (hc0 : ¬cond0_0 i) (hc1 : cond0_1 i) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5
      = k0_pay17 (k0_pay11 x0 x1) (k0_pay14 i x2 x3) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5)]
  unfold kernelRun0_C
  dsimp only
  sl_unfold_words
  rw [View.canon_unit_zero offsets_zero]
  loads_read

theorem soutC_1 (hc0 : ¬cond0_0 i) (hc1 : cond0_1 i) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5
      = k0_pay18 (k0_pay11 x0 x1) (k0_pay13 x4 x5) (k0_pay15 x2 x3) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5)]
  unfold kernelRun0_C
  dsimp only
  sl_unfold_words
  rw [View.canon_unit_zero offsets_zero]
  loads_read

theorem soutC_2 (hc0 : ¬cond0_0 i) (hc1 : cond0_1 i) :
    sout0_C_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5
      = k0_pay19 (k0_pay11 x0 x1) (k0_pay15 x2 x3) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5)]
  unfold kernelRun0_C
  dsimp only
  sl_unfold_words
  rw [View.canon_unit_zero offsets_zero]
  loads_read

theorem soutC_3 (hc0 : ¬cond0_0 i) (hc1 : cond0_1 i) :
    sout0_C_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5
      = k0_pay21 xs3 (k0_pay20 (F := F) (k0_pay14 i x2 x3)) (Scalar.ofBits .f32 0x00000000#32) := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5)]
  unfold kernelRun0_C
  dsimp only
  sl_unfold_words
  rw [View.canon_unit_zero offsets_zero]
  loads_read

theorem soutC_4 (hc0 : ¬cond0_0 i) (hc1 : cond0_1 i) :
    sout0_C_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5
      = k0_pay22 (k0_pay16 (k0_pay13 x4 x5) (k0_pay15 x2 x3)) xs4 := by
  unfold sout0_C_4
  rw [View.read_writes_eq_canon _ _ _ (scover0_C_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5)]
  unfold kernelRun0_C
  dsimp only
  sl_unfold_words
  rw [View.canon_unit_zero offsets_zero]
  loads_read

theorem soutC_5 (hc0 : ¬cond0_0 i) (hc1 : cond0_1 i) :
    sout0_C_5 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5
      = k0_pay23 (k0_pay15 x2 x3) xs5 := by
  unfold sout0_C_5
  rw [View.read_writes_eq_canon _ _ _ (scover0_C_5 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5)]
  unfold kernelRun0_C
  dsimp only
  sl_unfold_words
  rw [View.canon_unit_zero offsets_zero]
  loads_read

/-- The loss column: the body's last value of the six columns it has just stored, each load reading its store back. -/
theorem outC_6 (hc0 : ¬cond0_0 i) (hc1 : cond0_1 i) :
    out0_C_6 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5
      = k0_pay3 (k0_pay21 xs3 (k0_pay20 (F := F) (k0_pay14 i x2 x3)) (Scalar.ofBits .f32 0x00000000#32))
          (k0_pay22 (k0_pay16 (k0_pay13 x4 x5) (k0_pay15 x2 x3)) xs4) (k0_pay23 (k0_pay15 x2 x3) xs5)
          (k0_pay18 (k0_pay11 x0 x1) (k0_pay13 x4 x5) (k0_pay15 x2 x3) xs1) (k0_pay19 (k0_pay11 x0 x1) (k0_pay15 x2 x3) xs2)
          (k0_pay17 (k0_pay11 x0 x1) (k0_pay14 i x2 x3) xs0) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5)]
  unfold kernelRun0_C
  dsimp only
  sl_unfold_words
  rw [View.canon_unit_zero offsets_zero]
  loads_read

/-- The count column, likewise. -/
theorem outC_7 (hc0 : ¬cond0_0 i) (hc1 : cond0_1 i) :
    out0_C_7 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5
      = k0_pay4 (k0_pay21 xs3 (k0_pay20 (F := F) (k0_pay14 i x2 x3)) (Scalar.ofBits .f32 0x00000000#32))
          (k0_pay22 (k0_pay16 (k0_pay13 x4 x5) (k0_pay15 x2 x3)) xs4) (k0_pay23 (k0_pay15 x2 x3) xs5)
          (k0_pay18 (k0_pay11 x0 x1) (k0_pay13 x4 x5) (k0_pay15 x2 x3) xs1) (k0_pay19 (k0_pay11 x0 x1) (k0_pay15 x2 x3) xs2)
          (k0_pay17 (k0_pay11 x0 x1) (k0_pay14 i x2 x3) xs0) := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5)]
  unfold kernelRun0_C
  dsimp only
  sl_unfold_words
  rw [View.canon_unit_zero offsets_zero]
  loads_read

end Pieces

/-! ## The cases at a grid point -/

theorem caseA_s0 (c : Dev nD) (t : Fin cfg0.N) (h0 : t.val % 16 = 0) (h1 : ¬t.val % 16 = 15) :
    (caseA m c t h0 h1).2.2.1 = k0_pay17 (k0_pay11 (iblk m c 0 t) (iblk m c 1 t)) (k0_pay14 (grid0.coords t) (iblk m c 2 t) (iblk m c 3 t)) (k0_pay5 (F := F)) := by
  unfold caseA
  dsimp only
  exact soutA_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) ((hcond0_0 t).mpr h0) (fun h => h1 ((hcond0_1 t).mp h))
theorem caseA_s1 (c : Dev nD) (t : Fin cfg0.N) (h0 : t.val % 16 = 0) (h1 : ¬t.val % 16 = 15) :
    (caseA m c t h0 h1).2.2.2.1 = k0_pay18 (k0_pay11 (iblk m c 0 t) (iblk m c 1 t)) (k0_pay13 (iblk m c 4 t) (iblk m c 5 t)) (k0_pay15 (iblk m c 2 t) (iblk m c 3 t)) (k0_pay6 (F := F)) := by
  unfold caseA
  dsimp only
  exact soutA_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) ((hcond0_0 t).mpr h0) (fun h => h1 ((hcond0_1 t).mp h))
theorem caseA_s2 (c : Dev nD) (t : Fin cfg0.N) (h0 : t.val % 16 = 0) (h1 : ¬t.val % 16 = 15) :
    (caseA m c t h0 h1).2.2.2.2.1 = k0_pay19 (k0_pay11 (iblk m c 0 t) (iblk m c 1 t)) (k0_pay15 (iblk m c 2 t) (iblk m c 3 t)) (k0_pay7 (F := F)) := by
  unfold caseA
  dsimp only
  exact soutA_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) ((hcond0_0 t).mpr h0) (fun h => h1 ((hcond0_1 t).mp h))
theorem caseA_s3 (c : Dev nD) (t : Fin cfg0.N) (h0 : t.val % 16 = 0) (h1 : ¬t.val % 16 = 15) :
    (caseA m c t h0 h1).2.2.2.2.2.1 = k0_pay21 (k0_pay8 (F := F)) (k0_pay20 (F := F) (k0_pay14 (grid0.coords t) (iblk m c 2 t) (iblk m c 3 t))) (Scalar.ofBits .f32 0x00000000#32) := by
  unfold caseA
  dsimp only
  exact soutA_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) ((hcond0_0 t).mpr h0) (fun h => h1 ((hcond0_1 t).mp h))
theorem caseA_s4 (c : Dev nD) (t : Fin cfg0.N) (h0 : t.val % 16 = 0) (h1 : ¬t.val % 16 = 15) :
    (caseA m c t h0 h1).2.2.2.2.2.2.1 = k0_pay22 (k0_pay16 (k0_pay13 (iblk m c 4 t) (iblk m c 5 t)) (k0_pay15 (iblk m c 2 t) (iblk m c 3 t))) (k0_pay9 (F := F)) := by
  unfold caseA
  dsimp only
  exact soutA_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) ((hcond0_0 t).mpr h0) (fun h => h1 ((hcond0_1 t).mp h))
theorem caseA_s5 (c : Dev nD) (t : Fin cfg0.N) (h0 : t.val % 16 = 0) (h1 : ¬t.val % 16 = 15) :
    (caseA m c t h0 h1).2.2.2.2.2.2.2 = k0_pay23 (k0_pay15 (iblk m c 2 t) (iblk m c 3 t)) (k0_pay10 (F := F)) := by
  unfold caseA
  dsimp only
  exact soutA_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) ((hcond0_0 t).mpr h0) (fun h => h1 ((hcond0_1 t).mp h))

theorem caseB_s0 (c : Dev nD) (t : Fin cfg0.N) (h0 : ¬t.val % 16 = 0) (h1 : ¬t.val % 16 = 15) (prev : Tup F) :
    (caseB m c t h0 h1 prev).2.2.1 = k0_pay17 (k0_pay11 (iblk m c 0 t) (iblk m c 1 t)) (k0_pay14 (grid0.coords t) (iblk m c 2 t) (iblk m c 3 t)) prev.2.2.1 := by
  unfold caseB
  dsimp only
  exact soutB_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) prev.2.2.1 prev.2.2.2.1 prev.2.2.2.2.1 prev.2.2.2.2.2.1 prev.2.2.2.2.2.2.1 prev.2.2.2.2.2.2.2 (fun h => h0 ((hcond0_0 t).mp h)) (fun h => h1 ((hcond0_1 t).mp h))
theorem caseB_s1 (c : Dev nD) (t : Fin cfg0.N) (h0 : ¬t.val % 16 = 0) (h1 : ¬t.val % 16 = 15) (prev : Tup F) :
    (caseB m c t h0 h1 prev).2.2.2.1 = k0_pay18 (k0_pay11 (iblk m c 0 t) (iblk m c 1 t)) (k0_pay13 (iblk m c 4 t) (iblk m c 5 t)) (k0_pay15 (iblk m c 2 t) (iblk m c 3 t)) prev.2.2.2.1 := by
  unfold caseB
  dsimp only
  exact soutB_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) prev.2.2.1 prev.2.2.2.1 prev.2.2.2.2.1 prev.2.2.2.2.2.1 prev.2.2.2.2.2.2.1 prev.2.2.2.2.2.2.2 (fun h => h0 ((hcond0_0 t).mp h)) (fun h => h1 ((hcond0_1 t).mp h))
theorem caseB_s2 (c : Dev nD) (t : Fin cfg0.N) (h0 : ¬t.val % 16 = 0) (h1 : ¬t.val % 16 = 15) (prev : Tup F) :
    (caseB m c t h0 h1 prev).2.2.2.2.1 = k0_pay19 (k0_pay11 (iblk m c 0 t) (iblk m c 1 t)) (k0_pay15 (iblk m c 2 t) (iblk m c 3 t)) prev.2.2.2.2.1 := by
  unfold caseB
  dsimp only
  exact soutB_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) prev.2.2.1 prev.2.2.2.1 prev.2.2.2.2.1 prev.2.2.2.2.2.1 prev.2.2.2.2.2.2.1 prev.2.2.2.2.2.2.2 (fun h => h0 ((hcond0_0 t).mp h)) (fun h => h1 ((hcond0_1 t).mp h))
theorem caseB_s3 (c : Dev nD) (t : Fin cfg0.N) (h0 : ¬t.val % 16 = 0) (h1 : ¬t.val % 16 = 15) (prev : Tup F) :
    (caseB m c t h0 h1 prev).2.2.2.2.2.1 = k0_pay21 prev.2.2.2.2.2.1 (k0_pay20 (F := F) (k0_pay14 (grid0.coords t) (iblk m c 2 t) (iblk m c 3 t))) (Scalar.ofBits .f32 0x00000000#32) := by
  unfold caseB
  dsimp only
  exact soutB_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) prev.2.2.1 prev.2.2.2.1 prev.2.2.2.2.1 prev.2.2.2.2.2.1 prev.2.2.2.2.2.2.1 prev.2.2.2.2.2.2.2 (fun h => h0 ((hcond0_0 t).mp h)) (fun h => h1 ((hcond0_1 t).mp h))
theorem caseB_s4 (c : Dev nD) (t : Fin cfg0.N) (h0 : ¬t.val % 16 = 0) (h1 : ¬t.val % 16 = 15) (prev : Tup F) :
    (caseB m c t h0 h1 prev).2.2.2.2.2.2.1 = k0_pay22 (k0_pay16 (k0_pay13 (iblk m c 4 t) (iblk m c 5 t)) (k0_pay15 (iblk m c 2 t) (iblk m c 3 t))) prev.2.2.2.2.2.2.1 := by
  unfold caseB
  dsimp only
  exact soutB_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) prev.2.2.1 prev.2.2.2.1 prev.2.2.2.2.1 prev.2.2.2.2.2.1 prev.2.2.2.2.2.2.1 prev.2.2.2.2.2.2.2 (fun h => h0 ((hcond0_0 t).mp h)) (fun h => h1 ((hcond0_1 t).mp h))
theorem caseB_s5 (c : Dev nD) (t : Fin cfg0.N) (h0 : ¬t.val % 16 = 0) (h1 : ¬t.val % 16 = 15) (prev : Tup F) :
    (caseB m c t h0 h1 prev).2.2.2.2.2.2.2 = k0_pay23 (k0_pay15 (iblk m c 2 t) (iblk m c 3 t)) prev.2.2.2.2.2.2.2 := by
  unfold caseB
  dsimp only
  exact soutB_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) prev.2.2.1 prev.2.2.2.1 prev.2.2.2.2.1 prev.2.2.2.2.2.1 prev.2.2.2.2.2.2.1 prev.2.2.2.2.2.2.2 (fun h => h0 ((hcond0_0 t).mp h)) (fun h => h1 ((hcond0_1 t).mp h))

theorem caseC_s0 (c : Dev nD) (t : Fin cfg0.N) (h0 : ¬t.val % 16 = 0) (h1 : t.val % 16 = 15) (prev : Tup F) :
    (caseC m c t h0 h1 prev).2.2.1 = k0_pay17 (k0_pay11 (iblk m c 0 t) (iblk m c 1 t)) (k0_pay14 (grid0.coords t) (iblk m c 2 t) (iblk m c 3 t)) prev.2.2.1 := by
  unfold caseC
  dsimp only
  exact soutC_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) prev.2.2.1 prev.2.2.2.1 prev.2.2.2.2.1 prev.2.2.2.2.2.1 prev.2.2.2.2.2.2.1 prev.2.2.2.2.2.2.2 (fun h => h0 ((hcond0_0 t).mp h)) ((hcond0_1 t).mpr h1)
theorem caseC_s1 (c : Dev nD) (t : Fin cfg0.N) (h0 : ¬t.val % 16 = 0) (h1 : t.val % 16 = 15) (prev : Tup F) :
    (caseC m c t h0 h1 prev).2.2.2.1 = k0_pay18 (k0_pay11 (iblk m c 0 t) (iblk m c 1 t)) (k0_pay13 (iblk m c 4 t) (iblk m c 5 t)) (k0_pay15 (iblk m c 2 t) (iblk m c 3 t)) prev.2.2.2.1 := by
  unfold caseC
  dsimp only
  exact soutC_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) prev.2.2.1 prev.2.2.2.1 prev.2.2.2.2.1 prev.2.2.2.2.2.1 prev.2.2.2.2.2.2.1 prev.2.2.2.2.2.2.2 (fun h => h0 ((hcond0_0 t).mp h)) ((hcond0_1 t).mpr h1)
theorem caseC_s2 (c : Dev nD) (t : Fin cfg0.N) (h0 : ¬t.val % 16 = 0) (h1 : t.val % 16 = 15) (prev : Tup F) :
    (caseC m c t h0 h1 prev).2.2.2.2.1 = k0_pay19 (k0_pay11 (iblk m c 0 t) (iblk m c 1 t)) (k0_pay15 (iblk m c 2 t) (iblk m c 3 t)) prev.2.2.2.2.1 := by
  unfold caseC
  dsimp only
  exact soutC_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) prev.2.2.1 prev.2.2.2.1 prev.2.2.2.2.1 prev.2.2.2.2.2.1 prev.2.2.2.2.2.2.1 prev.2.2.2.2.2.2.2 (fun h => h0 ((hcond0_0 t).mp h)) ((hcond0_1 t).mpr h1)
theorem caseC_s3 (c : Dev nD) (t : Fin cfg0.N) (h0 : ¬t.val % 16 = 0) (h1 : t.val % 16 = 15) (prev : Tup F) :
    (caseC m c t h0 h1 prev).2.2.2.2.2.1 = k0_pay21 prev.2.2.2.2.2.1 (k0_pay20 (F := F) (k0_pay14 (grid0.coords t) (iblk m c 2 t) (iblk m c 3 t))) (Scalar.ofBits .f32 0x00000000#32) := by
  unfold caseC
  dsimp only
  exact soutC_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) prev.2.2.1 prev.2.2.2.1 prev.2.2.2.2.1 prev.2.2.2.2.2.1 prev.2.2.2.2.2.2.1 prev.2.2.2.2.2.2.2 (fun h => h0 ((hcond0_0 t).mp h)) ((hcond0_1 t).mpr h1)
theorem caseC_s4 (c : Dev nD) (t : Fin cfg0.N) (h0 : ¬t.val % 16 = 0) (h1 : t.val % 16 = 15) (prev : Tup F) :
    (caseC m c t h0 h1 prev).2.2.2.2.2.2.1 = k0_pay22 (k0_pay16 (k0_pay13 (iblk m c 4 t) (iblk m c 5 t)) (k0_pay15 (iblk m c 2 t) (iblk m c 3 t))) prev.2.2.2.2.2.2.1 := by
  unfold caseC
  dsimp only
  exact soutC_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) prev.2.2.1 prev.2.2.2.1 prev.2.2.2.2.1 prev.2.2.2.2.2.1 prev.2.2.2.2.2.2.1 prev.2.2.2.2.2.2.2 (fun h => h0 ((hcond0_0 t).mp h)) ((hcond0_1 t).mpr h1)
theorem caseC_s5 (c : Dev nD) (t : Fin cfg0.N) (h0 : ¬t.val % 16 = 0) (h1 : t.val % 16 = 15) (prev : Tup F) :
    (caseC m c t h0 h1 prev).2.2.2.2.2.2.2 = k0_pay23 (k0_pay15 (iblk m c 2 t) (iblk m c 3 t)) prev.2.2.2.2.2.2.2 := by
  unfold caseC
  dsimp only
  exact soutC_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) prev.2.2.1 prev.2.2.2.1 prev.2.2.2.2.1 prev.2.2.2.2.2.1 prev.2.2.2.2.2.2.1 prev.2.2.2.2.2.2.2 (fun h => h0 ((hcond0_0 t).mp h)) ((hcond0_1 t).mpr h1)

/-- The last tile's two result buffers: the loss column and the count column of the six updated running columns. -/
theorem caseC_out6 (c : Dev nD) (t : Fin cfg0.N) (h0 : ¬t.val % 16 = 0) (h1 : t.val % 16 = 15) (prev : Tup F) :
    (caseC m c t h0 h1 prev).1 = k0_pay3 (caseC m c t h0 h1 prev).2.2.2.2.2.1 (caseC m c t h0 h1 prev).2.2.2.2.2.2.1 (caseC m c t h0 h1 prev).2.2.2.2.2.2.2 (caseC m c t h0 h1 prev).2.2.2.1 (caseC m c t h0 h1 prev).2.2.2.2.1 (caseC m c t h0 h1 prev).2.2.1 := by
  rw [caseC_s3 m c t h0 h1 prev, caseC_s4 m c t h0 h1 prev, caseC_s5 m c t h0 h1 prev, caseC_s1 m c t h0 h1 prev,
    caseC_s2 m c t h0 h1 prev, caseC_s0 m c t h0 h1 prev]
  unfold caseC
  dsimp only
  exact outC_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) prev.2.2.1 prev.2.2.2.1 prev.2.2.2.2.1 prev.2.2.2.2.2.1 prev.2.2.2.2.2.2.1 prev.2.2.2.2.2.2.2 (fun h => h0 ((hcond0_0 t).mp h)) ((hcond0_1 t).mpr h1)
theorem caseC_out7 (c : Dev nD) (t : Fin cfg0.N) (h0 : ¬t.val % 16 = 0) (h1 : t.val % 16 = 15) (prev : Tup F) :
    (caseC m c t h0 h1 prev).2.1 = k0_pay4 (caseC m c t h0 h1 prev).2.2.2.2.2.1 (caseC m c t h0 h1 prev).2.2.2.2.2.2.1 (caseC m c t h0 h1 prev).2.2.2.2.2.2.2 (caseC m c t h0 h1 prev).2.2.2.1 (caseC m c t h0 h1 prev).2.2.2.2.1 (caseC m c t h0 h1 prev).2.2.1 := by
  rw [caseC_s3 m c t h0 h1 prev, caseC_s4 m c t h0 h1 prev, caseC_s5 m c t h0 h1 prev, caseC_s1 m c t h0 h1 prev,
    caseC_s2 m c t h0 h1 prev, caseC_s0 m c t h0 h1 prev]
  unfold caseC
  dsimp only
  exact outC_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) prev.2.2.1 prev.2.2.2.1 prev.2.2.2.2.1 prev.2.2.2.2.2.1 prev.2.2.2.2.2.2.1 prev.2.2.2.2.2.2.2 (fun h => h0 ((hcond0_0 t).mp h)) ((hcond0_1 t).mpr h1)

end Cert.KernelIdeal.Hand

end
-- ==== Proof.Spec.lean ====
/-
  What both programs compute, stated once over plain index types.

  For 8192 rows of L2-normalised embeddings `X`, labels `lab` and groups `grp`:
  the cosine distance `dist r j = 1 - ⟨X r, X j⟩`; the hardest positive of row `r` is the
  maximum of `dist r j` over the columns `j ≠ r` carrying `r`'s label, every other column
  counted as the sentinel `-1e9`; the hardest negative is the minimum over columns of another
  label (sentinel `+1e9`), taken among the columns of `r`'s own group when there is one. The
  row's loss is `max (ap - an + margin) 0`, counted when the row has a positive, a negative and
  a strictly positive loss; the result is the mean of the counted losses.

  The kernel sweeps the columns in 16 tiles of 512 and keeps running maxima / minima that
  start at the sentinels; `runMax` / `runMin` / `runAny` name those recurrences, and the
  bridge is that after the sixteenth tile they are the whole-row quantities.
-/
import Idealize.ShloMosaic.PureOps.Ideal
import Idealize.ShloMosaic.Lib.ValueIdx

noncomputable section

namespace Cert.Spec

open Idealize.ShloMosaic

/-- The four float literals both programs carry, as their exact binary values. -/
abbrev one : EReal := Ideal.ofBits .f32 0x3F800000#32
abbrev negBig : EReal := Ideal.ofBits .f32 0xCE6E6B28#32
abbrev posBig : EReal := Ideal.ofBits .f32 0x4E6E6B28#32
abbrev margin : EReal := Ideal.ofBits .f32 0x3DCCCCCD#32

section Rows

variable (X : Fin 8192 → Fin 128 → EReal) (lab grp : Fin 8192 → BitVec 32)

/-- Cosine distance of rows `r` and `j`. -/
def dist (r j : Fin 8192) : EReal := one - ∑ k : Fin 128, X r k * X j k

/-- Column `j` is a positive of row `r`: same label, another row. -/
def pos (r j : Fin 8192) : Prop := lab r = lab j ∧ r ≠ j
/-- Column `j` is a negative of row `r`: another label. -/
def neg (r j : Fin 8192) : Prop := lab r ≠ lab j
/-- A negative of `r`'s own group. -/
def negSG (r j : Fin 8192) : Prop := lab r ≠ lab j ∧ grp r = grp j

open Classical in
/-- The masked distance rows the three reductions run over. -/
def apRow (r j : Fin 8192) : EReal := if pos lab r j then dist X r j else negBig
open Classical in
def anSGRow (r j : Fin 8192) : EReal := if negSG lab grp r j then dist X r j else posBig
open Classical in
def anAllRow (r j : Fin 8192) : EReal := if neg lab r j then dist X r j else posBig

/-- Hardest positive, hardest same-group negative, hardest negative: whole-row folds from ∓∞. -/
def ap (r : Fin 8192) : EReal := (Finset.univ : Finset (Fin 8192)).fold max ⊥ (apRow X lab r)
def anSG (r : Fin 8192) : EReal := (Finset.univ : Finset (Fin 8192)).fold min ⊤ (anSGRow X lab grp r)
def anAll (r : Fin 8192) : EReal := (Finset.univ : Finset (Fin 8192)).fold min ⊤ (anAllRow X lab r)

open Classical in
/-- The negative distance used: same-group when the row has a same-group negative. -/
def an (r : Fin 8192) : EReal := if ∃ j, negSG lab grp r j then anSG X lab grp r else anAll X lab r

/-- The row's hinge loss. -/
def loss (r : Fin 8192) : EReal := max (ap X lab r - an X lab grp r + margin) 0

/-- The row is counted. -/
def incl (r : Fin 8192) : Prop := (∃ j, pos lab r j) ∧ (∃ j, neg lab r j) ∧ 0 < loss X lab grp r

open Classical in
def contrib (r : Fin 8192) : EReal := if incl X lab grp r then loss X lab grp r else 0
open Classical in
def inclF (r : Fin 8192) : EReal := if incl X lab grp r then 1 else 0

/-- The sum of the counted losses, and how many rows are counted. -/
def total : EReal := ∑ r : Fin 8192, contrib X lab grp r
def count : EReal := ∑ r : Fin 8192, inclF X lab grp r

end Rows

/-- The rows of an 8192 × 128 array, and the words of a vector of 8192. -/
def rowsOf (x : (⟨2, ![8192, 128]⟩ : Shape).Idx → EReal) : Fin 8192 → Fin 128 → EReal := fun r k => x (ValueIdx.ix2 r k)
def wordsOf (l : (⟨1, ![8192]⟩ : Shape).Idx → BitVec 32) : Fin 8192 → BitVec 32 := fun r => l (ValueIdx.ix1 r)

/-- The rank-0 shape of the scalar result, and the shapes of the embeddings, of a vector of rows and of a column of rows. -/
abbrev S0 : Shape := ⟨0, ![]⟩
abbrev SE : Shape := ⟨2, ![8192, 128]⟩
abbrev SV : Shape := ⟨1, ![8192]⟩
abbrev SC : Shape := ⟨2, ![8192, 1]⟩

/-- The normalisation both programs apply to the embeddings before anything else: each row divided by the larger of
    its Euclidean norm and 1e-12. Stated over the library's host operations, the five shape facts they take as
    hypotheses (each program supplies its own witnesses of them). -/
def normalize (hr : SE.ReducesTo [1] SV) (h0 : 0 < S0.numel)
    (hb1 : SV.BroadcastsInDim SC (![0] : Fin 1 → Fin SC.rank)) (hb2 : S0.BroadcastsInDim SC (![] : Fin 0 → Fin SC.rank))
    (hb3 : SC.BroadcastsInDim SE (![0, 1] : Fin 2 → Fin SE.rank))
    (e : FVec Ideal SE .f32) : FVec Ideal SE .f32 :=
  Host.divf e (broadcastInDim SE ![0, 1] hb3
    (maximumf (Host.sqrt (broadcastInDim SC ![0] hb1 (Host.reduceAdd (mulf e e) (constant (F := Ideal) S0 .f32 0x00000000#32) hr h0)))
      (broadcastInDim SC ![] hb2 (constant (F := Ideal) S0 .f32 0x2B8CBCCC#32))))

/-- The scalar tail both programs share: the mean where any row is counted, else 0, then the guard that
    replaces a value unequal to itself by 0. -/
def tail (tot cnt : FVec Ideal S0 .f32) : FVec Ideal S0 .f32 :=
  let q : FVec Ideal S0 .f32 :=
    select (cmpf .ogt cnt (constant (F := Ideal) S0 .f32 0x00000000#32))
      (Host.divf tot (maximumf cnt (constant (F := Ideal) S0 .f32 0x3F800000#32)))
      (constant (F := Ideal) S0 .f32 0x00000000#32)
  select (cmpf .une q q) (constant (F := Ideal) S0 .f32 0x00000000#32) q

/-- The result: the tail of the two sums. -/
def final (X : Fin 8192 → Fin 128 → EReal) (lab grp : Fin 8192 → BitVec 32) : FVec Ideal S0 .f32 :=
  tail (fun _ => total X lab grp) (fun _ => count X lab grp)

/-! ## The kernel's sweep: 16 tiles of 512 columns -/

/-- Column `q` of tile `j`. -/
def col (j : Fin 16) (q : Fin 512) : Fin 8192 := ⟨512 * j.val + q.val, by have := j.isLt; have := q.isLt; omega⟩

/-- One tile's maximum / minimum of a row `f`, from ∓∞. -/
def tileMax (f : Fin 8192 → EReal) (j : Fin 16) : EReal := (Finset.univ : Finset (Fin 512)).fold max ⊥ fun q => f (col j q)
def tileMin (f : Fin 8192 → EReal) (j : Fin 16) : EReal := (Finset.univ : Finset (Fin 512)).fold min ⊤ fun q => f (col j q)

/-- The running maximum after the first `n` tiles, started at `init`. -/
def runMax (init : EReal) (f : Fin 8192 → EReal) : ℕ → EReal
  | 0 => init
  | n + 1 => max (runMax init f n) (if h : n < 16 then tileMax f ⟨n, h⟩ else ⊥)
def runMin (init : EReal) (f : Fin 8192 → EReal) : ℕ → EReal
  | 0 => init
  | n + 1 => min (runMin init f n) (if h : n < 16 then tileMin f ⟨n, h⟩ else ⊤)

open Classical in
/-- One tile's "any" flag as the kernel forms it: the tile maximum of the 0/1 indicator, tested `> 0`, as 0/1. -/
def tileAny (g : Fin 8192 → Prop) (j : Fin 16) : EReal :=
  if 0 < tileMax (fun c => if g c then (1 : EReal) else 0) j then 1 else 0
/-- The hinge loss as the kernel forms it from its running values: the hardest positive `a0`, the same-group and the
    overall hardest negatives `a1`, `a2`, and the same-group flag `a4`. -/
def lossOf (a0 a1 a2 a4 : EReal) : EReal := max (a0 - (if 0 < a4 then a1 else a2) + margin) 0

/-- The running flag after the first `n` tiles, started at 0. -/
def runAny (g : Fin 8192 → Prop) : ℕ → EReal
  | 0 => 0
  | n + 1 => max (runAny g n) (if h : n < 16 then tileAny g ⟨n, h⟩ else 0)

end Cert.Spec

end
-- ==== Proof.KI.Payload.lean ====
/-
  The body's arithmetic, read at an index over the extended reals.

  At a grid point of row block `a` and tile `b` the body sees the anchor rows `1024 a + p` (their
  normalised embeddings, labels, groups) and the candidate rows `512 b + q`. Its matrix product of the two
  blocks into a zero accumulator is the inner product of an anchor row and a candidate row, so the tile
  of distances is `dist` on those rows; the three masks are `pos`, `negSG`, `neg` on them (the diagonal
  is the equation `1024 a + p = 512 b + q`, compared on 32-bit words that cannot overflow). Each running
  column is updated by the tile's masked maximum / minimum, or by the tile's 0/1 flag; the final
  columns are the row's hinge loss where it counts and the 0/1 count.
-/
import proofs.«141537_j90099823936181_1_alg».proof.Proof.Gen.KernelIdeal.Skeleton
import proofs.«141537_j90099823936181_1_alg».proof.Proof.Spec
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx
open Cert.Spec (col tileMax tileMin tileAny apRow anSGRow anAllRow pos neg negSG negBig posBig margin)

variable [Cert.KernelIdeal.Facts]

/-- The anchor row `p` of the row block of grid point `i`, and the point's tile. -/
def rowOf (i : grid0.Coords) (p : Fin 1024) : Fin 8192 :=
  ⟨1024 * (i 0).val + p.val, by have h := (i 0).isLt; have := p.isLt; simp only [grid0, Matrix.cons_val_zero] at h; omega⟩
def tileOf (i : grid0.Coords) : Fin 16 := ⟨(i 1).val, by have h := (i 1).isLt; simpa [grid0] using h⟩

/-- The six input blocks at grid point `i` are the blocks of rows `X`, labels `lab`, groups `grp`. -/
structure TileInputs (X : Fin 8192 → Fin 128 → EReal) (lab grp : Fin 8192 → BitVec 32) (i : grid0.Coords)
    (x0 : Vec Ideal S1024x128 .bf16) (x1 : Vec Ideal S512x128 .bf16) (x2 : Vec Ideal S1024x1 .i32) (x3 : Vec Ideal S1x512 .i32)
    (x4 : Vec Ideal S1024x1 .i32) (x5 : Vec Ideal S1x512 .i32) : Prop where
  anchors : ∀ (p : Fin 1024) (k : Fin 128), x0 (ix2 p k) = X (rowOf i p) k
  candidates : ∀ (q : Fin 512) (k : Fin 128), x1 (ix2 q k) = X (col (tileOf i) q) k
  labRows : ∀ p : Fin 1024, x2 (ix2 p (0 : Fin 1)) = lab (rowOf i p)
  labCols : ∀ q : Fin 512, x3 (ix2 (0 : Fin 1) q) = lab (col (tileOf i) q)
  grpRows : ∀ p : Fin 1024, x4 (ix2 p (0 : Fin 1)) = grp (rowOf i p)
  grpCols : ∀ q : Fin 512, x5 (ix2 (0 : Fin 1) q) = grp (col (tileOf i) q)

/-! ### The matrix product at an index -/

theorem lhs_dot_0 (j : S1024x512.Idx) (k : dot_S1024x128_S128x512_S1024x512_1_0_0_1_n_n.contr.Idx) :
    (dot_S1024x128_S128x512_S1024x512_1_0_0_1_n_n.lhsIdx j k 0).val = (j 0).val := by
  unfold DotDims.lhsIdx
  rw [dif_neg (show ¬(0 : Fin S1024x128.rank) ∈ dot_S1024x128_S128x512_S1024x512_1_0_0_1_n_n.lhsBatch by decide), dif_pos (show (0 : Fin S1024x128.rank) ∈ dot_S1024x128_S128x512_S1024x512_1_0_0_1_n_n.lhsNonContracting by decide)]
  rfl
theorem lhs_dot_1 (j : S1024x512.Idx) (k : dot_S1024x128_S128x512_S1024x512_1_0_0_1_n_n.contr.Idx) :
    (dot_S1024x128_S128x512_S1024x512_1_0_0_1_n_n.lhsIdx j k 1).val = (k ⟨0, by decide⟩).val :=
  dot_S1024x128_S128x512_S1024x512_1_0_0_1_n_n.lhsIdx_val_of_single rfl j k
theorem rhs_dot_0 (j : S1024x512.Idx) (k : dot_S1024x128_S128x512_S1024x512_1_0_0_1_n_n.contr.Idx) :
    (dot_S1024x128_S128x512_S1024x512_1_0_0_1_n_n.rhsIdx j k 0).val = (k ⟨0, by decide⟩).val :=
  dot_S1024x128_S128x512_S1024x512_1_0_0_1_n_n.rhsIdx_val_of_single rfl j k
theorem rhs_dot_1 (j : S1024x512.Idx) (k : dot_S1024x128_S128x512_S1024x512_1_0_0_1_n_n.contr.Idx) :
    (dot_S1024x128_S128x512_S1024x512_1_0_0_1_n_n.rhsIdx j k 1).val = (j 1).val := by
  unfold DotDims.rhsIdx
  rw [dif_neg (show ¬(1 : Fin S128x512.rank) ∈ dot_S1024x128_S128x512_S1024x512_1_0_0_1_n_n.rhsBatch by decide), dif_pos (show (1 : Fin S128x512.rank) ∈ dot_S1024x128_S128x512_S1024x512_1_0_0_1_n_n.rhsNonContracting by decide)]
  rfl

/-- The product of a [1024,128] block and a [128,512] block into a zero accumulator, at `(p, q)`: the sum over the 128
    shared coordinates of the products. -/
theorem matmul_at (a : FVec Ideal S1024x128 .bf16) (b : FVec Ideal S128x512 .bf16) (p : Fin 1024) (q : Fin 512) :
    matmul dot_S1024x128_S128x512_S1024x512_1_0_0_1_n_n none a b (constant (F := Ideal) S1024x512 .f32 0x00000000#32) (ix2 p q)
      = ∑ k : Fin 128, a (ix2 p k) * b (ix2 k q) := by
  simp only [matmul]
  rw [Ideal.matmul_constant_zero_apply, ← Equiv.sum_comp (contrEquiv1 dot_S1024x128_S128x512_S1024x512_1_0_0_1_n_n 128 rfl rfl).symm]
  refine Finset.sum_congr rfl fun k _ => ?_
  have hk := contrEquiv1_symm_val dot_S1024x128_S128x512_S1024x512_1_0_0_1_n_n 128 rfl rfl k
  have el : dot_S1024x128_S128x512_S1024x512_1_0_0_1_n_n.lhsIdx (ix2 p q) ((contrEquiv1 dot_S1024x128_S128x512_S1024x512_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S1024x128_S128x512_S1024x512_1_0_0_1_n_n.rhsIdx (ix2 p q) ((contrEquiv1 dot_S1024x128_S128x512_S1024x512_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- The transpose of a [512,128] block at `(k, q)` is the block at `(q, k)`. -/
theorem transpose_at {α : Type} (v : S512x128.Idx → α) (k : Fin 128) (q : Fin 512) :
    transpose S128x512 [1, 0] v transposes_S512x128_p1_0_S128x512 (ix2 k q) = v (ix2 q k) :=
  transpose_apply [1, 0] v transposes_S512x128_p1_0_S128x512 (ix2 k q) (ix2 q k) (fun b => match b with
    | ⟨0, _⟩ => rfl
    | ⟨1, _⟩ => rfl)

/-! ### One-bit words -/

theorem cmpi_eq_iff {w : Nat} (a b : BitVec w) : IntOp.cmpi .eq a b = 1#1 ↔ a = b := by
  show BitVec.ofBool (a == b) = 1#1 ↔ a = b
  by_cases h : a = b
  · simp [h]
  · have hb : (a == b) = false := beq_eq_false_iff_ne.mpr h
    rw [hb]
    exact ⟨fun h' => absurd h' (by decide), fun h' => absurd h' h⟩
theorem xori_one_iff (c : BitVec 1) : IntOp.xori c 1#1 = 1#1 ↔ ¬ c = 1#1 := by
  rcases BitVec.eq_zero_or_eq_one c with rfl | rfl <;> decide
theorem andi_iff (a b : BitVec 1) : IntOp.andi a b = 1#1 ↔ a = 1#1 ∧ b = 1#1 := by
  rcases BitVec.eq_zero_or_eq_one a with rfl | rfl <;> rcases BitVec.eq_zero_or_eq_one b with rfl | rfl <;> decide

/-! ### The two broadcasts and the two coordinate vectors at an index -/

theorem bcastCol_at {α : Type} (v : S1024x1.Idx → α) (p : Fin 1024) (q : Fin 512) :
    broadcastTo S1024x512 v broadcasts_S1024x1_S1024x512 (ix2 p q) = v (ix2 p (0 : Fin 1)) :=
  broadcastTo_apply v broadcasts_S1024x1_S1024x512 (ix2 p q) (ix2 p (0 : Fin 1)) (fun a => match a with
    | ⟨0, _⟩ => rfl
    | ⟨1, _⟩ => rfl)
theorem bcastRow_at {α : Type} (v : S1x512.Idx → α) (p : Fin 1024) (q : Fin 512) :
    broadcastTo S1024x512 v broadcasts_S1x512_S1024x512 (ix2 p q) = v (ix2 (0 : Fin 1) q) :=
  broadcastTo_apply v broadcasts_S1x512_S1024x512 (ix2 p q) (ix2 (0 : Fin 1) q) (fun a => match a with
    | ⟨0, _⟩ => rfl
    | ⟨1, _⟩ => rfl)
theorem iota0_at (p : Fin 1024) (q : Fin 512) :
    iota .tc S1024x512 32 [0] iota_S1024x512_d0_w32 (ix2 p q) = BitVec.ofNat 32 p.val :=
  iota_single_apply .tc S1024x512 32 0 iota_S1024x512_d0_w32 (ix2 p q)
theorem iota1_at (p : Fin 1024) (q : Fin 512) :
    iota .tc S1024x512 32 [1] iota_S1024x512_d1_w32 (ix2 p q) = BitVec.ofNat 32 q.val :=
  iota_single_apply .tc S1024x512 32 1 iota_S1024x512_d1_w32 (ix2 p q)

/-- The diagonal test on 32-bit words is the equation of the two row numbers: neither side can overflow. -/
theorem diag_iff (a b p q : Nat) (ha : a < 8) (hb : b < 16) (hp : p < 1024) (hq : q < 512) :
    BitVec.ofNat 32 a * 1024#32 + BitVec.ofNat 32 p = BitVec.ofNat 32 b * 512#32 + BitVec.ofNat 32 q
      ↔ 1024 * a + p = 512 * b + q := by
  rw [← BitVec.toNat_inj]
  simp only [BitVec.toNat_add, BitVec.toNat_mul, BitVec.toNat_ofNat]
  omega

/-- The equality mask of a column of words against a row of words, at `(p, q)`. -/
theorem eqMask_at (a : IVec S1024x1 32) (b : IVec S1x512 32) (p : Fin 1024) (q : Fin 512) :
    cmpi .eq (broadcastTo S1024x512 (shapeCast S1024x1 a shapeCasts_S1024x1_S1024x1) broadcasts_S1024x1_S1024x512)
        (broadcastTo S1024x512 (shapeCast S1x512 b shapeCasts_S1x512_S1x512) broadcasts_S1x512_S1024x512) (ix2 p q) = 1#1
      ↔ a (ix2 p (0 : Fin 1)) = b (ix2 (0 : Fin 1) q) := by
  show IntOp.cmpi .eq _ _ = 1#1 ↔ _
  rw [cmpi_eq_iff, bcastCol_at, bcastRow_at, shapeCast_self, shapeCast_self]

/-! ### The float constants, and a row reduction at an index -/

theorem ofBits_negInf : Ideal.ofBits .f32 0xFF800000#32 = ⊥ := by simp [Ideal.ofBits, Ideal.ieee]
theorem ofBits_posInf : Ideal.ofBits .f32 0x7F800000#32 = ⊤ := by simp [Ideal.ofBits, Ideal.ieee]

/-- A splat of a word, reshaped to its own shape, reads the word's value everywhere. -/
theorem splatCol_at (b : BitVec 32) (y : S1024x1.Idx) :
    shapeCast S1024x1 (broadcast S1024x1 (Scalar.ofBits (F := Ideal) .f32 b)) shapeCasts_S1024x1_S1024x1 y = Ideal.ofBits .f32 b := by
  rw [shapeCast_self]; rfl

/-- A vector of 1024 viewed as a column reads, at `(p, 0)`, the vector at `p`. -/
theorem colCast_at {α : Type} (v : S1024.Idx → α) (p : Fin 1024) :
    shapeCast S1024x1 v shapeCasts_S1024_S1024x1 (ix2 p (0 : Fin 1)) = v (ix1 p) :=
  shapeCast_apply v shapeCasts_S1024_S1024x1 (ix2 p (0 : Fin 1)) (ix1 p) (by
    rw [Shape.rowMajor_val_one, Shape.rowMajor_val_two]
    show p.val = p.val * 1 + 0
    omega)

/-- The index of row `p` with column `q` inserted. -/
theorem lift_at (p : Fin 1024) (q : Fin 512) : reduces_S1024x512_S1024.lift (ix1 p) q = ix2 p q :=
  funext fun c => Fin.ext (by
    match c with
    | ⟨0, _⟩ => rfl
    | ⟨1, _⟩ => rfl)

/-- A minimum over one axis: the fold of `min` from the accumulator's value over that axis's coordinates. -/
theorem multiReduction_minimumf_single {s t : Shape} {φ : FTy} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The maximum of row `p` of a [1024,512] tile, from `-∞`. -/
theorem rowMax_at (v : FVec Ideal S1024x512 .f32) (hφ : FKind.Formats .f32)
    (hacc : (0xFF800000#32 : BitVec (FTy.bits .f32)) = FKind.maximumf.neutral .f32 hφ) (p : Fin 1024) :
    multiReduction .maximumf [1] S1024 v 0xFF800000#32 reduces_S1024x512_S1024 hφ hacc (ix1 p)
      = (Finset.univ : Finset (Fin 512)).fold max ⊥ (fun q => v (ix2 p q)) := by
  refine (Ideal.multiReduction_maximumf_single v _ reduces_S1024x512_S1024 hφ hacc (ix1 p)).trans ?_
  show (Finset.univ : Finset (Fin 512)).fold max (Ideal.ofBits .f32 0xFF800000#32) (fun q => v (reduces_S1024x512_S1024.lift (ix1 p) q)) = _
  rw [ofBits_negInf]
  exact congrArg (fun f => (Finset.univ : Finset (Fin 512)).fold max ⊥ f) (funext fun q => congrArg v (lift_at p q))

/-- The minimum of row `p` of a [1024,512] tile, from `+∞`. -/
theorem rowMin_at (v : FVec Ideal S1024x512 .f32) (hφ : FKind.Formats .f32)
    (hacc : (0x7F800000#32 : BitVec (FTy.bits .f32)) = FKind.minimumf.neutral .f32 hφ) (p : Fin 1024) :
    multiReduction .minimumf [1] S1024 v 0x7F800000#32 reduces_S1024x512_S1024 hφ hacc (ix1 p)
      = (Finset.univ : Finset (Fin 512)).fold min ⊤ (fun q => v (ix2 p q)) := by
  refine (multiReduction_minimumf_single v _ reduces_S1024x512_S1024 hφ hacc (ix1 p)).trans ?_
  show (Finset.univ : Finset (Fin 512)).fold min (Ideal.ofBits .f32 0x7F800000#32) (fun q => v (reduces_S1024x512_S1024.lift (ix1 p) q)) = _
  rw [ofBits_posInf]
  exact congrArg (fun f => (Finset.univ : Finset (Fin 512)).fold min ⊤ f) (funext fun q => congrArg v (lift_at p q))

/-- A running column updated by a tile's row maxima, at row `p`. -/
theorem maxStep_at (v : FVec Ideal S1024x512 .f32) (s : FVec Ideal S1024x1 .f32) (hφ : FKind.Formats .f32)
    (hacc : (0xFF800000#32 : BitVec (FTy.bits .f32)) = FKind.maximumf.neutral .f32 hφ) (p : Fin 1024) :
    shapeCast S1024x1 (maximumf s (shapeCast S1024x1
        (multiReduction .maximumf [1] S1024 v 0xFF800000#32 reduces_S1024x512_S1024 hφ hacc) shapeCasts_S1024_S1024x1))
        shapeCasts_S1024x1_S1024x1 (ix2 p (0 : Fin 1))
      = max (s (ix2 p (0 : Fin 1))) ((Finset.univ : Finset (Fin 512)).fold max ⊥ (fun q => v (ix2 p q))) := by
  rw [shapeCast_self, maximumf_apply, colCast_at, rowMax_at]

/-- A running column updated by a tile's row minima, at row `p`. -/
theorem minStep_at (v : FVec Ideal S1024x512 .f32) (s : FVec Ideal S1024x1 .f32) (hφ : FKind.Formats .f32)
    (hacc : (0x7F800000#32 : BitVec (FTy.bits .f32)) = FKind.minimumf.neutral .f32 hφ) (p : Fin 1024) :
    shapeCast S1024x1 (minimumf s (shapeCast S1024x1
        (multiReduction .minimumf [1] S1024 v 0x7F800000#32 reduces_S1024x512_S1024 hφ hacc) shapeCasts_S1024_S1024x1))
        shapeCasts_S1024x1_S1024x1 (ix2 p (0 : Fin 1))
      = min (s (ix2 p (0 : Fin 1))) ((Finset.univ : Finset (Fin 512)).fold min ⊤ (fun q => v (ix2 p q))) := by
  rw [shapeCast_self, minimumf_apply, colCast_at, rowMin_at]

/-- A select between a tile's value and a splat word, on a mask whose bit is a proposition `P`. -/
theorem maskSelect_eq {P : Prop} {inst : Decidable P} {c : BitVec 1} (hc : c = 1#1 ↔ P) (a b : EReal) :
    Scalar.select c a b = @ite EReal P inst a b := by
  by_cases hP : P
  · rw [if_pos hP, hc.mpr hP, select_one]
  · rw [if_neg hP, eq_zero_of_ne_one (fun e => hP (hc.mp e)), select_zero]

section

variable {X : Fin 8192 → Fin 128 → EReal} {lab grp : Fin 8192 → BitVec 32} {i : grid0.Coords}
  {x0 : Vec Ideal S1024x128 .bf16} {x1 : Vec Ideal S512x128 .bf16} {x2 : Vec Ideal S1024x1 .i32} {x3 : Vec Ideal S1x512 .i32}
  {x4 : Vec Ideal S1024x1 .i32} {x5 : Vec Ideal S1x512 .i32}

/-- The label-equality and group-equality masks at anchor row `p` and candidate column `q`. -/
theorem pay12_apply (h : TileInputs X lab grp i x0 x1 x2 x3 x4 x5) (p : Fin 1024) (q : Fin 512) :
    k0_pay12 (F := Ideal) x2 x3 (ix2 p q) = 1#1 ↔ lab (rowOf i p) = lab (col (tileOf i) q) := by
  unfold k0_pay12
  refine (eqMask_at x2 x3 p q).trans ?_
  rw [h.labRows, h.labCols]
theorem pay13_apply (h : TileInputs X lab grp i x0 x1 x2 x3 x4 x5) (p : Fin 1024) (q : Fin 512) :
    k0_pay13 (F := Ideal) x4 x5 (ix2 p q) = 1#1 ↔ grp (rowOf i p) = grp (col (tileOf i) q) := by
  unfold k0_pay13
  refine (eqMask_at x4 x5 p q).trans ?_
  rw [h.grpRows, h.grpCols]

/-- An anchor row and a candidate column are the same row exactly when their row numbers agree. -/
theorem rowOf_eq_col_iff (i : grid0.Coords) (p : Fin 1024) (q : Fin 512) :
    rowOf i p = col (tileOf i) q ↔ 1024 * (i 0).val + p.val = 512 * (i 1).val + q.val := by
  rw [Fin.ext_iff]; rfl

/-- The tile of distances, and the three masks, at anchor row `p` and candidate column `q`. -/
theorem pay11_apply (h : TileInputs X lab grp i x0 x1 x2 x3 x4 x5) (p : Fin 1024) (q : Fin 512) :
    k0_pay11 (F := Ideal) x0 x1 (ix2 p q) = Cert.Spec.dist X (rowOf i p) (col (tileOf i) q) := by
  unfold k0_pay11
  show Cert.Spec.one - matmul dot_S1024x128_S128x512_S1024x512_1_0_0_1_n_n none (shapeCast S1024x128 x0 shapeCasts_S1024x128_S1024x128)
      (transpose S128x512 [1, 0] (shapeCast S512x128 x1 shapeCasts_S512x128_S512x128) transposes_S512x128_p1_0_S128x512)
      (constant (F := Ideal) S1024x512 .f32 0x00000000#32) (ix2 p q) = _
  rw [shapeCast_self, shapeCast_self, matmul_at]
  unfold Cert.Spec.dist
  refine congrArg (Cert.Spec.one - ·) (Finset.sum_congr rfl fun k _ => ?_)
  rw [transpose_at, h.anchors, h.candidates]
theorem pay14_apply (h : TileInputs X lab grp i x0 x1 x2 x3 x4 x5) (p : Fin 1024) (q : Fin 512) :
    k0_pay14 (F := Ideal) i x2 x3 (ix2 p q) = 1#1 ↔ pos lab (rowOf i p) (col (tileOf i) q) := by
  unfold k0_pay14
  show IntOp.andi (k0_pay12 (F := Ideal) x2 x3 (ix2 p q))
      (IntOp.xori (IntOp.cmpi .eq
        (BitVec.ofNat 32 (i 0).val * 1024#32 + iota .tc S1024x512 32 [0] iota_S1024x512_d0_w32 (ix2 p q))
        (BitVec.ofNat 32 (i 1).val * 512#32 + iota .tc S1024x512 32 [1] iota_S1024x512_d1_w32 (ix2 p q))) 1#1) = 1#1 ↔ _
  have h0 : (i 0).val < 8 := (i 0).isLt
  have h1 : (i 1).val < 16 := (i 1).isLt
  rw [andi_iff, xori_one_iff, cmpi_eq_iff, pay12_apply h, iota0_at, iota1_at, diag_iff _ _ _ _ h0 h1 p.isLt q.isLt,
    ← rowOf_eq_col_iff]
  rfl
theorem pay15_apply (h : TileInputs X lab grp i x0 x1 x2 x3 x4 x5) (p : Fin 1024) (q : Fin 512) :
    k0_pay15 (F := Ideal) x2 x3 (ix2 p q) = 1#1 ↔ neg lab (rowOf i p) (col (tileOf i) q) := by
  unfold k0_pay15
  show IntOp.xori (k0_pay12 (F := Ideal) x2 x3 (ix2 p q)) 1#1 = 1#1 ↔ _
  rw [xori_one_iff, pay12_apply h]
  rfl
theorem pay16_apply (h : TileInputs X lab grp i x0 x1 x2 x3 x4 x5) (p : Fin 1024) (q : Fin 512) :
    k0_pay16 (k0_pay13 (F := Ideal) x4 x5) (k0_pay15 (F := Ideal) x2 x3) (ix2 p q) = 1#1 ↔ negSG lab grp (rowOf i p) (col (tileOf i) q) := by
  unfold k0_pay16
  show IntOp.andi (k0_pay15 (F := Ideal) x2 x3 (ix2 p q)) (k0_pay13 (F := Ideal) x4 x5 (ix2 p q)) = 1#1 ↔ _
  rw [andi_iff, pay15_apply h, pay13_apply h]
  rfl

/-- The starting values of the six running columns. -/
theorem pay5_apply (y : S1024x1.Idx) : k0_pay5 (F := Ideal) y = negBig := by
  unfold k0_pay5; exact splatCol_at _ y
theorem pay6_apply (y : S1024x1.Idx) : k0_pay6 (F := Ideal) y = posBig := by
  unfold k0_pay6; exact splatCol_at _ y
theorem pay7_apply (y : S1024x1.Idx) : k0_pay7 (F := Ideal) y = posBig := by
  unfold k0_pay7; exact splatCol_at _ y
theorem pay8_apply (y : S1024x1.Idx) : k0_pay8 (F := Ideal) y = 0 := by
  unfold k0_pay8; exact (splatCol_at _ y).trans Ideal.ofBits_zero_f32
theorem pay9_apply (y : S1024x1.Idx) : k0_pay9 (F := Ideal) y = 0 := by
  unfold k0_pay9; exact (splatCol_at _ y).trans Ideal.ofBits_zero_f32
theorem pay10_apply (y : S1024x1.Idx) : k0_pay10 (F := Ideal) y = 0 := by
  unfold k0_pay10; exact (splatCol_at _ y).trans Ideal.ofBits_zero_f32

/-- The three running extrema after this tile. -/
theorem pay17_apply (h : TileInputs X lab grp i x0 x1 x2 x3 x4 x5) (s0 : Vec Ideal S1024x1 .f32) (p : Fin 1024) :
    k0_pay17 (F := Ideal) (k0_pay11 x0 x1) (k0_pay14 i x2 x3) s0 (ix2 p (0 : Fin 1))
      = max (s0 (ix2 p (0 : Fin 1))) (tileMax (apRow X lab (rowOf i p)) (tileOf i)) := by
  unfold k0_pay17
  refine (maxStep_at _ s0 _ _ p).trans ?_
  unfold tileMax
  refine congrArg (max _) (congrArg (fun f => (Finset.univ : Finset (Fin 512)).fold max ⊥ f) (funext fun q => ?_))
  show Scalar.select (k0_pay14 (F := Ideal) i x2 x3 (ix2 p q)) (k0_pay11 (F := Ideal) x0 x1 (ix2 p q)) negBig = _
  unfold apRow
  rw [pay11_apply h]
  exact maskSelect_eq (pay14_apply h p q) _ _
theorem pay18_apply (h : TileInputs X lab grp i x0 x1 x2 x3 x4 x5) (s1 : Vec Ideal S1024x1 .f32) (p : Fin 1024) :
    k0_pay18 (F := Ideal) (k0_pay11 x0 x1) (k0_pay13 x4 x5) (k0_pay15 x2 x3) s1 (ix2 p (0 : Fin 1))
      = min (s1 (ix2 p (0 : Fin 1))) (tileMin (anSGRow X lab grp (rowOf i p)) (tileOf i)) := by
  unfold k0_pay18
  refine (minStep_at _ s1 _ _ p).trans ?_
  unfold tileMin
  refine congrArg (min _) (congrArg (fun f => (Finset.univ : Finset (Fin 512)).fold min ⊤ f) (funext fun q => ?_))
  show Scalar.select (k0_pay16 (k0_pay13 (F := Ideal) x4 x5) (k0_pay15 (F := Ideal) x2 x3) (ix2 p q)) (k0_pay11 (F := Ideal) x0 x1 (ix2 p q)) posBig = _
  unfold anSGRow
  rw [pay11_apply h]
  exact maskSelect_eq (pay16_apply h p q) _ _
theorem pay19_apply (h : TileInputs X lab grp i x0 x1 x2 x3 x4 x5) (s2 : Vec Ideal S1024x1 .f32) (p : Fin 1024) :
    k0_pay19 (F := Ideal) (k0_pay11 x0 x1) (k0_pay15 x2 x3) s2 (ix2 p (0 : Fin 1))
      = min (s2 (ix2 p (0 : Fin 1))) (tileMin (anAllRow X lab (rowOf i p)) (tileOf i)) := by
  unfold k0_pay19
  refine (minStep_at _ s2 _ _ p).trans ?_
  unfold tileMin
  refine congrArg (min _) (congrArg (fun f => (Finset.univ : Finset (Fin 512)).fold min ⊤ f) (funext fun q => ?_))
  show Scalar.select (k0_pay15 (F := Ideal) x2 x3 (ix2 p q)) (k0_pay11 (F := Ideal) x0 x1 (ix2 p q)) posBig = _
  unfold anAllRow
  rw [pay11_apply h]
  exact maskSelect_eq (pay15_apply h p q) _ _

end

end Cert.KernelIdeal.Hand

end
-- ==== Proof.KI.Blocks.lean ====
/-
  The six input blocks at every grid point, as blocks of the program's arguments.

  The region finds in `main_v5` the normalised embeddings (the host's normalisation of the first argument,
  then a change of float format, the identity over the extended reals), in `main_v6` / `main_v7` the labels
  as a column and as a row (two reshapes of the second argument), in `main_v8` / `main_v9` the groups
  likewise. At grid point `t`, of row block `a` and tile `b`, window 0's block is rows `1024 a ..` of the
  embeddings, window 1's rows `512 b ..`, windows 2 and 4 the label / group column's rows `1024 a ..`,
  windows 3 and 5 the label / group row's columns `512 b ..`: a block's coordinate is always the block
  index times the block's extent plus the coordinate inside the block.
-/
import proofs.«141537_j90099823936181_1_alg».proof.Proof.KI.Runs
import proofs.«141537_j90099823936181_1_alg».proof.Proof.KI.Payload

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

/-! ## The windows' block indices, decided over the 128 grid points -/

/-- Windows 0, 2 and 4 move with the row block, windows 1, 3 and 5 with the tile; the other block index is 0. -/
theorem blockIndex : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = t.val % 16
    ∧ win0_4.index t (0 : Fin 2) = t.val / 16 ∧ win0_4.index t (1 : Fin 2) = 0
    ∧ win0_5.index t (0 : Fin 2) = 0 ∧ win0_5.index t (1 : Fin 2) = t.val % 16 :=
  (by decide +kernel : ∀ t : Fin grid0.N, _)

variable [Cert.KernelIdeal.Facts]

variable (m : (ℓ : Loc nD τ sig) → Buf (Elt Ideal) ℓ)

/-- The kernel's normalised embeddings are the specification's normalisation of the first argument. -/
def normalized (e : FVec Ideal S8192x128 .f32) : FVec Ideal S8192x128 .f32 :=
  Cert.Spec.normalize reducesTo_S8192x128_S8192_d1 h_S_ bcast_S8192_S8192x1_0 bcast_S_S8192x1 bcast_S8192x1_S8192x128_0_1 e

/-- The rows, labels and groups the region works on, on core `c`. -/
def Xk (c : Dev nD) : Fin 8192 → Fin 128 → EReal := Cert.Spec.rowsOf (normalized (m ((c.tc : Thread nD τ).loc main_arg0)))
def labK (c : Dev nD) : Fin 8192 → BitVec 32 := Cert.Spec.wordsOf (m ((c.tc : Thread nD τ).loc main_arg1))
def grpK (c : Dev nD) : Fin 8192 → BitVec 32 := Cert.Spec.wordsOf (m ((c.tc : Thread nD τ).loc main_arg2))

/-! ## The five arrays as terms of the arguments -/

/-- The embeddings array is the normalisation of the first argument, in the narrower float format. -/
theorem embeddings_eq (c : Dev nD) :
    (V m c main_v5 : FVec Ideal S8192x128 .bf16)
      = truncf .bf16 (normalized (m ((c.tc : Thread nD τ).loc main_arg0))) bitsLt_bf16_f32 := by
  dsimp only [V, V0, headOps]
  simp only [hostOps0, hostOps0_1, List.flatten_cons, List.flatten_nil, List.append_nil, List.cons_append, List.nil_append]
  after_results
  rfl

/-- The label column and row, and the group column and row, are the second and third arguments reshaped. -/
theorem labCol_eq (c : Dev nD) :
    (V m c main_v6 : IVec S8192x1 32) = shapeCast S8192x1 (m ((c.tc : Thread nD τ).loc main_arg1)) shapeCasts_S8192_S8192x1 := by
  dsimp only [V, V0, headOps]
  simp only [hostOps0, hostOps0_1, List.flatten_cons, List.flatten_nil, List.append_nil, List.cons_append, List.nil_append]
  after_results
  rfl
theorem labRow_eq (c : Dev nD) :
    (V m c main_v7 : IVec S1x8192 32) = shapeCast S1x8192 (m ((c.tc : Thread nD τ).loc main_arg1)) shapeCasts_S8192_S1x8192 := by
  dsimp only [V, V0, headOps]
  simp only [hostOps0, hostOps0_1, List.flatten_cons, List.flatten_nil, List.append_nil, List.cons_append, List.nil_append]
  after_results
  rfl
theorem grpCol_eq (c : Dev nD) :
    (V m c main_v8 : IVec S8192x1 32) = shapeCast S8192x1 (m ((c.tc : Thread nD τ).loc main_arg2)) shapeCasts_S8192_S8192x1 := by
  dsimp only [V, V0, headOps]
  simp only [hostOps0, hostOps0_1, List.flatten_cons, List.flatten_nil, List.append_nil, List.cons_append, List.nil_append]
  after_results
  rfl
theorem grpRow_eq (c : Dev nD) :
    (V m c main_v9 : IVec S1x8192 32) = shapeCast S1x8192 (m ((c.tc : Thread nD τ).loc main_arg2)) shapeCasts_S8192_S1x8192 := by
  dsimp only [V, V0, headOps]
  simp only [hostOps0, hostOps0_1, List.flatten_cons, List.flatten_nil, List.append_nil, List.cons_append, List.nil_append]
  after_results
  rfl

/-- A vector of 8192 words reshaped to a column reads, at row `r`, the vector's word `r`: both sit at row-major
    position `r`. -/
theorem col_read (x : IVec S8192 32) (h : S8192.ShapeCasts S8192x1) (r : Fin 8192) :
    shapeCast S8192x1 x h (ix2 r (0 : Fin 1)) = x (ix1 r) :=
  shapeCast_apply x h (ix2 r (0 : Fin 1)) (ix1 r) (by
    rw [Shape.rowMajor_val_one, Shape.rowMajor_val_two]
    show r.val = r.val * 1 + 0
    omega)
/-- Reshaped to a row it reads, at column `r`, the vector's word `r`. -/
theorem row_read (x : IVec S8192 32) (h : S8192.ShapeCasts S1x8192) (r : Fin 8192) :
    shapeCast S1x8192 x h (ix2 (0 : Fin 1) r) = x (ix1 r) :=
  shapeCast_apply x h (ix2 (0 : Fin 1) r) (ix1 r) (by
    rw [Shape.rowMajor_val_one, Shape.rowMajor_val_two]
    show r.val = 0 * 8192 + r.val
    omega)

/-- What the region finds in the five arrays its input windows read. -/
theorem V_embeddings (c : Dev nD) (r : Fin 8192) (k : Fin 128) :
    (V m c main_v5 : FVec Ideal S8192x128 .bf16) (ix2 r k) = Xk m c r k := by
  rw [embeddings_eq]
  rfl
theorem V_labCol (c : Dev nD) (r : Fin 8192) : (V m c main_v6 : IVec S8192x1 32) (ix2 r (0 : Fin 1)) = labK m c r := by
  rw [labCol_eq, col_read]
  rfl
theorem V_labRow (c : Dev nD) (r : Fin 8192) : (V m c main_v7 : IVec S1x8192 32) (ix2 (0 : Fin 1) r) = labK m c r := by
  rw [labRow_eq, row_read]
  rfl
theorem V_grpCol (c : Dev nD) (r : Fin 8192) : (V m c main_v8 : IVec S8192x1 32) (ix2 r (0 : Fin 1)) = grpK m c r := by
  rw [grpCol_eq, col_read]
  rfl
theorem V_grpRow (c : Dev nD) (r : Fin 8192) : (V m c main_v9 : IVec S1x8192 32) (ix2 (0 : Fin 1) r) = grpK m c r := by
  rw [grpRow_eq, row_read]
  rfl

/-! ## The grid's coordinates, decided over the 128 points -/

/-- Point `t` is at row block `t / 16` and tile `t % 16`. -/
theorem coords_rowBlock : ∀ t : Fin cfg0.N, ((grid0.coords t) 0).val = t.val / 16 :=
  (by decide +kernel : ∀ t : Fin grid0.N, ((grid0.coords t) 0).val = t.val / 16)
theorem coords_tile : ∀ t : Fin cfg0.N, ((grid0.coords t) 1).val = t.val % 16 :=
  (by decide +kernel : ∀ t : Fin grid0.N, ((grid0.coords t) 1).val = t.val % 16)

/-- A point's row block and tile, from its position. -/
theorem rowOf_coords (t : Fin cfg0.N) (p : Fin 1024) : (rowOf (grid0.coords t) p).val = 1024 * (t.val / 16) + p.val := by
  show 1024 * ((grid0.coords t) 0).val + p.val = _
  rw [coords_rowBlock]
theorem tileOf_coords (t : Fin cfg0.N) : (tileOf (grid0.coords t)).val = t.val % 16 := by
  show ((grid0.coords t) 1).val = _
  exact coords_tile t
/-- Column `q` of the point's tile. -/
theorem col_coords (t : Fin cfg0.N) (q : Fin 512) : (Cert.Spec.col (tileOf (grid0.coords t)) q).val = 512 * (t.val % 16) + q.val := by
  show 512 * (tileOf (grid0.coords t)).val + q.val = _
  rw [tileOf_coords]

/-- THE BLOCKS: at every grid point the six input blocks are the point's blocks of rows, labels and groups. -/
theorem tileInputs (c : Dev nD) (t : Fin cfg0.N) :
    TileInputs (Xk m c) (labK m c) (grpK m c) (grid0.coords t)
      (iblk m c 0 t) (iblk m c 1 t) (iblk m c 2 t) (iblk m c 3 t) (iblk m c 4 t) (iblk m c 5 t) := by
  obtain ⟨e00, e01, e10, e11, e20, e21, e30, e31, e40, e41, e50, e51⟩ := blockIndex t
  refine ⟨fun p k => ?_, fun q k => ?_, fun p => ?_, fun q => ?_, fun p => ?_, fun q => ?_⟩
  · -- rows `1024 (t / 16) + p` of the embeddings
    show V m c main_v5 (((cfg0.win 0).blk t).view.emb (ix2 p k)) = Xk m c (rowOf (grid0.coords t) p) k
    rw [← V_embeddings]
    refine congrArg (V m c main_v5) (funext fun a => Fin.ext ?_)
    match a with
    | ⟨0, _⟩ => show win0_0.index t (0 : Fin 2) * 1024 + 1 * p.val = (rowOf (grid0.coords t) p).val; rw [rowOf_coords, e00]; omega
    | ⟨1, _⟩ => show win0_0.index t (1 : Fin 2) * 128 + 1 * k.val = k.val; rw [e01]; omega
  · -- rows `512 (t % 16) + q` of the embeddings
    show V m c main_v5 (((cfg0.win 1).blk t).view.emb (ix2 q k)) = Xk m c (Cert.Spec.col (tileOf (grid0.coords t)) q) k
    rw [← V_embeddings]
    refine congrArg (V m c main_v5) (funext fun a => Fin.ext ?_)
    match a with
    | ⟨0, _⟩ => show win0_1.index t (0 : Fin 2) * 512 + 1 * q.val = (Cert.Spec.col (tileOf (grid0.coords t)) q).val; rw [col_coords, e10]; omega
    | ⟨1, _⟩ => show win0_1.index t (1 : Fin 2) * 128 + 1 * k.val = k.val; rw [e11]; omega
  · show V m c main_v6 (((cfg0.win 2).blk t).view.emb (ix2 p (0 : Fin 1))) = labK m c (rowOf (grid0.coords t) p)
    rw [← V_labCol]
    refine congrArg (V m c main_v6) (funext fun a => Fin.ext ?_)
    match a with
    | ⟨0, _⟩ => show win0_2.index t (0 : Fin 2) * 1024 + 1 * p.val = (rowOf (grid0.coords t) p).val; rw [rowOf_coords, e20]; omega
    | ⟨1, _⟩ => show win0_2.index t (1 : Fin 2) * 1 + 1 * 0 = 0; rw [e21]
  · show V m c main_v7 (((cfg0.win 3).blk t).view.emb (ix2 (0 : Fin 1) q)) = labK m c (Cert.Spec.col (tileOf (grid0.coords t)) q)
    rw [← V_labRow]
    refine congrArg (V m c main_v7) (funext fun a => Fin.ext ?_)
    match a with
    | ⟨0, _⟩ => show win0_3.index t (0 : Fin 2) * 1 + 1 * 0 = 0; rw [e30]
    | ⟨1, _⟩ => show win0_3.index t (1 : Fin 2) * 512 + 1 * q.val = (Cert.Spec.col (tileOf (grid0.coords t)) q).val; rw [col_coords, e31]; omega
  · show V m c main_v8 (((cfg0.win 4).blk t).view.emb (ix2 p (0 : Fin 1))) = grpK m c (rowOf (grid0.coords t) p)
    rw [← V_grpCol]
    refine congrArg (V m c main_v8) (funext fun a => Fin.ext ?_)
    match a with
    | ⟨0, _⟩ => show win0_4.index t (0 : Fin 2) * 1024 + 1 * p.val = (rowOf (grid0.coords t) p).val; rw [rowOf_coords, e40]; omega
    | ⟨1, _⟩ => show win0_4.index t (1 : Fin 2) * 1 + 1 * 0 = 0; rw [e41]
  · show V m c main_v9 (((cfg0.win 5).blk t).view.emb (ix2 (0 : Fin 1) q)) = grpK m c (Cert.Spec.col (tileOf (grid0.coords t)) q)
    rw [← V_grpRow]
    refine congrArg (V m c main_v9) (funext fun a => Fin.ext ?_)
    match a with
    | ⟨0, _⟩ => show win0_5.index t (0 : Fin 2) * 1 + 1 * 0 = 0; rw [e50]
    | ⟨1, _⟩ => show win0_5.index t (1 : Fin 2) * 512 + 1 * q.val = (Cert.Spec.col (tileOf (grid0.coords t)) q).val; rw [col_coords, e51]; omega

end Cert.KernelIdeal.Hand

end
-- ==== Proof.KI.Payload2.lean ====
/-
  The body's flags and its two result columns, read at an index over the extended reals.

  A running flag is updated by the tile's flag: the tile maximum (from -∞) of the mask as 0/1, tested
  `> 0` and turned back into 0/1. The result columns are the hinge loss `max (ap - an + margin) 0`, with
  the same-group negative distance when the same-group flag is positive, kept where the row has a
  positive, a negative and a positive loss; and that condition as 0/1.
-/
import proofs.«141537_j90099823936181_1_alg».proof.Proof.KI.Payload

noncomputable section

namespace Cert.KernelIdeal.Hand

open Cert.KernelIdeal Cert.KernelIdeal.Gen
open Idealize.ShloMosaic Idealize.ShloMosaic.ValueIdx
open Cert.Spec (col tileMax tileMin tileAny apRow anSGRow anAllRow pos neg negSG negBig posBig margin lossOf)

variable [Cert.KernelIdeal.Facts]

/-! ## Words and comparisons -/

/-- The word of `1.0` is the extended real `1`, and the word of `-∞` is the bottom element. -/
theorem ofBits_one_f32 : Ideal.ofBits .f32 0x3F800000#32 = 1 := by
  simp [Ideal.ofBits, Ideal.ieee, -EReal.coe_mul]; norm_num
theorem ofBits_negInf_f32 : Ideal.ofBits .f32 0xFF800000#32 = ⊥ := by
  simp [Ideal.ofBits, Ideal.ieee]

/-- The comparison `a > 0` on the extended reals, as a bit: it is `1` exactly when `0 < a`. -/
theorem cmp_ogt_zero (a : EReal) : Ideal.cmp .ogt a 0 = BitVec.ofBool (decide (0 < a)) := rfl
theorem cmp_ogt_zero_iff (a : EReal) : Ideal.cmp .ogt a 0 = 1#1 ↔ 0 < a := by
  rw [cmp_ogt_zero]
  by_cases h : 0 < a
  · rw [decide_eq_true h]; exact ⟨fun _ => h, fun _ => rfl⟩
  · rw [decide_eq_false h]; exact ⟨fun e => absurd e (by decide), fun e => absurd e h⟩

/-- A select on the bit of `a > 0` is the `if` on `0 < a`. -/
theorem select_cmp_ogt_zero {α : Type} (a : EReal) (u v : α) :
    Scalar.select (Ideal.cmp .ogt a 0) u v = if 0 < a then u else v := by
  by_cases h : 0 < a
  · rw [(cmp_ogt_zero_iff a).mpr h, select_one, if_pos h]
  · rw [eq_zero_of_ne_one (fun e => h ((cmp_ogt_zero_iff a).mp e)), select_zero, if_neg h]

/-- The conjunction of two bits is `1` exactly when both are. -/
theorem and_eq_one_iff (a b : BitVec 1) : a &&& b = 1#1 ↔ a = 1#1 ∧ b = 1#1 := by
  rcases BitVec.eq_zero_or_eq_one a with rfl | rfl <;> rcases BitVec.eq_zero_or_eq_one b with rfl | rfl <;> decide

/-! ## One tile's flag -/

open Classical in
/-- A mask turned into `1.0` / `0.0` is, at an index, the 0/1 indicator of the proposition the mask bit decides. -/
theorem indicator_apply (m : IVec S1024x512 1) (y : S1024x512.Idx) (g : Prop) (hm : m y = 1#1 ↔ g) :
    select m (broadcast S1024x512 (Scalar.ofBits (F := Ideal) .f32 0x3F800000#32))
      (broadcast S1024x512 (Scalar.ofBits (F := Ideal) .f32 0x00000000#32)) y = if g then (1 : EReal) else 0 := by
  rw [select_apply, broadcast_apply, broadcast_apply]
  show Scalar.select (m y) (Ideal.ofBits .f32 0x3F800000#32) (Ideal.ofBits .f32 0x00000000#32) = _
  rw [ofBits_one_f32, Ideal.ofBits_zero_f32]
  by_cases hg : g
  · rw [hm.mpr hg, select_one, if_pos hg]
  · have : m y = 0#1 := eq_zero_of_ne_one (fun h => hg (hm.mp h))
    rw [this, select_zero, if_neg hg]

/-- The maximum over the columns of a tile, from `-∞`: at row `p` it is the fold of `max` from `⊥` over the 512 columns
    of that row (the reduced index with the column inserted is `(p, q)`). -/
theorem rowMax_apply (src : FVec Ideal S1024x512 .f32) (p : Fin 1024) :
    multiReduction .maximumf [1] S1024 src 0xFF800000#32 reduces_S1024x512_S1024 (.inl rfl) rfl (ix1 p)
      = (Finset.univ : Finset (Fin 512)).fold max ⊥ fun q => src (ix2 p q) := by
  refine (Ideal.multiReduction_maximumf_single src _ reduces_S1024x512_S1024 (.inl rfl) rfl (ix1 p)).trans ?_
  show (Finset.univ : Finset (Fin 512)).fold max (Ideal.ofBits .f32 0xFF800000#32) _ = _
  rw [ofBits_negInf_f32]
  refine congrArg (fun f => (Finset.univ : Finset (Fin 512)).fold max ⊥ f) (funext fun q => ?_)
  show src _ = src _
  refine congrArg src (funext fun c => Fin.ext ?_)
  match c with
  | ⟨0, _⟩ => rfl
  | ⟨1, _⟩ => rfl

open Classical in
/-- A vector of 1024 values tested `> 0`, laid out as a column and turned into a float through a 32-bit word, is at row `p`
    the 0/1 indicator of `0 < R p`: the column's entry `(p, 0)` sits at the row-major position `p`, the one-bit word of the
    comparison widens to the word `1` or `0`, and that integer is the extended real `1` or `0`. -/
theorem flagCol_apply (R : FVec Ideal S1024 .f32) (p : Fin 1024) :
    (sitofp .f32 (extui 32 (shapeCast S1024x1 (cmpf .ogt R (broadcast S1024 (Scalar.ofBits (F := Ideal) .f32 0x00000000#32)))
        shapeCasts_S1024_S1024x1) natLt_1_32) : FVec Ideal S1024x1 .f32) (ix2 p (0 : Fin 1))
      = if 0 < R (ix1 p) then (1 : EReal) else 0 := by
  rw [sitofp_apply, extui_apply]
  rw [shapeCast_apply _ shapeCasts_S1024_S1024x1 (ix2 p (0 : Fin 1)) (ix1 p) (by
    rw [Shape.rowMajor_val_two, Shape.rowMajor_val_one]
    show p.val = p.val * 1 + 0
    omega)]
  rw [cmpf_apply, broadcast_apply]
  show (((((Ideal.cmp .ogt (R (ix1 p)) (Ideal.ofBits .f32 0x00000000#32)).setWidth 32).toInt : ℝ)) : EReal) = _
  rw [Ideal.ofBits_zero_f32, cmp_ogt_zero]
  by_cases h : 0 < R (ix1 p)
  · rw [if_pos h, decide_eq_true h]; simp
  · rw [if_neg h, decide_eq_false h]; simp

open Classical in
/-- A running flag updated by a tile's mask `m`: when the mask bit at `(p, q)` decides `g` of column `q` of tile `j`, the new
    flag at row `p` is the old one joined with `tileAny g j` — the indicator's tile maximum from `⊥`, tested `> 0`, as 0/1. -/
theorem flag_apply (m : IVec S1024x512 1) (s : Vec Ideal S1024x1 .f32) (p : Fin 1024) (g : Fin 8192 → Prop) (j : Fin 16)
    (hm : ∀ q : Fin 512, m (ix2 p q) = 1#1 ↔ g (col j q)) :
    k0_pay22 (F := Ideal) m s (ix2 p (0 : Fin 1)) = max (s (ix2 p (0 : Fin 1))) (tileAny g j) := by
  unfold k0_pay22
  simp only []
  rw [shapeCast_self, maximumf_apply, flagCol_apply, rowMax_apply]
  unfold tileAny tileMax
  simp only [indicator_apply m _ _ (hm _)]

/-- The three flag updates are one function of the mask and the old flag: the positives' update takes its tile maximum
    and its zero as arguments, and with those put in it is the same term. -/
theorem pay21_eq_pay22 (m : IVec S1024x512 1) (s : Vec Ideal S1024x1 .f32) :
    k0_pay21 (F := Ideal) s (k0_pay20 (F := Ideal) m) (Scalar.ofBits .f32 0x00000000#32) = k0_pay22 (F := Ideal) m s := rfl
theorem pay23_eq_pay22 (m : IVec S1024x512 1) (s : Vec Ideal S1024x1 .f32) :
    k0_pay23 (F := Ideal) m s = k0_pay22 (F := Ideal) m s := rfl

section

variable {X : Fin 8192 → Fin 128 → EReal} {lab grp : Fin 8192 → BitVec 32} {i : grid0.Coords}
  {x0 : Vec Ideal S1024x128 .bf16} {x1 : Vec Ideal S512x128 .bf16} {x2 : Vec Ideal S1024x1 .i32} {x3 : Vec Ideal S1x512 .i32}
  {x4 : Vec Ideal S1024x1 .i32} {x5 : Vec Ideal S1x512 .i32}

/-- The three running flags after this tile. -/
theorem pay21_apply (h : TileInputs X lab grp i x0 x1 x2 x3 x4 x5) (s3 : Vec Ideal S1024x1 .f32) (p : Fin 1024) :
    k0_pay21 (F := Ideal) s3 (k0_pay20 (F := Ideal) (k0_pay14 i x2 x3)) (Scalar.ofBits .f32 0x00000000#32) (ix2 p (0 : Fin 1))
      = max (s3 (ix2 p (0 : Fin 1))) (tileAny (pos lab (rowOf i p)) (tileOf i)) := by
  rw [pay21_eq_pay22]
  exact flag_apply _ s3 p _ _ fun q => pay14_apply h p q
theorem pay22_apply (h : TileInputs X lab grp i x0 x1 x2 x3 x4 x5) (s4 : Vec Ideal S1024x1 .f32) (p : Fin 1024) :
    k0_pay22 (F := Ideal) (k0_pay16 (k0_pay13 x4 x5) (k0_pay15 x2 x3)) s4 (ix2 p (0 : Fin 1))
      = max (s4 (ix2 p (0 : Fin 1))) (tileAny (negSG lab grp (rowOf i p)) (tileOf i)) :=
  flag_apply _ s4 p _ _ fun q => pay16_apply h p q
theorem pay23_apply (h : TileInputs X lab grp i x0 x1 x2 x3 x4 x5) (s5 : Vec Ideal S1024x1 .f32) (p : Fin 1024) :
    k0_pay23 (F := Ideal) (k0_pay15 x2 x3) s5 (ix2 p (0 : Fin 1))
      = max (s5 (ix2 p (0 : Fin 1))) (tileAny (neg lab (rowOf i p)) (tileOf i)) := by
  rw [pay23_eq_pay22]
  exact flag_apply _ s5 p _ _ fun q => pay15_apply h p q

end

/-! ## The two result columns -/

/-- The hinge loss of a row from its final running values: the hardest positive less the hardest negative (the same-group
    one when the same-group flag is positive) plus the margin, cut off at `0`. -/
theorem pay1_apply (s4 s1 s2 s0 : Vec Ideal S1024x1 .f32) (y : S1024x1.Idx) :
    k0_pay1 (F := Ideal) s4 s1 s2 s0 y = lossOf (s0 y) (s1 y) (s2 y) (s4 y) := by
  show max (s0 y - Scalar.select (Ideal.cmp .ogt (s4 y) (Ideal.ofBits .f32 0x00000000#32)) (s1 y) (s2 y)
      + Ideal.ofBits .f32 0x3DCCCCCD#32) (Ideal.ofBits .f32 0x00000000#32) = _
  rw [Ideal.ofBits_zero_f32, select_cmp_ogt_zero]
  rfl

/-- The row is counted: it has a positive, a negative, and a positive loss. -/
theorem pay2_apply (s3 s4 s5 s1 s2 s0 : Vec Ideal S1024x1 .f32) (y : S1024x1.Idx) :
    k0_pay2 (F := Ideal) s3 s4 s5 s1 s2 s0 y = 1#1
      ↔ 0 < s3 y ∧ 0 < s5 y ∧ 0 < lossOf (s0 y) (s1 y) (s2 y) (s4 y) := by
  show (Ideal.cmp .ogt (s3 y) (Ideal.ofBits .f32 0x00000000#32) &&& Ideal.cmp .ogt (s5 y) (Ideal.ofBits .f32 0x00000000#32))
      &&& Ideal.cmp .ogt (k0_pay1 (F := Ideal) s4 s1 s2 s0 y) (Ideal.ofBits .f32 0x00000000#32) = 1#1 ↔ _
  rw [Ideal.ofBits_zero_f32, and_eq_one_iff, and_eq_one_iff, cmp_ogt_zero_iff, cmp_ogt_zero_iff, cmp_ogt_zero_iff, pay1_apply,
    and_assoc]

open Classical in
/-- The two result columns: the loss where the row has a positive, a negative and a positive loss, else 0; and that as 0/1. -/
theorem pay3_apply (s3 s4 s5 s1 s2 s0 : Vec Ideal S1024x1 .f32) (y : S1024x1.Idx) :
    k0_pay3 (F := Ideal) s3 s4 s5 s1 s2 s0 y
      = if 0 < s3 y ∧ 0 < s5 y ∧ 0 < lossOf (s0 y) (s1 y) (s2 y) (s4 y) then lossOf (s0 y) (s1 y) (s2 y) (s4 y) else 0 := by
  show Scalar.select (k0_pay2 (F := Ideal) s3 s4 s5 s1 s2 s0 y) (k0_pay1 (F := Ideal) s4 s1 s2 s0 y)
      (Ideal.ofBits .f32 0x00000000#32) = _
  rw [Ideal.ofBits_zero_f32, pay1_apply]
  by_cases h : 0 < s3 y ∧ 0 < s5 y ∧ 0 < lossOf (s0 y) (s1 y) (s2 y) (s4 y)
  · rw [(pay2_apply s3 s4 s5 s1 s2 s0 y).mpr h, select_one, if_pos h]
  · rw [eq_zero_of_ne_one (fun e => h ((pay2_apply s3 s4 s5 s1 s2 s0 y).mp e)), select_zero, if_neg h]
open Classical in
theorem pay4_apply (s3 s4 s5 s1 s2 s0 : Vec Ideal S1024x1 .f32) (y : S1024x1.Idx) :
    k0_pay4 (F := Ideal) s3 s4 s5 s1 s2 s0 y
      = if 0 < s3 y ∧ 0 < s5 y ∧ 0 < lossOf (s0 y) (s1 y) (s2 y) (s4 y) then 1 else 0 := by
  show ((((k0_pay2 (F := Ideal) s3 s4 s5 s1 s2 s0 y).setWidth 32).toInt : ℝ) : EReal) = _
  by_cases h : 0 < s3 y ∧ 0 < s5 y ∧ 0 < lossOf (s0 y) (s1 y) (s2 y) (s4 y)
  · rw [(pay2_apply s3 s4 s5 s1 s2 s0 y).mpr h, if_pos h]; simp
  · rw [eq_zero_of_ne_one (fun e => h ((pay2_apply s3 s4 s5 s1 s2 s0 y).mp e)), if_neg h]; simp

end Cert.KernelIdeal.Hand

end
-- ==== Proof.TileMath.lean ====
/-
  The tiled sweep computes the whole-row quantities.

  A fold of `max` (of `min`) over the 8192 columns is the fold over the 16 tiles of the folds over
  each tile's 512 columns, because column `c` is `col (c / 512) (c % 512)` exactly once. Started at a
  sentinel instead of ∓∞, the running value after sixteen tiles is `max sentinel (whole-row maximum)`,
  and the sentinel is absorbed as soon as the row itself contains it: every row does, at its own
  diagonal column, which all three masks exclude. The running 0/1 flag is positive after sixteen
  tiles exactly when some column satisfies the predicate.
-/
import proofs.«141537_j90099823936181_1_alg».proof.Proof.Spec
import Mathlib.Data.Finset.Lattice.Fold
import Mathlib.Data.EReal.Basic

noncomputable section

namespace Cert.Spec

/-! ## Folds of `max` / `min` are finite suprema / infima -/

/-- A fold of `max` from `⊥` is the finite supremum. -/
theorem fold_max_eq_sup {ι : Type*} (s : Finset ι) (f : ι → EReal) : s.fold max ⊥ f = s.sup f := rfl

/-- A fold of `min` from `⊤` is the finite infimum. -/
theorem fold_min_eq_inf {ι : Type*} (s : Finset ι) (f : ι → EReal) : s.fold min ⊤ f = s.inf f := rfl

/-- Every column lies in exactly one tile: column `c` is column `c % 512` of tile `c / 512`. -/
theorem col_surj (c : Fin 8192) : ∃ (j : Fin 16) (q : Fin 512), col j q = c := by
  have hc := c.isLt
  refine ⟨⟨c.val / 512, by omega⟩, ⟨c.val % 512, by omega⟩, ?_⟩
  apply Fin.ext
  simp only [col]
  omega

/-- An upper bound of one tile's maximum is an upper bound of each of its columns. -/
theorem tileMax_le_iff (f : Fin 8192 → EReal) (j : Fin 16) (b : EReal) :
    tileMax f j ≤ b ↔ ∀ q : Fin 512, f (col j q) ≤ b := by
  unfold tileMax
  rw [fold_max_eq_sup, Finset.sup_le_iff]
  simp

theorem le_tileMin_iff (f : Fin 8192 → EReal) (j : Fin 16) (b : EReal) :
    b ≤ tileMin f j ↔ ∀ q : Fin 512, b ≤ f (col j q) := by
  unfold tileMin
  rw [fold_min_eq_inf, Finset.le_inf_iff]
  simp

/-- Bounding every column of every tile is bounding every column. -/
theorem forall_tiles_iff (P : Fin 8192 → Prop) :
    (∀ (j : Fin 16) (q : Fin 512), P (col j q)) ↔ ∀ c, P c := by
  constructor
  · intro h c
    obtain ⟨j, q, hjq⟩ := col_surj c
    exact hjq ▸ h j q
  · intro h j q
    exact h _

/-- Sixteen tiles of 512 cover the 8192 columns once each: the whole-row maximum is the maximum of the tile maxima. -/
theorem fold_max_tiles (f : Fin 8192 → EReal) :
    (Finset.univ : Finset (Fin 8192)).fold max ⊥ f = (Finset.univ : Finset (Fin 16)).fold max ⊥ (tileMax f) := by
  rw [fold_max_eq_sup, fold_max_eq_sup]
  apply eq_of_forall_ge_iff
  intro b
  rw [Finset.sup_le_iff, Finset.sup_le_iff]
  simp only [Finset.mem_univ, true_implies, tileMax_le_iff]
  exact (forall_tiles_iff (fun c => f c ≤ b)).symm

theorem fold_min_tiles (f : Fin 8192 → EReal) :
    (Finset.univ : Finset (Fin 8192)).fold min ⊤ f = (Finset.univ : Finset (Fin 16)).fold min ⊤ (tileMin f) := by
  rw [fold_min_eq_inf, fold_min_eq_inf]
  apply eq_of_forall_le_iff
  intro b
  rw [Finset.le_inf_iff, Finset.le_inf_iff]
  simp only [Finset.mem_univ, true_implies, le_tileMin_iff]
  exact (forall_tiles_iff (fun c => b ≤ f c)).symm

/-! ## The running extrema -/

/-- An upper bound of the running maximum after `n` tiles bounds the start value and the first `n` tile maxima. -/
theorem runMax_le_iff (init : EReal) (f : Fin 8192 → EReal) (n : ℕ) (b : EReal) :
    runMax init f n ≤ b ↔ init ≤ b ∧ ∀ j : Fin 16, j.val < n → tileMax f j ≤ b := by
  induction n with
  | zero => simp [runMax]
  | succ n ih =>
    rw [runMax, max_le_iff, ih]
    by_cases h : n < 16
    · rw [dif_pos h]
      constructor
      · rintro ⟨⟨h0, h1⟩, h2⟩
        refine ⟨h0, fun j hj => ?_⟩
        by_cases hjn : j.val < n
        · exact h1 j hjn
        · have : j = ⟨n, h⟩ := Fin.ext (by simp only; omega)
          rw [this]; exact h2
      · rintro ⟨h0, h1⟩
        exact ⟨⟨h0, fun j hj => h1 j (by omega)⟩, h1 ⟨n, h⟩ (by simp)⟩
    · rw [dif_neg h]
      constructor
      · rintro ⟨⟨h0, h1⟩, _⟩
        exact ⟨h0, fun j hj => h1 j (by have := j.isLt; omega)⟩
      · rintro ⟨h0, h1⟩
        exact ⟨⟨h0, fun j hj => h1 j (by omega)⟩, bot_le⟩

theorem le_runMin_iff (init : EReal) (f : Fin 8192 → EReal) (n : ℕ) (b : EReal) :
    b ≤ runMin init f n ↔ b ≤ init ∧ ∀ j : Fin 16, j.val < n → b ≤ tileMin f j := by
  induction n with
  | zero => simp [runMin]
  | succ n ih =>
    rw [runMin, le_min_iff, ih]
    by_cases h : n < 16
    · rw [dif_pos h]
      constructor
      · rintro ⟨⟨h0, h1⟩, h2⟩
        refine ⟨h0, fun j hj => ?_⟩
        by_cases hjn : j.val < n
        · exact h1 j hjn
        · have : j = ⟨n, h⟩ := Fin.ext (by simp only; omega)
          rw [this]; exact h2
      · rintro ⟨h0, h1⟩
        exact ⟨⟨h0, fun j hj => h1 j (by omega)⟩, h1 ⟨n, h⟩ (by simp)⟩
    · rw [dif_neg h]
      constructor
      · rintro ⟨⟨h0, h1⟩, _⟩
        exact ⟨h0, fun j hj => h1 j (by have := j.isLt; omega)⟩
      · rintro ⟨h0, h1⟩
        exact ⟨⟨h0, fun j hj => h1 j (by omega)⟩, le_top⟩

/-- The running maximum after sixteen tiles, when the row contains its starting value. -/
theorem runMax_sixteen (init : EReal) (f : Fin 8192 → EReal) (h : ∃ j, f j = init) :
    runMax init f 16 = (Finset.univ : Finset (Fin 8192)).fold max ⊥ f := by
  rw [fold_max_eq_sup]
  apply eq_of_forall_ge_iff
  intro b
  rw [runMax_le_iff, Finset.sup_le_iff]
  simp only [Finset.mem_univ, true_implies, tileMax_le_iff, Fin.is_lt]
  rw [forall_tiles_iff (fun c => f c ≤ b)]
  obtain ⟨j0, hj0⟩ := h
  constructor
  · exact fun hb => hb.2
  · exact fun hb => ⟨hj0 ▸ hb j0, hb⟩

theorem runMin_sixteen (init : EReal) (f : Fin 8192 → EReal) (h : ∃ j, f j = init) :
    runMin init f 16 = (Finset.univ : Finset (Fin 8192)).fold min ⊤ f := by
  rw [fold_min_eq_inf]
  apply eq_of_forall_le_iff
  intro b
  rw [le_runMin_iff, Finset.le_inf_iff]
  simp only [Finset.mem_univ, true_implies, le_tileMin_iff, Fin.is_lt]
  rw [forall_tiles_iff (fun c => b ≤ f c)]
  obtain ⟨j0, hj0⟩ := h
  constructor
  · exact fun hb => hb.2
  · exact fun hb => ⟨hj0 ▸ hb j0, hb⟩

/-! ## The running flag -/

/-- A tile's flag is 0 or 1. -/
theorem tileAny_zero_or_one (g : Fin 8192 → Prop) (j : Fin 16) : tileAny g j = 0 ∨ tileAny g j = 1 := by
  unfold tileAny
  split
  · exact Or.inr rfl
  · exact Or.inl rfl

/-- The running flag is 0 or 1, -/
theorem runAny_zero_or_one (g : Fin 8192 → Prop) (n : ℕ) : runAny g n = 0 ∨ runAny g n = 1 := by
  induction n with
  | zero => exact Or.inl rfl
  | succ n ih =>
    rw [runAny]
    have h01 : (0 : EReal) ≤ 1 := zero_le_one
    have ht : (if h : n < 16 then tileAny g ⟨n, h⟩ else 0) = 0 ∨ (if h : n < 16 then tileAny g ⟨n, h⟩ else 0) = 1 := by
      by_cases h : n < 16
      · rw [dif_pos h]; exact tileAny_zero_or_one g _
      · rw [dif_neg h]; exact Or.inl rfl
    rcases ih with ih | ih <;> rcases ht with ht | ht <;> rw [ih, ht]
    · exact Or.inl (max_self _)
    · exact Or.inr (max_eq_right h01)
    · exact Or.inr (max_eq_left h01)
    · exact Or.inr (max_self _)

/-- A tile's flag is positive exactly when one of its columns satisfies `g`. -/
theorem tileAny_pos_iff (g : Fin 8192 → Prop) (j : Fin 16) : 0 < tileAny g j ↔ ∃ q : Fin 512, g (col j q) := by
  classical
  have hind : ∀ c : Fin 8192, (0 : EReal) < (if g c then (1 : EReal) else 0) ↔ g c := by
    intro c
    by_cases hc : g c
    · simp [hc]
    · simp [hc]
  unfold tileAny
  have h1 : (0 : EReal) < (if 0 < tileMax (fun c => if g c then (1 : EReal) else 0) j then (1 : EReal) else 0)
      ↔ 0 < tileMax (fun c => if g c then (1 : EReal) else 0) j := by
    by_cases hc : 0 < tileMax (fun c => if g c then (1 : EReal) else 0) j
    · simp [hc]
    · simp [hc]
  rw [h1]
  unfold tileMax
  rw [fold_max_eq_sup, Finset.lt_sup_iff]
  simp only [Finset.mem_univ, true_and, hind]

/-- The running flag after `n` tiles is positive exactly when a column of one of the first `n` tiles satisfies `g`. -/
theorem runAny_pos_iff (g : Fin 8192 → Prop) (n : ℕ) :
    0 < runAny g n ↔ ∃ j : Fin 16, j.val < n ∧ ∃ q : Fin 512, g (col j q) := by
  induction n with
  | zero => simp [runAny]
  | succ n ih =>
    rw [runAny, lt_max_iff, ih]
    by_cases h : n < 16
    · rw [dif_pos h, tileAny_pos_iff]
      constructor
      · rintro (⟨j, hj, hq⟩ | hq)
        · exact ⟨j, by omega, hq⟩
        · exact ⟨⟨n, h⟩, by simp, hq⟩
      · rintro ⟨j, hj, hq⟩
        by_cases hjn : j.val < n
        · exact Or.inl ⟨j, hjn, hq⟩
        · have : j = ⟨n, h⟩ := Fin.ext (by simp only; omega)
          exact Or.inr (this ▸ hq)
    · rw [dif_neg h]
      constructor
      · rintro (⟨j, hj, hq⟩ | hq)
        · exact ⟨j, by omega, hq⟩
        · exact absurd hq (lt_irrefl _)
      · rintro ⟨j, hj, hq⟩
        exact Or.inl ⟨j, by have := j.isLt; omega, hq⟩

/-- and positive after sixteen tiles exactly when some column satisfies `g`. -/
theorem runAny_sixteen_pos (g : Fin 8192 → Prop) : 0 < runAny g 16 ↔ ∃ j, g j := by
  rw [runAny_pos_iff]
  constructor
  · rintro ⟨j, _, q, hq⟩
    exact ⟨_, hq⟩
  · rintro ⟨c, hc⟩
    obtain ⟨j, q, hjq⟩ := col_surj c
    exact ⟨j, j.isLt, q, hjq ▸ hc⟩

section Rows

variable (X : Fin 8192 → Fin 128 → EReal) (lab grp : Fin 8192 → BitVec 32)

/-- A row is no positive and no negative of itself, so each masked row holds its sentinel on the diagonal. -/
theorem apRow_diag (r : Fin 8192) : apRow X lab r r = negBig := by
  unfold apRow
  rw [if_neg]
  exact fun h => h.2 rfl
theorem anSGRow_diag (r : Fin 8192) : anSGRow X lab grp r r = posBig := by
  unfold anSGRow
  rw [if_neg]
  exact fun h => h.1 rfl
theorem anAllRow_diag (r : Fin 8192) : anAllRow X lab r r = posBig := by
  unfold anAllRow
  rw [if_neg]
  exact fun h => h rfl

/-- The three running extrema after sixteen tiles are the row's hardest positive and negatives. -/
theorem ap_eq_run (r : Fin 8192) : runMax negBig (apRow X lab r) 16 = ap X lab r :=
  runMax_sixteen negBig (apRow X lab r) ⟨r, apRow_diag X lab r⟩
theorem anSG_eq_run (r : Fin 8192) : runMin posBig (anSGRow X lab grp r) 16 = anSG X lab grp r :=
  runMin_sixteen posBig (anSGRow X lab grp r) ⟨r, anSGRow_diag X lab grp r⟩
theorem anAll_eq_run (r : Fin 8192) : runMin posBig (anAllRow X lab r) 16 = anAll X lab r :=
  runMin_sixteen posBig (anAllRow X lab r) ⟨r, anAllRow_diag X lab r⟩

end Rows

end Cert.Spec

end
-- ==== Proof.RowValue.lean ====
/-
  From the six running values after the sixteenth tile to the row's contribution.

  After sixteen tiles the running maximum from `-1e9` is the row's hardest positive, the two running minima
  from `+1e9` its hardest same-group and overall negatives (each row holds its sentinel on its own diagonal
  column), and each running flag is positive exactly when some column satisfies its predicate. So the
  kernel's hinge loss is the specification's, its three tests are the specification's three conditions,
  and the two result columns hold `contrib` and `inclF`.
-/
import proofs.«141537_j90099823936181_1_alg».proof.Proof.TileMath

noncomputable section

namespace Cert.Spec

variable (X : Fin 8192 → Fin 128 → EReal) (lab grp : Fin 8192 → BitVec 32)

/-- The six running values of row `r` after `n` tiles. -/
def run0 (r : Fin 8192) (n : ℕ) : EReal := runMax negBig (apRow X lab r) n
def run1 (r : Fin 8192) (n : ℕ) : EReal := runMin posBig (anSGRow X lab grp r) n
def run2 (r : Fin 8192) (n : ℕ) : EReal := runMin posBig (anAllRow X lab r) n
def run3 (r : Fin 8192) (n : ℕ) : EReal := runAny (pos lab r) n
def run4 (r : Fin 8192) (n : ℕ) : EReal := runAny (negSG lab grp r) n
def run5 (r : Fin 8192) (n : ℕ) : EReal := runAny (neg lab r) n

/-- The kernel's loss from the final running values is the row's loss. -/
theorem lossOf_run (r : Fin 8192) :
    lossOf (run0 X lab r 16) (run1 X lab grp r 16) (run2 X lab r 16) (run4 lab grp r 16) = loss X lab grp r := by
  unfold lossOf loss an run0 run1 run2 run4
  rw [ap_eq_run, anSG_eq_run, anAll_eq_run]
  by_cases h : ∃ j, negSG lab grp r j
  · rw [if_pos h, if_pos ((runAny_sixteen_pos _).mpr h)]
  · rw [if_neg h, if_neg (fun hp => h ((runAny_sixteen_pos _).mp hp))]

/-- The kernel's three tests on the final running values are the three conditions under which the row is counted:
    it has a positive, it has a negative, and its loss is strictly positive. -/
theorem tests_iff_incl (r : Fin 8192) :
    (0 < run3 lab r 16 ∧ 0 < run5 lab r 16 ∧
      0 < lossOf (run0 X lab r 16) (run1 X lab grp r 16) (run2 X lab r 16) (run4 lab grp r 16))
      ↔ incl X lab grp r := by
  rw [lossOf_run]
  unfold incl run3 run5
  rw [runAny_sixteen_pos, runAny_sixteen_pos]

open Classical in
/-- The first result column holds the row's contribution, -/
theorem contrib_eq_run (r : Fin 8192) :
    (if 0 < run3 lab r 16 ∧ 0 < run5 lab r 16 ∧ 0 < lossOf (run0 X lab r 16) (run1 X lab grp r 16) (run2 X lab r 16) (run4 lab grp r 16)
      then lossOf (run0 X lab r 16) (run1 X lab grp r 16) (run2 X lab r 16) (run4 lab grp r 16) else 0)
      = contrib X lab grp r := by
  unfold contrib
  by_cases hc : incl X lab grp r
  · rw [if_pos hc, if_pos ((tests_iff_incl X lab grp r).mpr hc), lossOf_run]
  · rw [if_neg hc, if_neg (fun h => hc ((tests_iff_incl X lab grp r).mp h))]

open Classical in
/-- and the second whether it is counted. -/
theorem inclF_eq_run (r : Fin 8192) :
    (if 0 < run3 lab r 16 ∧ 0 < run5 lab r 16 ∧ 0 < lossOf (run0 X lab r 16) (run1 X lab grp r 16) (run2 X lab r 16) (run4 lab grp r 16)
      then (1 : EReal) else 0)
      = inclF X lab grp r := by
  unfold inclF
  by_cases hc : incl X lab grp r
  · rw [if_pos hc, if_pos ((tests_iff_incl X lab grp r).mpr hc)]
  · rw [if_neg hc, if_neg (fun h => hc ((tests_iff_incl X lab grp r).mp h))]

end Cert.Spec

end
-- ==== Proof.KI.RowInv.lean ====
/-
  The running columns, tile by tile, are the rows' running values.

  Fix a core and a row block. After the body at the block's tile `b` each running column holds, at local row `p`, the
  running value of row `1024 a + p` after `b + 1` tiles: at the first tile the update of the reset value, at a later
  tile the update of what the tile before left (induction on the position). So at the block's last tile the two
  result buffers hold the rows' contributions and counts.
-/
import proofs.«141537_j90099823936181_1_alg».proof.Proof.KI.Pieces
import proofs.«141537_j90099823936181_1_alg».proof.Proof.KI.Blocks
import proofs.«141537_j90099823936181_1_alg».proof.Proof.KI.Payload2
import proofs.«141537_j90099823936181_1_alg».proof.Proof.RowValue

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.Spec (run0 run1 run2 run3 run4 run5 contrib inclF lossOf)

variable [Cert.KernelIdeal.Facts]

variable (m : (ℓ : Loc nD τ sig) → Buf (Elt Ideal) ℓ)

/-! ## One more tile of a running value -/

/-- The running values after `k + 1` tiles are the update of those after `k` tiles by tile `k`. -/
theorem run0_step (X : Fin 8192 → Fin 128 → EReal) (lab : Fin 8192 → BitVec 32) (r : Fin 8192) (k : ℕ) (j : Fin 16)
    (hj : j.val = k) :
    max (run0 X lab r k) (Cert.Spec.tileMax (Cert.Spec.apRow X lab r) j) = run0 X lab r (k + 1) := by
  subst hj
  unfold run0
  rw [Cert.Spec.runMax, dif_pos j.isLt]
theorem run1_step (X : Fin 8192 → Fin 128 → EReal) (lab grp : Fin 8192 → BitVec 32) (r : Fin 8192) (k : ℕ) (j : Fin 16)
    (hj : j.val = k) :
    min (run1 X lab grp r k) (Cert.Spec.tileMin (Cert.Spec.anSGRow X lab grp r) j) = run1 X lab grp r (k + 1) := by
  subst hj
  unfold run1
  rw [Cert.Spec.runMin, dif_pos j.isLt]
theorem run2_step (X : Fin 8192 → Fin 128 → EReal) (lab : Fin 8192 → BitVec 32) (r : Fin 8192) (k : ℕ) (j : Fin 16)
    (hj : j.val = k) :
    min (run2 X lab r k) (Cert.Spec.tileMin (Cert.Spec.anAllRow X lab r) j) = run2 X lab r (k + 1) := by
  subst hj
  unfold run2
  rw [Cert.Spec.runMin, dif_pos j.isLt]
theorem runAny_step (g : Fin 8192 → Prop) (k : ℕ) (j : Fin 16) (hj : j.val = k) :
    max (Cert.Spec.runAny g k) (Cert.Spec.tileAny g j) = Cert.Spec.runAny g (k + 1) := by
  subst hj
  rw [Cert.Spec.runAny, dif_pos j.isLt]

/-! ## One tile of the body on a running column -/

/-- If a running column holds at local row `p` the row's running value after the tiles before the point's own, its
    update by the point's tile holds the running value after the point's tile as well. -/
theorem col0_step (c : Dev nD) (t : Fin cfg0.N) (p : Fin 1024) (s : Vec Ideal S1024x1 .f32)
    (hs : s (ix2 p (0 : Fin 1)) = run0 (Xk m c) (labK m c) (rowOf (grid0.coords t) p) (t.val % 16)) :
    k0_pay17 (F := Ideal) (k0_pay11 (iblk m c 0 t) (iblk m c 1 t)) (k0_pay14 (grid0.coords t) (iblk m c 2 t) (iblk m c 3 t)) s
        (ix2 p (0 : Fin 1))
      = run0 (Xk m c) (labK m c) (rowOf (grid0.coords t) p) (t.val % 16 + 1) := by
  rw [pay17_apply (tileInputs m c t) s p, hs]
  exact run0_step _ _ _ _ _ (tileOf_coords t)
theorem col1_step (c : Dev nD) (t : Fin cfg0.N) (p : Fin 1024) (s : Vec Ideal S1024x1 .f32)
    (hs : s (ix2 p (0 : Fin 1)) = run1 (Xk m c) (labK m c) (grpK m c) (rowOf (grid0.coords t) p) (t.val % 16)) :
    k0_pay18 (F := Ideal) (k0_pay11 (iblk m c 0 t) (iblk m c 1 t)) (k0_pay13 (iblk m c 4 t) (iblk m c 5 t))
        (k0_pay15 (iblk m c 2 t) (iblk m c 3 t)) s (ix2 p (0 : Fin 1))
      = run1 (Xk m c) (labK m c) (grpK m c) (rowOf (grid0.coords t) p) (t.val % 16 + 1) := by
  rw [pay18_apply (tileInputs m c t) s p, hs]
  exact run1_step _ _ _ _ _ _ (tileOf_coords t)
theorem col2_step (c : Dev nD) (t : Fin cfg0.N) (p : Fin 1024) (s : Vec Ideal S1024x1 .f32)
    (hs : s (ix2 p (0 : Fin 1)) = run2 (Xk m c) (labK m c) (rowOf (grid0.coords t) p) (t.val % 16)) :
    k0_pay19 (F := Ideal) (k0_pay11 (iblk m c 0 t) (iblk m c 1 t)) (k0_pay15 (iblk m c 2 t) (iblk m c 3 t)) s
        (ix2 p (0 : Fin 1))
      = run2 (Xk m c) (labK m c) (rowOf (grid0.coords t) p) (t.val % 16 + 1) := by
  rw [pay19_apply (tileInputs m c t) s p, hs]
  exact run2_step _ _ _ _ _ (tileOf_coords t)
theorem col3_step (c : Dev nD) (t : Fin cfg0.N) (p : Fin 1024) (s : Vec Ideal S1024x1 .f32)
    (hs : s (ix2 p (0 : Fin 1)) = run3 (labK m c) (rowOf (grid0.coords t) p) (t.val % 16)) :
    k0_pay21 (F := Ideal) s (k0_pay20 (F := Ideal) (k0_pay14 (grid0.coords t) (iblk m c 2 t) (iblk m c 3 t)))
        (Scalar.ofBits .f32 0x00000000#32) (ix2 p (0 : Fin 1))
      = run3 (labK m c) (rowOf (grid0.coords t) p) (t.val % 16 + 1) := by
  rw [pay21_apply (tileInputs m c t) s p, hs]
  exact runAny_step _ _ _ (tileOf_coords t)
theorem col4_step (c : Dev nD) (t : Fin cfg0.N) (p : Fin 1024) (s : Vec Ideal S1024x1 .f32)
    (hs : s (ix2 p (0 : Fin 1)) = run4 (labK m c) (grpK m c) (rowOf (grid0.coords t) p) (t.val % 16)) :
    k0_pay22 (F := Ideal) (k0_pay16 (k0_pay13 (iblk m c 4 t) (iblk m c 5 t)) (k0_pay15 (iblk m c 2 t) (iblk m c 3 t))) s
        (ix2 p (0 : Fin 1))
      = run4 (labK m c) (grpK m c) (rowOf (grid0.coords t) p) (t.val % 16 + 1) := by
  rw [pay22_apply (tileInputs m c t) s p, hs]
  exact runAny_step _ _ _ (tileOf_coords t)
theorem col5_step (c : Dev nD) (t : Fin cfg0.N) (p : Fin 1024) (s : Vec Ideal S1024x1 .f32)
    (hs : s (ix2 p (0 : Fin 1)) = run5 (labK m c) (rowOf (grid0.coords t) p) (t.val % 16)) :
    k0_pay23 (F := Ideal) (k0_pay15 (iblk m c 2 t) (iblk m c 3 t)) s (ix2 p (0 : Fin 1))
      = run5 (labK m c) (rowOf (grid0.coords t) p) (t.val % 16 + 1) := by
  rw [pay23_apply (tileInputs m c t) s p, hs]
  exact runAny_step _ _ _ (tileOf_coords t)

/-! ## The six columns together -/

/-- The six running columns of `s` hold, at local row `p`, the running values of row `r` after `k` tiles. -/
def Holds (c : Dev nD) (r : Fin 8192) (k : ℕ) (p : Fin 1024) (s : Tup Ideal) : Prop :=
  s.2.2.1 (ix2 p (0 : Fin 1)) = run0 (Xk m c) (labK m c) r k
  ∧ s.2.2.2.1 (ix2 p (0 : Fin 1)) = run1 (Xk m c) (labK m c) (grpK m c) r k
  ∧ s.2.2.2.2.1 (ix2 p (0 : Fin 1)) = run2 (Xk m c) (labK m c) r k
  ∧ s.2.2.2.2.2.1 (ix2 p (0 : Fin 1)) = run3 (labK m c) r k
  ∧ s.2.2.2.2.2.2.1 (ix2 p (0 : Fin 1)) = run4 (labK m c) (grpK m c) r k
  ∧ s.2.2.2.2.2.2.2 (ix2 p (0 : Fin 1)) = run5 (labK m c) r k

/-- At a row block's first tile the columns are the updates of the reset values, which are the running values after
    no tile. -/
theorem caseA_holds (c : Dev nD) (t : Fin cfg0.N) (h0 : t.val % 16 = 0) (h1 : ¬t.val % 16 = 15) (p : Fin 1024) :
    Holds m c (rowOf (grid0.coords t) p) (t.val % 16 + 1) p (caseA m c t h0 h1) := by
  unfold Holds
  refine ⟨?_, ?_, ?_, ?_, ?_, ?_⟩
  · rw [caseA_s0 m c t h0 h1]
    exact col0_step m c t p _ (by rw [pay5_apply, h0]; rfl)
  · rw [caseA_s1 m c t h0 h1]
    exact col1_step m c t p _ (by rw [pay6_apply, h0]; rfl)
  · rw [caseA_s2 m c t h0 h1]
    exact col2_step m c t p _ (by rw [pay7_apply, h0]; rfl)
  · rw [caseA_s3 m c t h0 h1]
    exact col3_step m c t p _ (by rw [pay8_apply, h0]; rfl)
  · rw [caseA_s4 m c t h0 h1]
    exact col4_step m c t p _ (by rw [pay9_apply, h0]; rfl)
  · rw [caseA_s5 m c t h0 h1]
    exact col5_step m c t p _ (by rw [pay10_apply, h0]; rfl)

/-- At a later tile the columns are the updates of what the tile before left. -/
theorem caseB_holds (c : Dev nD) (t : Fin cfg0.N) (h0 : ¬t.val % 16 = 0) (h1 : ¬t.val % 16 = 15) (prev : Tup Ideal)
    (p : Fin 1024) (hp : Holds m c (rowOf (grid0.coords t) p) (t.val % 16) p prev) :
    Holds m c (rowOf (grid0.coords t) p) (t.val % 16 + 1) p (caseB m c t h0 h1 prev) := by
  unfold Holds at hp ⊢
  obtain ⟨e0, e1, e2, e3, e4, e5⟩ := hp
  refine ⟨?_, ?_, ?_, ?_, ?_, ?_⟩
  · rw [caseB_s0 m c t h0 h1 prev]; exact col0_step m c t p _ e0
  · rw [caseB_s1 m c t h0 h1 prev]; exact col1_step m c t p _ e1
  · rw [caseB_s2 m c t h0 h1 prev]; exact col2_step m c t p _ e2
  · rw [caseB_s3 m c t h0 h1 prev]; exact col3_step m c t p _ e3
  · rw [caseB_s4 m c t h0 h1 prev]; exact col4_step m c t p _ e4
  · rw [caseB_s5 m c t h0 h1 prev]; exact col5_step m c t p _ e5

theorem caseC_holds (c : Dev nD) (t : Fin cfg0.N) (h0 : ¬t.val % 16 = 0) (h1 : t.val % 16 = 15) (prev : Tup Ideal)
    (p : Fin 1024) (hp : Holds m c (rowOf (grid0.coords t) p) (t.val % 16) p prev) :
    Holds m c (rowOf (grid0.coords t) p) (t.val % 16 + 1) p (caseC m c t h0 h1 prev) := by
  unfold Holds at hp ⊢
  obtain ⟨e0, e1, e2, e3, e4, e5⟩ := hp
  refine ⟨?_, ?_, ?_, ?_, ?_, ?_⟩
  · rw [caseC_s0 m c t h0 h1 prev]; exact col0_step m c t p _ e0
  · rw [caseC_s1 m c t h0 h1 prev]; exact col1_step m c t p _ e1
  · rw [caseC_s2 m c t h0 h1 prev]; exact col2_step m c t p _ e2
  · rw [caseC_s3 m c t h0 h1 prev]; exact col3_step m c t p _ e3
  · rw [caseC_s4 m c t h0 h1 prev]; exact col4_step m c t p _ e4
  · rw [caseC_s5 m c t h0 h1 prev]; exact col5_step m c t p _ e5

/-- Induction on the position: inside a row block the point before has the same rows and one tile fewer. -/
theorem outs_holds (c : Dev nD) (n : ℕ) (hn : n < cfg0.N) (p : Fin 1024) :
    Holds m c (rowOf (grid0.coords ⟨n, hn⟩) p) (n % 16 + 1) p (outsAt0 (F := Ideal) m c n hn) := by
  induction n using Nat.strong_induction_on with
  | _ n ih =>
    by_cases h0 : n % 16 = 0
    · have h1 : ¬n % 16 = 15 := by omega
      rw [outsAt0_A m c ⟨n, hn⟩ h0 h1]
      exact caseA_holds m c ⟨n, hn⟩ h0 h1 p
    · have hm : n - 1 < cfg0.N := Nat.lt_of_le_of_lt (Nat.sub_le _ _) hn
      have hprev := ih (n - 1) (by omega) hm
      have hr : rowOf (grid0.coords ⟨n - 1, hm⟩) p = rowOf (grid0.coords ⟨n, hn⟩) p := by
        apply Fin.ext
        rw [rowOf_coords, rowOf_coords]
        show 1024 * ((n - 1) / 16) + p.val = 1024 * (n / 16) + p.val
        omega
      have hk : (n - 1) % 16 + 1 = n % 16 := by omega
      rw [hr, hk] at hprev
      by_cases h1 : n % 16 = 15
      · rw [outsAt0_C m c ⟨n, hn⟩ h0 h1]
        exact caseC_holds m c ⟨n, hn⟩ h0 h1 _ p hprev
      · rw [outsAt0_B m c ⟨n, hn⟩ h0 h1]
        exact caseB_holds m c ⟨n, hn⟩ h0 h1 _ p hprev

/-- At a row block's last tile the running columns hold the rows' values after all sixteen tiles. -/
theorem last_holds (c : Dev nD) (t : Fin cfg0.N) (h1 : t.val % 16 = 15) (p : Fin 1024) :
    Holds m c (rowOf (grid0.coords t) p) 16 p (outsAt0 (F := Ideal) m c t.val t.isLt) := by
  have hh : Holds m c (rowOf (grid0.coords t) p) (t.val % 16 + 1) p (outsAt0 (F := Ideal) m c t.val t.isLt) :=
    outs_holds m c t.val t.isLt p
  have h16 : t.val % 16 + 1 = 16 := by omega
  rw [h16] at hh
  exact hh

/-- The two result buffers at a row block's last tile, as the loss column and the count column of that tile's own
    six running columns. -/
theorem outs_out6 (c : Dev nD) (t : Fin cfg0.N) (h1 : t.val % 16 = 15) :
    (outsAt0 (F := Ideal) m c t.val t.isLt).1
      = k0_pay3 (outsAt0 (F := Ideal) m c t.val t.isLt).2.2.2.2.2.1 (outsAt0 (F := Ideal) m c t.val t.isLt).2.2.2.2.2.2.1
          (outsAt0 (F := Ideal) m c t.val t.isLt).2.2.2.2.2.2.2 (outsAt0 (F := Ideal) m c t.val t.isLt).2.2.2.1
          (outsAt0 (F := Ideal) m c t.val t.isLt).2.2.2.2.1 (outsAt0 (F := Ideal) m c t.val t.isLt).2.2.1 := by
  have h0 : ¬t.val % 16 = 0 := by omega
  rw [outsAt0_C m c t h0 h1]
  exact caseC_out6 m c t h0 h1 _
theorem outs_out7 (c : Dev nD) (t : Fin cfg0.N) (h1 : t.val % 16 = 15) :
    (outsAt0 (F := Ideal) m c t.val t.isLt).2.1
      = k0_pay4 (outsAt0 (F := Ideal) m c t.val t.isLt).2.2.2.2.2.1 (outsAt0 (F := Ideal) m c t.val t.isLt).2.2.2.2.2.2.1
          (outsAt0 (F := Ideal) m c t.val t.isLt).2.2.2.2.2.2.2 (outsAt0 (F := Ideal) m c t.val t.isLt).2.2.2.1
          (outsAt0 (F := Ideal) m c t.val t.isLt).2.2.2.2.1 (outsAt0 (F := Ideal) m c t.val t.isLt).2.2.1 := by
  have h0 : ¬t.val % 16 = 0 := by omega
  rw [outsAt0_C m c t h0 h1]
  exact caseC_out7 m c t h0 h1 _

/-- The six running columns after position `n`, at local row `p`. -/
theorem run_inv (c : Dev nD) (n : ℕ) (hn : n < cfg0.N) (p : Fin 1024) :
    (outsAt0 (F := Ideal) m c n hn).2.2.1 (ix2 p (0 : Fin 1)) = run0 (Xk m c) (labK m c) (rowOf (grid0.coords ⟨n, hn⟩) p) (n % 16 + 1)
    ∧ (outsAt0 (F := Ideal) m c n hn).2.2.2.1 (ix2 p (0 : Fin 1)) = run1 (Xk m c) (labK m c) (grpK m c) (rowOf (grid0.coords ⟨n, hn⟩) p) (n % 16 + 1)
    ∧ (outsAt0 (F := Ideal) m c n hn).2.2.2.2.1 (ix2 p (0 : Fin 1)) = run2 (Xk m c) (labK m c) (rowOf (grid0.coords ⟨n, hn⟩) p) (n % 16 + 1)
    ∧ (outsAt0 (F := Ideal) m c n hn).2.2.2.2.2.1 (ix2 p (0 : Fin 1)) = run3 (labK m c) (rowOf (grid0.coords ⟨n, hn⟩) p) (n % 16 + 1)
    ∧ (outsAt0 (F := Ideal) m c n hn).2.2.2.2.2.2.1 (ix2 p (0 : Fin 1)) = run4 (labK m c) (grpK m c) (rowOf (grid0.coords ⟨n, hn⟩) p) (n % 16 + 1)
    ∧ (outsAt0 (F := Ideal) m c n hn).2.2.2.2.2.2.2 (ix2 p (0 : Fin 1)) = run5 (labK m c) (rowOf (grid0.coords ⟨n, hn⟩) p) (n % 16 + 1) :=
  outs_holds m c n hn p

/-- At the last tile of a row block the first result buffer holds the rows' contributions, -/
theorem out6_last (c : Dev nD) (t : Fin cfg0.N) (h1 : t.val % 16 = 15) (p : Fin 1024) :
    (outsAt0 (F := Ideal) m c t.val t.isLt).1 (ix2 p (0 : Fin 1)) = contrib (Xk m c) (labK m c) (grpK m c) (rowOf (grid0.coords t) p) := by
  have hh := last_holds m c t h1 p
  unfold Holds at hh
  obtain ⟨e0, e1, e2, e3, e4, e5⟩ := hh
  rw [outs_out6 m c t h1, pay3_apply, e0, e1, e2, e3, e4, e5]
  exact Cert.Spec.contrib_eq_run _ _ _ _

/-- and the second whether each row is counted. -/
theorem out7_last (c : Dev nD) (t : Fin cfg0.N) (h1 : t.val % 16 = 15) (p : Fin 1024) :
    (outsAt0 (F := Ideal) m c t.val t.isLt).2.1 (ix2 p (0 : Fin 1)) = inclF (Xk m c) (labK m c) (grpK m c) (rowOf (grid0.coords t) p) := by
  have hh := last_holds m c t h1 p
  unfold Holds at hh
  obtain ⟨e0, e1, e2, e3, e4, e5⟩ := hh
  rw [outs_out7 m c t h1, pay4_apply, e0, e1, e2, e3, e4, e5]
  exact Cert.Spec.inclF_eq_run _ _ _ _

end Cert.KernelIdeal.Hand

end
-- ==== Proof.KI.Final.lean ====
/-
  The two result columns after the run.

  Result window 6 (and 7 alike) writes its block back at the last tile of each row block: block `a` of the column,
  rows `1024 a .. 1024 a + 1023`, receives what the body left in the staging buffer at point `16 a + 15`. The eight
  blocks tile the column, so after the last write-back the column holds, at every row, that row's contribution
  (its count).
-/
import proofs.«141537_j90099823936181_1_alg».proof.Proof.KI.RowInv

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.Spec (run0 run1 run2 run3 run4 run5 contrib inclF lossOf)

/-! ### The two result windows' blocks -/

/-- At point `t` either result window sits on row block `t / 16` of its column, and on the column's one lane. -/
theorem index6 : ∀ t : Fin cfg0.N, win0_6.index t (0 : Fin 2) = t.val / 16 ∧ win0_6.index t (1 : Fin 2) = 0 :=
  (by decide +kernel : ∀ t : Fin grid0.N, _)
theorem index7 : ∀ t : Fin cfg0.N, win0_7.index t (0 : Fin 2) = t.val / 16 ∧ win0_7.index t (1 : Fin 2) = 0 :=
  (by decide +kernel : ∀ t : Fin grid0.N, _)

variable [Cert.KernelIdeal.Facts]

variable (m : (ℓ : Loc nD τ sig) → Buf (Elt Ideal) ℓ)

/-- The row an index of a result column names. -/
def rowIx (j : S8192x1.Idx) : Fin 8192 := ⟨(j 0).val, idx2_lt0 j⟩

/-- The two whole columns: every row's contribution, and whether every row is counted. -/
def contribCol (c : Dev nD) : FVec Ideal S8192x1 .f32 := fun j => contrib (Xk m c) (labK m c) (grpK m c) (rowIx j)
def inclCol (c : Dev nD) : FVec Ideal S8192x1 .f32 := fun j => inclF (Xk m c) (labK m c) (grpK m c) (rowIx j)

/-- What a flushing point writes back to the first column is its block of the whole column: local row `p` of the
    block at point `t` is row `1024 (t / 16) + p`. -/
theorem flushed6_eq (c : Dev nD) (t : Fin cfg0.N) (hf : (cfg0.win 6).flush t = true) :
    (dats (F := Ideal) m 0 c).flushed 6 t = ((cfg0.win 6).blk t).view.read (Elt Ideal) (contribCol m c) := by
  have h15 : t.val % 16 = 15 := (flush0_6 t).mp hf
  show (cfg0.win 6).cut (grid0.coords t) ((dats (F := Ideal) m 0 c).after 6 t) = _
  rw [after0_6]
  refine funext fun (j : S1024x1.Idx) => ?_
  obtain ⟨p, z, rfl⟩ : ∃ (p : Fin 1024) (z : Fin 1), j = ix2 p z := ⟨j 0, j 1, eq_ix2 j⟩
  obtain rfl : z = 0 := Subsingleton.elim _ _
  show (outsAt0 (F := Ideal) m c t.val t.isLt).1 (ix2 p (0 : Fin 1))
      = contribCol m c (((cfg0.win 6).blk t).view.emb (ix2 p (0 : Fin 1)))
  rw [out6_last m c t h15 p]
  unfold contribCol
  refine congrArg (contrib (Xk m c) (labK m c) (grpK m c)) (Fin.ext ?_)
  rw [rowOf_coords]
  show 1024 * (t.val / 16) + p.val = win0_6.index t (0 : Fin 2) * 1024 + 1 * p.val
  rw [(index6 t).1]; omega
theorem flushed7_eq (c : Dev nD) (t : Fin cfg0.N) (hf : (cfg0.win 7).flush t = true) :
    (dats (F := Ideal) m 0 c).flushed 7 t = ((cfg0.win 7).blk t).view.read (Elt Ideal) (inclCol m c) := by
  have h15 : t.val % 16 = 15 := (flush0_7 t).mp hf
  show (cfg0.win 7).cut (grid0.coords t) ((dats (F := Ideal) m 0 c).after 7 t) = _
  rw [after0_7]
  refine funext fun (j : S1024x1.Idx) => ?_
  obtain ⟨p, z, rfl⟩ : ∃ (p : Fin 1024) (z : Fin 1), j = ix2 p z := ⟨j 0, j 1, eq_ix2 j⟩
  obtain rfl : z = 0 := Subsingleton.elim _ _
  show (outsAt0 (F := Ideal) m c t.val t.isLt).2.1 (ix2 p (0 : Fin 1))
      = inclCol m c (((cfg0.win 7).blk t).view.emb (ix2 p (0 : Fin 1)))
  rw [out7_last m c t h15 p]
  unfold inclCol
  refine congrArg (inclF (Xk m c) (labK m c) (grpK m c)) (Fin.ext ?_)
  rw [rowOf_coords]
  show 1024 * (t.val / 16) + p.val = win0_7.index t (0 : Fin 2) * 1024 + 1 * p.val
  rw [(index7 t).1]; omega

/-- An index of a column is in point `t`'s block iff each coordinate is in the block's range on its axis. -/
theorem mem_blk6 (t : Fin cfg0.N) (i : S8192x1.Idx) :
    i ∈ ((cfg0.win 6).blk t).view.set ↔ ∀ a : Fin 2, win0_6.index t a * S1024x1.size a ≤ (i a).val ∧ (i a).val < win0_6.index t a * S1024x1.size a + S1024x1.size a := by
  show i ∈ ((View.whole main_v10_0).slice (win0_6.rect t)).set ↔ _
  rw [View.set_slice_whole, Rect.mem_set_unit]
  exact Iff.rfl
theorem mem_blk7 (t : Fin cfg0.N) (i : S8192x1.Idx) :
    i ∈ ((cfg0.win 7).blk t).view.set ↔ ∀ a : Fin 2, win0_7.index t a * S1024x1.size a ≤ (i a).val ∧ (i a).val < win0_7.index t a * S1024x1.size a + S1024x1.size a := by
  show i ∈ ((View.whole main_v10_1).slice (win0_7.rect t)).set ↔ _
  rw [View.set_slice_whole, Rect.mem_set_unit]
  exact Iff.rfl

/-- The last tile of row block `r / 1024`. -/
theorem lastTile (r : ℕ) (hr : r < 8192) : ∃ t : Fin cfg0.N, t.val = 16 * (r / 1024) + 15 :=
  ⟨⟨16 * (r / 1024) + 15, by have hN : cfg0.N = 128 := N_0; omega⟩, rfl⟩

/-- The blocks written back tile each column: row `r` is in the block of the last tile of row block `r / 1024`. -/
theorem cover6 (i : S8192x1.Idx) : ∃ t : Fin cfg0.N, (cfg0.win 6).flush t = true ∧ i ∈ ((cfg0.win 6).blk t).view.set := by
  have hi0 : (i 0).val < 8192 := (i 0).isLt
  have hi1 : (i 1).val < 1 := (i 1).isLt
  obtain ⟨t, ht⟩ := lastTile (i 0).val hi0
  obtain ⟨e0, e1⟩ := index6 t
  refine ⟨t, (flush0_6 t).mpr (by omega), ?_⟩
  rw [mem_blk6]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 1 ≤ (i 1).val ∧ (i 1).val < win0_6.index t (1 : Fin 2) * 1 + 1; omega
theorem cover7 (i : S8192x1.Idx) : ∃ t : Fin cfg0.N, (cfg0.win 7).flush t = true ∧ i ∈ ((cfg0.win 7).blk t).view.set := by
  have hi0 : (i 0).val < 8192 := (i 0).isLt
  have hi1 : (i 1).val < 1 := (i 1).isLt
  obtain ⟨t, ht⟩ := lastTile (i 0).val hi0
  obtain ⟨e0, e1⟩ := index7 t
  refine ⟨t, (flush0_7 t).mpr (by omega), ?_⟩
  rw [mem_blk7]
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 1 ≤ (i 1).val ∧ (i 1).val < win0_7.index t (1 : Fin 2) * 1 + 1; omega

/-- So each column ends holding its whole-column function. -/
theorem final6 (c : Dev nD) : (dats (F := Ideal) m 0 c).arrAt 6 cfg0.N = contribCol m c :=
  (dats (F := Ideal) m 0 c).arrAt_eq_of_cover 6 (contribCol m c) (flushed6_eq m c) cover6
theorem final7 (c : Dev nD) : (dats (F := Ideal) m 0 c).arrAt 7 cfg0.N = inclCol m c :=
  (dats (F := Ideal) m 0 c).arrAt_eq_of_cover 7 (inclCol m c) (flushed7_eq m c) cover7

/-- The first result column after the run holds every row's contribution, -/
theorem contrib_final (c : Dev nD) (r : Fin 8192) :
    ((dats (F := Ideal) m 0 c).arrAt 6 cfg0.N : FVec Ideal S8192x1 .f32) (ix2 r (0 : Fin 1)) = contrib (Xk m c) (labK m c) (grpK m c) r := by
  rw [final6]; rfl

/-- and the second whether each row is counted. -/
theorem include_final (c : Dev nD) (r : Fin 8192) :
    ((dats (F := Ideal) m 0 c).arrAt 7 cfg0.N : FVec Ideal S8192x1 .f32) (ix2 r (0 : Fin 1)) = inclF (Xk m c) (labK m c) (grpK m c) r := by
  rw [final7]; rfl

end Cert.KernelIdeal.Hand

end
-- ==== Proof.KI.Tail.lean ====
/-
  The lines of @main after the region: the two result columns summed, and the scalar tail.

  Sixteen host operations: each column of 8192 entries is summed from 0 (a sum over every index of the
  column), the count is compared with 0 and clamped below by 1, the quotient is selected where the count is
  positive, and the value is replaced by 0 where it is unequal to itself. Read at the rank-0 index this is the
  specification's tail of the two sums.
-/
import proofs.«141537_j90099823936181_1_alg».proof.Proof.KI.Entry
import proofs.«141537_j90099823936181_1_alg».proof.Proof.Spec
import Idealize.ShloMosaic.Lib.StableHlo.Run
import Idealize.ShloMosaic.PureOps.Ideal.Laws
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable [Cert.KernelIdeal.Facts]

/-- The host sum of a column of 8192 entries over both of its axes, from the initial value 0, into the rank-0 shape:
    the result shape has no axis, so the sum runs over every index of the column; the initial value is the real 0;
    and an index of the column is a row coordinate together with the one value of the second coordinate, so the
    double sum collapses to the sum over the rows. -/
theorem colSum (x : FVec Ideal S8192x1 .f32) :
    (Host.reduceAdd x (constant (F := Ideal) S_ .f32 0x00000000#32) reducesTo_S8192x1_S_d0_1 h_S_ : FVec Ideal S_ .f32)
      = fun _ => ∑ r : Fin 8192, x (ix2 r (0 : Fin 1)) := by
  funext j
  show Ideal.hostReduceAdd reducesTo_S8192x1_S_d0_1 x (Ideal.ofBits .f32 0x00000000#32) j = _
  rw [Ideal.hostReduceAdd_total _ (fun b => b.elim0), Ideal.ofBits_zero_f32, zero_add, sum_idx2]
  exact Finset.sum_congr rfl fun r _ => Fin.sum_univ_one _

open Idealize.ShloMosaic.StableHlo in
/-- From any valuation, the lines after the region leave in the result buffer the specification's tail of the sums of
    the two columns the valuation holds. -/
theorem tail_eq (W : Valuation τ sig (Elt Ideal)) :
    (StableHlo.after (tailOps (F := Ideal)) W (Proc.devRef .tc main_v18) : FVec Ideal S_ .f32)
      = Cert.Spec.tail
          (fun _ => ∑ r : Fin 8192, (W (Proc.devRef .tc main_v10_0) : FVec Ideal S8192x1 .f32) (ix2 r (0 : Fin 1)))
          (fun _ => ∑ r : Fin 8192, (W (Proc.devRef .tc main_v10_1) : FVec Ideal S8192x1 .f32) (ix2 r (0 : Fin 1))) := by
  -- the four stretches as one list of sixteen operations
  simp only [tailOps, hostOps1, hostOps1_1, hostOps1_2, hostOps1_3, List.flatten_cons, List.flatten_nil, List.append_nil,
    List.cons_append, List.nil_append]
  -- each operation read at its own result and skipped at every other reference: the result buffer holds the
  -- operations composed, applied to the two columns
  after_results_simp
  -- the typed references of the two inlined selections carry their buffers' own types: the transports are identities
  simp only [TRef.ofBuf, TRef.toBuf, cast_eq, id]
  -- the two host sums are the sums over the rows; what is left is the specification's tail, word for word
  rw [colSum (W (Proc.devRef .tc main_v10_0)), colSum (W (Proc.devRef .tc main_v10_1))]
  rfl

end Cert.KernelIdeal.Hand

end
-- ==== Proof.KI.Result.lean ====
/-
  The kernel's run at the specification.

  The result is the tail of the sums of the two columns the region left; the first column holds every row's
  contribution and the second whether it is counted, so the result is the specification's of the normalised
  embeddings, the labels and the groups.
-/
import proofs.«141537_j90099823936181_1_alg».proof.Proof.KI.Run
import proofs.«141537_j90099823936181_1_alg».proof.Proof.KI.Final
import proofs.«141537_j90099823936181_1_alg».proof.Proof.KI.Tail

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The lines after the region, run from what the region left, give the specification's result. -/
theorem result_eq (c : Dev nD) :
    (StableHlo.after (tailOps (F := Ideal)) (Wfin m (dats m) c) (Proc.devRef .tc main_v18) : FVec Ideal S_ .f32)
      = Cert.Spec.final (Xk m c) (labK m c) (grpK m c) := by
  rw [tail_eq, Wfin_contrib, Wfin_include]
  simp only [contrib_final, include_final]
  rfl

/-- THE KERNEL'S RUN, at the specification. -/
theorem run_spec :
    θ_run (defs (F := Ideal)) (onTc (τ := τ) (main (F := Ideal))) ⟨m, fun _ => 0, ρ⟩ (fun r => ∀ c : Dev nD,
      (r.2.mem ((c.tc : Thread nD τ).loc main_v18) : FVec Ideal S_ .f32) = Cert.Spec.final (Xk m c) (labK m c) (grpK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (result_eq m c), (h c).2⟩) (run_main (F := Ideal) m ρ)

end Cert.KernelIdeal.Hand

end
-- ==== Proof.RefRunHand.lean ====
/-
  The reference's run, read at its stages.

  The reference is a straight line of 91 host operations in single-assignment form: each writes a buffer of its own and
  reads only arguments and buffers written before it. Its result buffer therefore ends at the last stage of the
  operation-by-operation reading `val_main_v56` of the three arguments. The line is cut into seven stretches where few
  values are live; for each stretch the buffers still read later are shown to hold their stages after it, given that the
  buffers it reads held theirs before it, and the stretches compose along the cut.
-/
import proofs.«141537_j90099823936181_1_alg».proof.Proof.RefRun
import proofs.«141537_j90099823936181_1_alg».proof.Proof.RefRead

noncomputable section

namespace Cert.ReferenceIdeal.RunHand

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- Operations 1 to 15: the normalisation, the product with its transpose, and one minus it. -/
abbrev opsA : List (HloOp τ sig (Elt F)) :=
  [ TRef.binary (TRef.of (T := ⟨S8192x128, .f32⟩) main_arg0) (TRef.of (T := ⟨S8192x128, .f32⟩) main_arg0) (TRef.of (T := ⟨S8192x128, .f32⟩) main_call0_v0) mulf,
    TRef.nullary (TRef.of (T := ⟨S_, .f32⟩) main_call0_cst) (constant S_ .f32 0x00000000#32),
    TRef.binary (TRef.of (T := ⟨S8192x128, .f32⟩) main_call0_v0) (TRef.of (T := ⟨S_, .f32⟩) main_call0_cst) (TRef.of (T := ⟨S8192, .f32⟩) main_call0_v1) (fun x v => Host.reduceAdd x v reducesTo_S8192x128_S8192_d1 h_S_),
    TRef.unary (TRef.of (T := ⟨S8192, .f32⟩) main_call0_v1) (TRef.of (T := ⟨S8192x1, .f32⟩) main_call0_v2) (broadcastInDim S8192x1 ![0] bcast_S8192_S8192x1_0),
    TRef.unary (TRef.of (T := ⟨S8192x1, .f32⟩) main_call0_v2) (TRef.of (T := ⟨S8192x1, .f32⟩) main_v0) Host.sqrt,
    nullary main_cst (constant S_ .f32 0x2B8CBCCC#32),
    unary main_cst main_v1 (broadcastInDim S8192x1 ![] bcast_S_S8192x1 : (⟨S_, .f32⟩ : BufTy).Contents (Elt F) → (⟨S8192x1, .f32⟩ : BufTy).Contents (Elt F)),
    binary main_v0 main_v1 main_v2 (maximumf : (⟨S8192x1, .f32⟩ : BufTy).Contents (Elt F) → (⟨S8192x1, .f32⟩ : BufTy).Contents (Elt F) → (⟨S8192x1, .f32⟩ : BufTy).Contents (Elt F)),
    unary main_v2 main_v3 (broadcastInDim S8192x128 ![0, 1] bcast_S8192x1_S8192x128_0_1 : (⟨S8192x1, .f32⟩ : BufTy).Contents (Elt F) → (⟨S8192x128, .f32⟩ : BufTy).Contents (Elt F)),
    binary main_arg0 main_v3 main_v4 (Host.divf : (⟨S8192x128, .f32⟩ : BufTy).Contents (Elt F) → (⟨S8192x128, .f32⟩ : BufTy).Contents (Elt F) → (⟨S8192x128, .f32⟩ : BufTy).Contents (Elt F)),
    unary main_v4 main_v5 ((transpose S128x8192 [1, 0] · transposes_S8192x128_S128x8192_1_0) : (⟨S8192x128, .f32⟩ : BufTy).Contents (Elt F) → (⟨S128x8192, .f32⟩ : BufTy).Contents (Elt F)),
    binary main_v4 main_v5 main_v6 ((fun l r => Host.dotGeneral dot_S8192x128_S128x8192_S8192x8192_1_0_0_1_n_n none l r) : (⟨S8192x128, .f32⟩ : BufTy).Contents (Elt F) → (⟨S128x8192, .f32⟩ : BufTy).Contents (Elt F) → (⟨S8192x8192, .f32⟩ : BufTy).Contents (Elt F)),
    nullary main_cst_0 (constant S_ .f32 0x3F800000#32),
    unary main_cst_0 main_v7 (broadcastInDim S8192x8192 ![] bcast_S_S8192x8192 : (⟨S_, .f32⟩ : BufTy).Contents (Elt F) → (⟨S8192x8192, .f32⟩ : BufTy).Contents (Elt F)),
    binary main_v7 main_v6 main_v8 (subf : (⟨S8192x8192, .f32⟩ : BufTy).Contents (Elt F) → (⟨S8192x8192, .f32⟩ : BufTy).Contents (Elt F) → (⟨S8192x8192, .f32⟩ : BufTy).Contents (Elt F)) ]

/-- Operations 16 to 29: the diagonal, the label comparison, the positive and the negative mask. -/
abbrev opsB : List (HloOp τ sig (Elt F)) :=
  [ nullary main_v9 (iotaInDim S8192x8192 32 0),
    nullary main_v10 (iotaInDim S8192x8192 32 1),
    nullary main_c (constantI S_ 32 0#32),
    unary main_c main_v11 (broadcastInDim S8192x8192 ![] bcast_S_S8192x8192 : (⟨S_, .i32⟩ : BufTy).Contents (Elt F) → (⟨S8192x8192, .i32⟩ : BufTy).Contents (Elt F)),
    binary main_v9 main_v11 main_v12 (addi : (⟨S8192x8192, .i32⟩ : BufTy).Contents (Elt F) → (⟨S8192x8192, .i32⟩ : BufTy).Contents (Elt F) → (⟨S8192x8192, .i32⟩ : BufTy).Contents (Elt F)),
    binary main_v12 main_v10 main_v13 (cmpi .eq : (⟨S8192x8192, .i32⟩ : BufTy).Contents (Elt F) → (⟨S8192x8192, .i32⟩ : BufTy).Contents (Elt F) → (⟨S8192x8192, .i1⟩ : BufTy).Contents (Elt F)),
    unary main_arg1 main_v14 (broadcastInDim S8192x1 ![0] bcast_S8192_S8192x1_0 : (⟨S8192, .i32⟩ : BufTy).Contents (Elt F) → (⟨S8192x1, .i32⟩ : BufTy).Contents (Elt F)),
    unary main_arg1 main_v15 (broadcastInDim S1x8192 ![1] bcast_S8192_S1x8192_1 : (⟨S8192, .i32⟩ : BufTy).Contents (Elt F) → (⟨S1x8192, .i32⟩ : BufTy).Contents (Elt F)),
    unary main_v14 main_v16 (broadcastInDim S8192x8192 ![0, 1] bcast_S8192x1_S8192x8192_0_1 : (⟨S8192x1, .i32⟩ : BufTy).Contents (Elt F) → (⟨S8192x8192, .i32⟩ : BufTy).Contents (Elt F)),
    unary main_v15 main_v17 (broadcastInDim S8192x8192 ![0, 1] bcast_S1x8192_S8192x8192_0_1 : (⟨S1x8192, .i32⟩ : BufTy).Contents (Elt F) → (⟨S8192x8192, .i32⟩ : BufTy).Contents (Elt F)),
    binary main_v16 main_v17 main_v18 (cmpi .eq : (⟨S8192x8192, .i32⟩ : BufTy).Contents (Elt F) → (⟨S8192x8192, .i32⟩ : BufTy).Contents (Elt F) → (⟨S8192x8192, .i1⟩ : BufTy).Contents (Elt F)),
    unary main_v13 main_v19 (noti : (⟨S8192x8192, .i1⟩ : BufTy).Contents (Elt F) → (⟨S8192x8192, .i1⟩ : BufTy).Contents (Elt F)),
    binary main_v18 main_v19 main_v20 (andi : (⟨S8192x8192, .i1⟩ : BufTy).Contents (Elt F) → (⟨S8192x8192, .i1⟩ : BufTy).Contents (Elt F) → (⟨S8192x8192, .i1⟩ : BufTy).Contents (Elt F)),
    unary main_v18 main_v21 (noti : (⟨S8192x8192, .i1⟩ : BufTy).Contents (Elt F) → (⟨S8192x8192, .i1⟩ : BufTy).Contents (Elt F)) ]

/-- Operations 30 to 35: the group comparison and the same-group negative mask. -/
abbrev opsC : List (HloOp τ sig (Elt F)) :=
  [ unary main_arg2 main_v22 (broadcastInDim S8192x1 ![0] bcast_S8192_S8192x1_0 : (⟨S8192, .i32⟩ : BufTy).Contents (Elt F) → (⟨S8192x1, .i32⟩ : BufTy).Contents (Elt F)),
    unary main_arg2 main_v23 (broadcastInDim S1x8192 ![1] bcast_S8192_S1x8192_1 : (⟨S8192, .i32⟩ : BufTy).Contents (Elt F) → (⟨S1x8192, .i32⟩ : BufTy).Contents (Elt F)),
    unary main_v22 main_v24 (broadcastInDim S8192x8192 ![0, 1] bcast_S8192x1_S8192x8192_0_1 : (⟨S8192x1, .i32⟩ : BufTy).Contents (Elt F) → (⟨S8192x8192, .i32⟩ : BufTy).Contents (Elt F)),
    unary main_v23 main_v25 (broadcastInDim S8192x8192 ![0, 1] bcast_S1x8192_S8192x8192_0_1 : (⟨S1x8192, .i32⟩ : BufTy).Contents (Elt F) → (⟨S8192x8192, .i32⟩ : BufTy).Contents (Elt F)),
    binary main_v24 main_v25 main_v26 (cmpi .eq : (⟨S8192x8192, .i32⟩ : BufTy).Contents (Elt F) → (⟨S8192x8192, .i32⟩ : BufTy).Contents (Elt F) → (⟨S8192x8192, .i1⟩ : BufTy).Contents (Elt F)),
    binary main_v21 main_v26 main_v27 (andi : (⟨S8192x8192, .i1⟩ : BufTy).Contents (Elt F) → (⟨S8192x8192, .i1⟩ : BufTy).Contents (Elt F) → (⟨S8192x8192, .i1⟩ : BufTy).Contents (Elt F)) ]

/-- Operations 36 to 51: the three masked distance arrays and their row maximum and minima. -/
abbrev opsD : List (HloOp τ sig (Elt F)) :=
  [ nullary main_cst_1 (constant S_ .f32 0x4E6E6B28#32),
    unary main_cst_1 main_v28 (Host.negf : (⟨S_, .f32⟩ : BufTy).Contents (Elt F) → (⟨S_, .f32⟩ : BufTy).Contents (Elt F)),
    TRef.unary (TRef.of (T := ⟨S_, .f32⟩) main_v28) (TRef.of (T := ⟨S8192x8192, .f32⟩) main_call1_v0) (broadcastInDim S8192x8192 ![] bcast_S_S8192x8192),
    TRef.ternary (TRef.of (T := ⟨S8192x8192, .i1⟩) main_v20) (TRef.of (T := ⟨S8192x8192, .f32⟩) main_v8) (TRef.of (T := ⟨S8192x8192, .f32⟩) main_call1_v0) (TRef.of (T := ⟨S8192x8192, .f32⟩) main_v29) select,
    nullary main_cst_2 (constant S_ .f32 0xFF800000#32),
    binary main_v29 main_cst_2 main_v30 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_3 (constant S_ .f32 0x4E6E6B28#32),
    TRef.unary (TRef.of (T := ⟨S_, .f32⟩) main_cst_3) (TRef.of (T := ⟨S8192x8192, .f32⟩) main_call2_v0) (broadcastInDim S8192x8192 ![] bcast_S_S8192x8192),
    TRef.ternary (TRef.of (T := ⟨S8192x8192, .i1⟩) main_v27) (TRef.of (T := ⟨S8192x8192, .f32⟩) main_v8) (TRef.of (T := ⟨S8192x8192, .f32⟩) main_call2_v0) (TRef.of (T := ⟨S8192x8192, .f32⟩) main_v31) select,
    nullary main_cst_4 (constant S_ .f32 0x7F800000#32),
    binary main_v31 main_cst_4 main_v32 ((fun x v => Host.reduce FloatOps.minimumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_5 (constant S_ .f32 0x4E6E6B28#32),
    TRef.unary (TRef.of (T := ⟨S_, .f32⟩) main_cst_5) (TRef.of (T := ⟨S8192x8192, .f32⟩) main_call3_v0) (broadcastInDim S8192x8192 ![] bcast_S_S8192x8192),
    TRef.ternary (TRef.of (T := ⟨S8192x8192, .i1⟩) main_v21) (TRef.of (T := ⟨S8192x8192, .f32⟩) main_v8) (TRef.of (T := ⟨S8192x8192, .f32⟩) main_call3_v0) (TRef.of (T := ⟨S8192x8192, .f32⟩) main_v33) select,
    nullary main_cst_6 (constant S_ .f32 0x7F800000#32),
    binary main_v33 main_cst_6 main_v34 ((fun x v => Host.reduce FloatOps.minimumf x v reducesTo_S8192x8192_S8192_d1 h_S_) : (⟨S8192x8192, .f32⟩ : BufTy).Contents (Elt F) → (⟨S_, .f32⟩ : BufTy).Contents (Elt F) → (⟨S8192, .f32⟩ : BufTy).Contents (Elt F)) ]

/-- Operations 52 to 57: the three row flags. -/
abbrev opsE : List (HloOp τ sig (Elt F)) :=
  [ nullary main_c_7 (constantI S_ 1 0#1),
    binary main_v20 main_c_7 main_v35 ((fun x v => Host.reduce IntOp.ori x v reducesTo_S8192x8192_S8192_d1 h_S_) : (⟨S8192x8192, .i1⟩ : BufTy).Contents (Elt F) → (⟨S_, .i1⟩ : BufTy).Contents (Elt F) → (⟨S8192, .i1⟩ : BufTy).Contents (Elt F)),
    nullary main_c_8 (constantI S_ 1 0#1),
    binary main_v27 main_c_8 main_v36 ((fun x v => Host.reduce IntOp.ori x v reducesTo_S8192x8192_S8192_d1 h_S_) : (⟨S8192x8192, .i1⟩ : BufTy).Contents (Elt F) → (⟨S_, .i1⟩ : BufTy).Contents (Elt F) → (⟨S8192, .i1⟩ : BufTy).Contents (Elt F)),
    nullary main_c_9 (constantI S_ 1 0#1),
    binary main_v21 main_c_9 main_v37 ((fun x v => Host.reduce IntOp.ori x v reducesTo_S8192x8192_S8192_d1 h_S_) : (⟨S8192x8192, .i1⟩ : BufTy).Contents (Elt F) → (⟨S_, .i1⟩ : BufTy).Contents (Elt F) → (⟨S8192, .i1⟩ : BufTy).Contents (Elt F)) ]

/-- Operations 58 to 66: the negative distance used, the row loss, and the flag of a row with a positive and a negative. -/
abbrev opsF : List (HloOp τ sig (Elt F)) :=
  [ TRef.ternary (TRef.of (T := ⟨S8192, .i1⟩) main_v36) (TRef.of (T := ⟨S8192, .f32⟩) main_v32) (TRef.of (T := ⟨S8192, .f32⟩) main_v34) (TRef.of (T := ⟨S8192, .f32⟩) main_v38) select,
    binary main_v30 main_v38 main_v39 (subf : (⟨S8192, .f32⟩ : BufTy).Contents (Elt F) → (⟨S8192, .f32⟩ : BufTy).Contents (Elt F) → (⟨S8192, .f32⟩ : BufTy).Contents (Elt F)),
    nullary main_cst_10 (constant S_ .f32 0x3DCCCCCD#32),
    unary main_cst_10 main_v40 (broadcastInDim S8192 ![] bcast_S_S8192 : (⟨S_, .f32⟩ : BufTy).Contents (Elt F) → (⟨S8192, .f32⟩ : BufTy).Contents (Elt F)),
    binary main_v39 main_v40 main_v41 (addf : (⟨S8192, .f32⟩ : BufTy).Contents (Elt F) → (⟨S8192, .f32⟩ : BufTy).Contents (Elt F) → (⟨S8192, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S8192, .f32⟩) main_call5_v0) (broadcastInDim S8192 ![] bcast_S_S8192),
    TRef.binary (TRef.of (T := ⟨S8192, .f32⟩) main_v41) (TRef.of (T := ⟨S8192, .f32⟩) main_call5_v0) (TRef.of (T := ⟨S8192, .f32⟩) main_v42) maximumf,
    binary main_v35 main_v37 main_v43 (andi : (⟨S8192, .i1⟩ : BufTy).Contents (Elt F) → (⟨S8192, .i1⟩ : BufTy).Contents (Elt F) → (⟨S8192, .i1⟩ : BufTy).Contents (Elt F)) ]

/-- Operations 67 to 79: the counted rows, their number and the sum of their losses. -/
abbrev opsG : List (HloOp τ sig (Elt F)) :=
  [ nullary main_cst_11 (constant S_ .f32 0x00000000#32),
    unary main_cst_11 main_v44 (broadcastInDim S8192 ![] bcast_S_S8192 : (⟨S_, .f32⟩ : BufTy).Contents (Elt F) → (⟨S8192, .f32⟩ : BufTy).Contents (Elt F)),
    binary main_v42 main_v44 main_v45 (cmpf (F := F) .ogt : (⟨S8192, .f32⟩ : BufTy).Contents (Elt F) → (⟨S8192, .f32⟩ : BufTy).Contents (Elt F) → (⟨S8192, .i1⟩ : BufTy).Contents (Elt F)),
    binary main_v43 main_v45 main_v46 (andi : (⟨S8192, .i1⟩ : BufTy).Contents (Elt F) → (⟨S8192, .i1⟩ : BufTy).Contents (Elt F) → (⟨S8192, .i1⟩ : BufTy).Contents (Elt F)),
    unary main_v46 main_v47 (uitofp (F := F) .f32 : (⟨S8192, .i1⟩ : BufTy).Contents (Elt F) → (⟨S8192, .f32⟩ : BufTy).Contents (Elt F)),
    nullary main_cst_12 (constant S_ .f32 0x00000000#32),
    binary main_v47 main_cst_12 main_v48 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_13 (constant S_ .f32 0x00000000#32),
    TRef.unary (TRef.of (T := ⟨S_, .f32⟩) main_cst_13) (TRef.of (T := ⟨S_, .f32⟩) main_call6_v0) id,
    TRef.unary (TRef.of (T := ⟨S_, .f32⟩) main_call6_v0) (TRef.of (T := ⟨S8192, .f32⟩) main_call6_v1) (broadcastInDim S8192 ![] bcast_S_S8192),
    TRef.ternary (TRef.of (T := ⟨S8192, .i1⟩) main_v46) (TRef.of (T := ⟨S8192, .f32⟩) main_v42) (TRef.of (T := ⟨S8192, .f32⟩) main_call6_v1) (TRef.of (T := ⟨S8192, .f32⟩) main_v49) select,
    nullary main_cst_14 (constant S_ .f32 0x00000000#32),
    binary main_v49 main_cst_14 main_v50 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)) ]

/-- Operations 80 to 91: the scalar tail. -/
abbrev opsH : List (HloOp τ sig (Elt F)) :=
  [ nullary main_cst_15 (constant S_ .f32 0x00000000#32),
    binary main_v48 main_cst_15 main_v51 (cmpf (F := F) .ogt : (⟨S_, .f32⟩ : BufTy).Contents (Elt F) → (⟨S_, .f32⟩ : BufTy).Contents (Elt F) → (⟨S_, .i1⟩ : BufTy).Contents (Elt F)),
    nullary main_cst_16 (constant S_ .f32 0x3F800000#32),
    binary main_v48 main_cst_16 main_v52 (maximumf : (⟨S_, .f32⟩ : BufTy).Contents (Elt F) → (⟨S_, .f32⟩ : BufTy).Contents (Elt F) → (⟨S_, .f32⟩ : BufTy).Contents (Elt F)),
    binary main_v50 main_v52 main_v53 (Host.divf : (⟨S_, .f32⟩ : BufTy).Contents (Elt F) → (⟨S_, .f32⟩ : BufTy).Contents (Elt F) → (⟨S_, .f32⟩ : BufTy).Contents (Elt F)),
    nullary main_cst_17 (constant S_ .f32 0x00000000#32),
    TRef.unary (TRef.of (T := ⟨S_, .f32⟩) main_cst_17) (TRef.of (T := ⟨S_, .f32⟩) main_call7_v0) id,
    TRef.ternary (TRef.of (T := ⟨S_, .i1⟩) main_v51) (TRef.of (T := ⟨S_, .f32⟩) main_v53) (TRef.of (T := ⟨S_, .f32⟩) main_call7_v0) (TRef.of (T := ⟨S_, .f32⟩) main_v54) select,
    binary main_v54 main_v54 main_v55 (cmpf (F := F) .une : (⟨S_, .f32⟩ : BufTy).Contents (Elt F) → (⟨S_, .f32⟩ : BufTy).Contents (Elt F) → (⟨S_, .i1⟩ : BufTy).Contents (Elt F)),
    nullary main_cst_18 (constant S_ .f32 0x00000000#32),
    TRef.unary (TRef.of (T := ⟨S_, .f32⟩) main_cst_18) (TRef.of (T := ⟨S_, .f32⟩) main_call8_v0) id,
    TRef.ternary (TRef.of (T := ⟨S_, .i1⟩) main_v55) (TRef.of (T := ⟨S_, .f32⟩) main_call8_v0) (TRef.of (T := ⟨S_, .f32⟩) main_v54) (TRef.of (T := ⟨S_, .f32⟩) main_v56) select ]

/-- Running two lines one after the other is running their concatenation. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-- One buffer after a stretch: each operation's result at its own buffer is its function of what its operands held, any
    other buffer keeps what it held; the hypotheses say what the stretch's inputs held; what is left is the definitions of
    the stages the stretch writes, unfolded. -/
local macro "stage_of" "[" hs:Lean.Parser.Tactic.simpLemma,* "]" : tactic =>
  `(tactic| (after_results_simp
             (try simp only [TRef.ofBuf, TRef.toBuf, cast_eq])
             (try simp only [*])
             (try simp only [$hs,*])))

section Stretches
variable (V : Valuation τ sig (Elt F))
variable (x0 : (⟨S8192x128, .f32⟩ : BufTy).Contents (Elt F)) (x1 x2 : (⟨S8192, .i32⟩ : BufTy).Contents (Elt F))

/-- After the first stretch: the distance matrix; the labels and groups untouched. -/
theorem stageA (h0 : V (Proc.devRef .tc main_arg0) = x0) (h1 : V (Proc.devRef .tc main_arg1) = x1)
    (h2 : V (Proc.devRef .tc main_arg2) = x2) :
    after opsA V (Proc.devRef .tc main_v8) = val_main_v8 (F := F) x0
    ∧ after opsA V (Proc.devRef .tc main_arg1) = x1
    ∧ after opsA V (Proc.devRef .tc main_arg2) = x2 := by
  refine ⟨?_, ?_, ?_⟩ <;>
    stage_of [val_main_v8, val_main_v7, val_main_cst_0, val_main_v6, val_main_v5, val_main_v4, val_main_v3, val_main_v2,
      val_main_v1, val_main_cst, val_main_v0, val_main_call0_v2, val_main_call0_v1, val_main_call0_cst, val_main_call0_v0]

/-- After the second: the positive and the negative mask. -/
theorem stageB (h8 : V (Proc.devRef .tc main_v8) = val_main_v8 (F := F) x0) (h1 : V (Proc.devRef .tc main_arg1) = x1)
    (h2 : V (Proc.devRef .tc main_arg2) = x2) :
    after opsB V (Proc.devRef .tc main_v20) = val_main_v20 (F := F) x1
    ∧ after opsB V (Proc.devRef .tc main_v21) = val_main_v21 (F := F) x1
    ∧ after opsB V (Proc.devRef .tc main_v8) = val_main_v8 (F := F) x0
    ∧ after opsB V (Proc.devRef .tc main_arg2) = x2 := by
  refine ⟨?_, ?_, ?_, ?_⟩ <;>
    stage_of [val_main_v21, val_main_v20, val_main_v19, val_main_v18, val_main_v17, val_main_v16, val_main_v15, val_main_v14,
      val_main_v13, val_main_v12, val_main_v11, val_main_c, val_main_v10, val_main_v9]

/-- After the third: the same-group negative mask. -/
theorem stageC (h20 : V (Proc.devRef .tc main_v20) = val_main_v20 (F := F) x1)
    (h21 : V (Proc.devRef .tc main_v21) = val_main_v21 (F := F) x1)
    (h8 : V (Proc.devRef .tc main_v8) = val_main_v8 (F := F) x0) (h2 : V (Proc.devRef .tc main_arg2) = x2) :
    after opsC V (Proc.devRef .tc main_v27) = val_main_v27 (F := F) x1 x2
    ∧ after opsC V (Proc.devRef .tc main_v20) = val_main_v20 (F := F) x1
    ∧ after opsC V (Proc.devRef .tc main_v21) = val_main_v21 (F := F) x1
    ∧ after opsC V (Proc.devRef .tc main_v8) = val_main_v8 (F := F) x0 := by
  refine ⟨?_, ?_, ?_, ?_⟩ <;>
    stage_of [val_main_v27, val_main_v26, val_main_v25, val_main_v24, val_main_v23, val_main_v22]

/-- After the fourth: the hardest positive, same-group negative and negative of every row. -/
theorem stageD (h27 : V (Proc.devRef .tc main_v27) = val_main_v27 (F := F) x1 x2)
    (h20 : V (Proc.devRef .tc main_v20) = val_main_v20 (F := F) x1)
    (h21 : V (Proc.devRef .tc main_v21) = val_main_v21 (F := F) x1)
    (h8 : V (Proc.devRef .tc main_v8) = val_main_v8 (F := F) x0) :
    after opsD V (Proc.devRef .tc main_v30) = val_main_v30 (F := F) x0 x1
    ∧ after opsD V (Proc.devRef .tc main_v32) = val_main_v32 (F := F) x0 x1 x2
    ∧ after opsD V (Proc.devRef .tc main_v34) = val_main_v34 (F := F) x0 x1
    ∧ after opsD V (Proc.devRef .tc main_v20) = val_main_v20 (F := F) x1
    ∧ after opsD V (Proc.devRef .tc main_v27) = val_main_v27 (F := F) x1 x2
    ∧ after opsD V (Proc.devRef .tc main_v21) = val_main_v21 (F := F) x1 := by
  refine ⟨?_, ?_, ?_, ?_, ?_, ?_⟩ <;>
    stage_of [val_main_v34, val_main_cst_6, val_main_v33, val_main_call3_v0, val_main_cst_5, val_main_v32, val_main_cst_4,
      val_main_v31, val_main_call2_v0, val_main_cst_3, val_main_v30, val_main_cst_2, val_main_v29, val_main_call1_v0,
      val_main_v28, val_main_cst_1]

/-- After the fifth: whether each row has a positive, a same-group negative, a negative. -/
theorem stageE (h30 : V (Proc.devRef .tc main_v30) = val_main_v30 (F := F) x0 x1)
    (h32 : V (Proc.devRef .tc main_v32) = val_main_v32 (F := F) x0 x1 x2)
    (h34 : V (Proc.devRef .tc main_v34) = val_main_v34 (F := F) x0 x1)
    (h20 : V (Proc.devRef .tc main_v20) = val_main_v20 (F := F) x1)
    (h27 : V (Proc.devRef .tc main_v27) = val_main_v27 (F := F) x1 x2)
    (h21 : V (Proc.devRef .tc main_v21) = val_main_v21 (F := F) x1) :
    after opsE V (Proc.devRef .tc main_v35) = val_main_v35 (F := F) x1
    ∧ after opsE V (Proc.devRef .tc main_v36) = val_main_v36 (F := F) x1 x2
    ∧ after opsE V (Proc.devRef .tc main_v37) = val_main_v37 (F := F) x1
    ∧ after opsE V (Proc.devRef .tc main_v30) = val_main_v30 (F := F) x0 x1
    ∧ after opsE V (Proc.devRef .tc main_v32) = val_main_v32 (F := F) x0 x1 x2
    ∧ after opsE V (Proc.devRef .tc main_v34) = val_main_v34 (F := F) x0 x1 := by
  refine ⟨?_, ?_, ?_, ?_, ?_, ?_⟩ <;>
    stage_of [val_main_v37, val_main_c_9, val_main_v36, val_main_c_8, val_main_v35, val_main_c_7]

/-- After the sixth: the row losses, and which rows have both a positive and a negative. -/
theorem stageF (h35 : V (Proc.devRef .tc main_v35) = val_main_v35 (F := F) x1)
    (h36 : V (Proc.devRef .tc main_v36) = val_main_v36 (F := F) x1 x2)
    (h37 : V (Proc.devRef .tc main_v37) = val_main_v37 (F := F) x1)
    (h30 : V (Proc.devRef .tc main_v30) = val_main_v30 (F := F) x0 x1)
    (h32 : V (Proc.devRef .tc main_v32) = val_main_v32 (F := F) x0 x1 x2)
    (h34 : V (Proc.devRef .tc main_v34) = val_main_v34 (F := F) x0 x1) :
    after opsF V (Proc.devRef .tc main_v42) = val_main_v42 (F := F) x0 x1 x2
    ∧ after opsF V (Proc.devRef .tc main_v43) = val_main_v43 (F := F) x1 := by
  refine ⟨?_, ?_⟩ <;>
    stage_of [val_main_v43, val_main_v42, val_main_call5_v0, val_main_call5_cst, val_main_v41, val_main_v40, val_main_cst_10,
      val_main_v39, val_main_v38]

/-- After the seventh: the number of counted rows and the sum of their losses. -/
theorem stageG (h42 : V (Proc.devRef .tc main_v42) = val_main_v42 (F := F) x0 x1 x2)
    (h43 : V (Proc.devRef .tc main_v43) = val_main_v43 (F := F) x1) :
    after opsG V (Proc.devRef .tc main_v48) = val_main_v48 (F := F) x0 x1 x2
    ∧ after opsG V (Proc.devRef .tc main_v50) = val_main_v50 (F := F) x0 x1 x2 := by
  refine ⟨?_, ?_⟩ <;>
    stage_of [val_main_v50, val_main_cst_14, val_main_v49, val_main_call6_v1, val_main_call6_v0, val_main_cst_13, val_main_v48,
      val_main_cst_12, val_main_v47, val_main_v46, val_main_v45, val_main_v44, val_main_cst_11]

/-- After the last: the result. -/
theorem stageH (h48 : V (Proc.devRef .tc main_v48) = val_main_v48 (F := F) x0 x1 x2)
    (h50 : V (Proc.devRef .tc main_v50) = val_main_v50 (F := F) x0 x1 x2) :
    after opsH V (Proc.devRef .tc main_v56) = val_main_v56 (F := F) x0 x1 x2 := by
  stage_of [val_main_v56, val_main_call8_v0, val_main_cst_18, val_main_v55, val_main_v54, val_main_call7_v0, val_main_cst_17,
    val_main_v53, val_main_v52, val_main_cst_16, val_main_v51, val_main_cst_15]

end Stretches

/-- The line is its eight stretches in order. -/
theorem ops_split : (ops : List (HloOp τ sig (Elt F)))
    = opsA ++ (opsB ++ (opsC ++ (opsD ++ (opsE ++ (opsF ++ (opsG ++ opsH)))))) := rfl

/-- The result buffer after the whole line holds the last stage of what the three argument buffers held. -/
theorem after_ops_result (V : Valuation τ sig (Elt F)) :
    after ops V (Proc.devRef .tc main_v56)
      = val_main_v56 (F := F) (V (Proc.devRef .tc main_arg0)) (V (Proc.devRef .tc main_arg1)) (V (Proc.devRef .tc main_arg2)) := by
  rw [ops_split]
  simp only [after_append']
  obtain ⟨a8, a1, a2⟩ := stageA V _ _ _ rfl rfl rfl
  obtain ⟨b20, b21, b8, b2⟩ := stageB _ _ _ _ a8 a1 a2
  obtain ⟨c27, c20, c21, c8⟩ := stageC _ _ _ _ b20 b21 b8 b2
  obtain ⟨d30, d32, d34, d20, d27, d21⟩ := stageD _ _ _ _ c27 c20 c21 c8
  obtain ⟨e35, e36, e37, e30, e32, e34⟩ := stageE _ _ _ _ d30 d32 d34 d20 d27 d21
  obtain ⟨f42, f43⟩ := stageF _ _ _ _ e35 e36 e37 e30 e32 e34
  obtain ⟨g48, g50⟩ := stageG _ _ _ _ f42 f43
  exact stageH _ _ _ _ g48 g50

/-- No operation writes an argument's buffer. -/
theorem after_ops_arg0 (V : Valuation τ sig (Elt F)) :
    after ops V (Proc.devRef .tc main_arg0) = V (Proc.devRef .tc main_arg0) := by after_results_simp <;> rfl
theorem after_ops_arg1 (V : Valuation τ sig (Elt F)) :
    after ops V (Proc.devRef .tc main_arg1) = V (Proc.devRef .tc main_arg1) := by after_results_simp <;> rfl
theorem after_ops_arg2 (V : Valuation τ sig (Elt F)) :
    after ops V (Proc.devRef .tc main_arg2) = V (Proc.devRef .tc main_arg2) := by after_results_simp <;> rfl

/-- THE REFERENCE'S RUN: every weakly fair execution of @main terminates with the result buffer at the last stage of the
    arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v56)
          = val_main_v56 (F := F) (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v56).trans (after_ops_result _),
      (h c main_arg0).trans (after_ops_arg0 _),
      (h c main_arg1).trans (after_ops_arg1 _),
      (h c main_arg2).trans (after_ops_arg2 _)⟩)
    (run_seq scopedRefs_eq scopedSems_eq defs main (fun _ => ops) main_eq (fun _ => ops_sub) m ρ)

end Cert.ReferenceIdeal.RunHand

end
-- ==== Proof.RefValue.lean ====
/-
  The reference's result as the specification's function of its arguments.

  The reference normalises the embeddings, forms the full 8192 × 8192 matrix of cosine distances
  `1 - X Xᵀ`, the three masks from labels, groups and the diagonal, and reduces each masked row by a
  whole-row maximum / minimum (from ∓∞) and a whole-row "or"; the row losses, the count and the mean
  follow. Read one operation at a time this is the specification term by term.
-/
import proofs.«141537_j90099823936181_1_alg».proof.Proof.RefRunHand
import proofs.«141537_j90099823936181_1_alg».proof.Proof.RefRead
import proofs.«141537_j90099823936181_1_alg».proof.Proof.Spec
import Idealize.ShloMosaic.PureOps.Ideal.Laws
import Idealize.ShloMosaic.PureOps.Reduce
import Idealize.ShloMosaic.Lib.ValueIdx
import Idealize.ShloMosaic.Lib.ValueIdxRank1
import Idealize.ShloMosaic.Lib.Affine

noncomputable section

namespace Cert.ReferenceIdeal.RefValue

open Cert.ReferenceIdeal Cert.ReferenceIdeal.Gen Cert.ReferenceIdeal.ReadP
open Idealize.ShloMosaic Idealize.ShloMosaic.TcCoe Idealize.SL.Sem Idealize.ShloMosaic.ValueIdx

/-! ## Words and extended reals

One-bit words against the propositions they encode, the whole-row "or", the two infinities' patterns and the
sign-flipped sentinel. -/

/-- An "or" of one-bit words over a finite set, from the zero word, is the one word exactly when some word is. -/
theorem fold_ori_eq_one {ι : Type} [DecidableEq ι] (s : Finset ι) (g : ι → BitVec 1) :
    s.fold IntOp.ori 0#1 g = 1#1 ↔ ∃ j ∈ s, g j = 1#1 := by
  induction s using Finset.induction_on with
  | empty => simp
  | insert a s ha ih =>
    rw [Finset.fold_insert ha, IntOp.ori_eq_one, ih]
    simp [Finset.exists_mem_insert]

theorem fold_ori_univ_eq_one {n : Nat} (g : Fin n → BitVec 1) :
    (Finset.univ : Finset (Fin n)).fold IntOp.ori 0#1 g = 1#1 ↔ ∃ j, g j = 1#1 := by
  rw [fold_ori_eq_one]; simp

/-- The patterns of minus and plus infinity. -/
theorem ofBits_negInf : Ideal.ofBits .f32 0xFF800000#32 = ⊥ := by simp [Ideal.ofBits, Ideal.ieee]
theorem ofBits_posInf : Ideal.ofBits .f32 0x7F800000#32 = ⊤ := by simp [Ideal.ofBits, Ideal.ieee]

/-- The negation of the pattern of 1e9 is the pattern of -1e9: the two words differ in the sign bit alone. -/
theorem neg_ofBits_big : -(Ideal.ofBits .f32 0x4E6E6B28#32) = Ideal.ofBits .f32 0xCE6E6B28#32 := by
  simp [Ideal.ofBits, Ideal.ieee]

theorem hostNegf_big : FloatOps.hostNegf (FloatOps.ofBits (F := Ideal) .f32 0x4E6E6B28#32) = Cert.Spec.negBig :=
  neg_ofBits_big

/-- The float comparison "greater than", as a word. -/
theorem cmpf_ogt_eq_one (x y : EReal) : FloatOps.cmpf (F := Ideal) (φ := .f32) .ogt x y = 1#1 ↔ y < x := by
  show BitVec.ofBool (decide (y < x)) = 1#1 ↔ y < x
  by_cases h : y < x <;> simp [h]

/-- A select on a word that encodes `p` is the `if` on `p`, however `p` is decided. -/
theorem select_ite {α : Type} (c : BitVec 1) (p : Prop) {inst : Decidable p} (h : c = 1#1 ↔ p) (a b : α) :
    Scalar.select c a b = @ite α p inst a b := by
  by_cases hp : p
  · rw [if_pos hp, h.mpr hp]; exact select_one a b
  · rw [if_neg hp, eq_zero_of_ne_one (fun hc => hp (h.mp hc))]; exact select_zero a b

/-- A one-bit word that encodes `p`, converted unsigned to a float, is the indicator of `p`. -/
theorem uitofp_ite (c : BitVec 1) (p : Prop) {inst : Decidable p} (h : c = 1#1 ↔ p) :
    FloatOps.uitofp (F := Ideal) .f32 c = @ite EReal p inst 1 0 := by
  by_cases hp : p
  · rw [if_pos hp, h.mpr hp]; simp [FloatOps.uitofp]
  · rw [if_neg hp, eq_zero_of_ne_one (fun hc => hp (h.mp hc))]; simp [FloatOps.uitofp]

/-- Two row numbers below 8192 are the same 32-bit word exactly when they are the same number. -/
theorem iota_eq_iff (r j : Fin 8192) :
    IntOp.addi (BitVec.ofNat 32 r.val) 0#32 = BitVec.ofNat 32 j.val ↔ r = j := by
  have hr := r.isLt
  have hj := j.isLt
  constructor
  · intro h
    have h' := congrArg BitVec.toNat h
    simp only [IntOp.addi, BitVec.add_zero, BitVec.toNat_ofNat] at h'
    exact Fin.ext (by omega)
  · rintro rfl
    simp [IntOp.addi]

/-! ## Indices

The composed index functions of the reference's layout operations, at row `r` and column `j`. -/

section Indices
variable (r j : Fin 8192) (k : Fin 128)

theorem lidx_v6 : lidx_main_v6 (ix2 r j) k = ix2 r k :=
  funext fun a => Fin.ext (by match a with | ⟨0, _⟩ => rfl | ⟨1, _⟩ => rfl)
theorem ridx_v6 : idx_main_v5 (ridx_main_v6 (ix2 r j) k) = ix2 j k :=
  funext fun a => Fin.ext (by match a with | ⟨0, _⟩ => rfl | ⟨1, _⟩ => rfl)
theorem row_v16 : idx_main_v14 (idx_main_v16 (ix2 r j)) = ix1 r :=
  funext fun a => Fin.ext (by match a with | ⟨0, _⟩ => rfl)
theorem col_v17 : idx_main_v15 (idx_main_v17 (ix2 r j)) = ix1 j :=
  funext fun a => Fin.ext (by match a with | ⟨0, _⟩ => rfl)
theorem row_v24 : idx_main_v22 (idx_main_v24 (ix2 r j)) = ix1 r :=
  funext fun a => Fin.ext (by match a with | ⟨0, _⟩ => rfl)
theorem col_v25 : idx_main_v23 (idx_main_v25 (ix2 r j)) = ix1 j :=
  funext fun a => Fin.ext (by match a with | ⟨0, _⟩ => rfl)

end Indices

/-- The witness that names the index a row reduction inserts. -/
theorem red_d1 : S8192x8192.Reduces [1] S8192 := by decide

/-- A reduction of an 8192 × 8192 array over its columns by a commutative associative operation is, at row `r`,
    the fold over the columns of the row's entries from the initial value. -/
theorem reduce_row {α : Type} (f : α → α → α) [Std.Commutative f] [Std.Associative f] (x : S8192x8192.Idx → α)
    (init : S_.Idx → α) (r : Fin 8192) :
    Host.reduce f x init reducesTo_S8192x8192_S8192_d1 h_S_ (ix1 r)
      = (Finset.univ : Finset (Fin 8192)).fold f (init ix0) (fun j => x (ix2 r j)) := by
  rw [Host.reduce_eq_fold_single f x init reducesTo_S8192x8192_S8192_d1 red_d1 h_S_ (ix1 r)]
  have e : (x ∘ red_d1.lift (ix1 r)) = fun j : Fin 8192 => x (ix2 r j) :=
    funext fun j => congrArg x (funext fun a => Fin.ext (by match a with | ⟨0, _⟩ => rfl | ⟨1, _⟩ => rfl))
  rw [e, show Shape.Idx.first h_S_ = ix0 from eq_ix0 _]
  rfl

/-! ## The distance matrix and the masks at one entry -/

section Entries
variable (x0 : (⟨S8192x128, .f32⟩ : BufTy).Contents (Elt Ideal)) (x1 x2 : (⟨S8192, .i32⟩ : BufTy).Contents (Elt Ideal))
variable (r j : Fin 8192)

/-- The product `X Xᵀ` at (r, j): the inner product of rows `r` and `j` of the normalised embeddings. -/
theorem v6_at : val_main_v6 (F := Ideal) x0 (ix2 r j)
    = ∑ k : Fin 128, val_main_v4 (F := Ideal) x0 (ix2 r k) * val_main_v4 (F := Ideal) x0 (ix2 j k) := by
  rw [val_main_v6_apply]
  refine Finset.sum_congr rfl fun k _ => ?_
  rw [val_main_v5_apply, lidx_v6, ridx_v6]

/-- The cosine distance at (r, j). -/
theorem v8_at : val_main_v8 (F := Ideal) x0 (ix2 r j)
    = Cert.Spec.dist (Cert.Spec.rowsOf (val_main_v4 (F := Ideal) x0)) r j := by
  rw [val_main_v8_apply, val_main_v7_apply, val_main_cst_0_apply, v6_at]
  rfl

/-- The diagonal. -/
theorem v13_at : val_main_v13 (F := Ideal) (ix2 r j) = 1#1 ↔ r = j := by
  rw [val_main_v13_apply, val_main_v12_apply, val_main_v9_apply, val_main_v11_apply, val_main_c_apply,
    val_main_v10_apply, IntOp.cmpi_eq]
  exact iota_eq_iff r j

/-- Same label. -/
theorem v18_at : val_main_v18 (F := Ideal) x1 (ix2 r j) = 1#1 ↔ Cert.Spec.wordsOf x1 r = Cert.Spec.wordsOf x1 j := by
  rw [val_main_v18_apply, val_main_v16_apply, val_main_v14_apply, val_main_v17_apply, val_main_v15_apply,
    row_v16, col_v17, IntOp.cmpi_eq]
  exact Iff.rfl

/-- Same group. -/
theorem v26_at : val_main_v26 (F := Ideal) x2 (ix2 r j) = 1#1 ↔ Cert.Spec.wordsOf x2 r = Cert.Spec.wordsOf x2 j := by
  rw [val_main_v26_apply, val_main_v24_apply, val_main_v22_apply, val_main_v25_apply, val_main_v23_apply,
    row_v24, col_v25, IntOp.cmpi_eq]
  exact Iff.rfl

/-- The positive mask. -/
theorem v20_at : val_main_v20 (F := Ideal) x1 (ix2 r j) = 1#1 ↔ Cert.Spec.pos (Cert.Spec.wordsOf x1) r j := by
  rw [val_main_v20_apply, val_main_v19_apply, IntOp.andi_eq_one, IntOp.not_eq_one, v18_at, v13_at]
  exact Iff.rfl

/-- The negative mask. -/
theorem v21_at : val_main_v21 (F := Ideal) x1 (ix2 r j) = 1#1 ↔ Cert.Spec.neg (Cert.Spec.wordsOf x1) r j := by
  rw [val_main_v21_apply, IntOp.not_eq_one, v18_at]
  exact Iff.rfl

/-- The same-group negative mask. -/
theorem v27_at : val_main_v27 (F := Ideal) x1 x2 (ix2 r j) = 1#1
    ↔ Cert.Spec.negSG (Cert.Spec.wordsOf x1) (Cert.Spec.wordsOf x2) r j := by
  rw [val_main_v27_apply, IntOp.andi_eq_one, v21_at, v26_at]
  exact Iff.rfl

/-- The three masked distance rows. -/
theorem v29_at : val_main_v29 (F := Ideal) x0 x1 (ix2 r j)
    = Cert.Spec.apRow (Cert.Spec.rowsOf (val_main_v4 (F := Ideal) x0)) (Cert.Spec.wordsOf x1) r j := by
  rw [val_main_v29_apply, val_main_call1_v0_apply, val_main_v28_apply, val_main_cst_1_apply, hostNegf_big, v8_at]
  unfold Cert.Spec.apRow
  exact select_ite _ _ (v20_at x1 r j) _ _

theorem v31_at : val_main_v31 (F := Ideal) x0 x1 x2 (ix2 r j)
    = Cert.Spec.anSGRow (Cert.Spec.rowsOf (val_main_v4 (F := Ideal) x0)) (Cert.Spec.wordsOf x1) (Cert.Spec.wordsOf x2) r j := by
  rw [val_main_v31_apply, val_main_call2_v0_apply, val_main_cst_3_apply, v8_at]
  unfold Cert.Spec.anSGRow
  exact select_ite _ _ (v27_at x1 x2 r j) _ _

theorem v33_at : val_main_v33 (F := Ideal) x0 x1 (ix2 r j)
    = Cert.Spec.anAllRow (Cert.Spec.rowsOf (val_main_v4 (F := Ideal) x0)) (Cert.Spec.wordsOf x1) r j := by
  rw [val_main_v33_apply, val_main_call3_v0_apply, val_main_cst_5_apply, v8_at]
  unfold Cert.Spec.anAllRow
  exact select_ite _ _ (v21_at x1 r j) _ _

end Entries

/-! ## The rows: the three hardest distances, the three flags, the loss and whether it counts -/

section Rows
variable (x0 : (⟨S8192x128, .f32⟩ : BufTy).Contents (Elt Ideal)) (x1 x2 : (⟨S8192, .i32⟩ : BufTy).Contents (Elt Ideal))
variable (r : Fin 8192)

/-- The hardest positive: the whole-row maximum from minus infinity. -/
theorem v30_at : val_main_v30 (F := Ideal) x0 x1 (ix1 r)
    = Cert.Spec.ap (Cert.Spec.rowsOf (val_main_v4 (F := Ideal) x0)) (Cert.Spec.wordsOf x1) r := by
  unfold val_main_v30
  rw [reduce_row]
  refine (Finset.fold_congr (fun j _ => v29_at x0 x1 r j)).trans ?_
  rw [val_main_cst_2_apply]
  show (Finset.univ : Finset (Fin 8192)).fold max (Ideal.ofBits .f32 0xFF800000#32) _ = _
  rw [ofBits_negInf]
  rfl

/-- The hardest same-group negative: the whole-row minimum from plus infinity. -/
theorem v32_at : val_main_v32 (F := Ideal) x0 x1 x2 (ix1 r)
    = Cert.Spec.anSG (Cert.Spec.rowsOf (val_main_v4 (F := Ideal) x0)) (Cert.Spec.wordsOf x1) (Cert.Spec.wordsOf x2) r := by
  unfold val_main_v32
  rw [reduce_row]
  refine (Finset.fold_congr (fun j _ => v31_at x0 x1 x2 r j)).trans ?_
  rw [val_main_cst_4_apply]
  show (Finset.univ : Finset (Fin 8192)).fold min (Ideal.ofBits .f32 0x7F800000#32) _ = _
  rw [ofBits_posInf]
  rfl

/-- The hardest negative. -/
theorem v34_at : val_main_v34 (F := Ideal) x0 x1 (ix1 r)
    = Cert.Spec.anAll (Cert.Spec.rowsOf (val_main_v4 (F := Ideal) x0)) (Cert.Spec.wordsOf x1) r := by
  unfold val_main_v34
  rw [reduce_row]
  refine (Finset.fold_congr (fun j _ => v33_at x0 x1 r j)).trans ?_
  rw [val_main_cst_6_apply]
  show (Finset.univ : Finset (Fin 8192)).fold min (Ideal.ofBits .f32 0x7F800000#32) _ = _
  rw [ofBits_posInf]
  rfl

/-- The row has a positive; a same-group negative; a negative. -/
theorem v35_at : val_main_v35 (F := Ideal) x1 (ix1 r) = 1#1 ↔ ∃ j, Cert.Spec.pos (Cert.Spec.wordsOf x1) r j := by
  unfold val_main_v35
  rw [reduce_row, val_main_c_7_apply, fold_ori_univ_eq_one]
  exact exists_congr fun j => v20_at x1 r j

theorem v36_at : val_main_v36 (F := Ideal) x1 x2 (ix1 r) = 1#1
    ↔ ∃ j, Cert.Spec.negSG (Cert.Spec.wordsOf x1) (Cert.Spec.wordsOf x2) r j := by
  unfold val_main_v36
  rw [reduce_row, val_main_c_8_apply, fold_ori_univ_eq_one]
  exact exists_congr fun j => v27_at x1 x2 r j

theorem v37_at : val_main_v37 (F := Ideal) x1 (ix1 r) = 1#1 ↔ ∃ j, Cert.Spec.neg (Cert.Spec.wordsOf x1) r j := by
  unfold val_main_v37
  rw [reduce_row, val_main_c_9_apply, fold_ori_univ_eq_one]
  exact exists_congr fun j => v21_at x1 r j

/-- The negative distance used. -/
theorem v38_at : val_main_v38 (F := Ideal) x0 x1 x2 (ix1 r)
    = Cert.Spec.an (Cert.Spec.rowsOf (val_main_v4 (F := Ideal) x0)) (Cert.Spec.wordsOf x1) (Cert.Spec.wordsOf x2) r := by
  rw [val_main_v38_apply, v32_at, v34_at]
  unfold Cert.Spec.an
  exact select_ite _ _ (v36_at x1 x2 r) _ _

/-- The row's hinge loss. -/
theorem v42_at : val_main_v42 (F := Ideal) x0 x1 x2 (ix1 r)
    = Cert.Spec.loss (Cert.Spec.rowsOf (val_main_v4 (F := Ideal) x0)) (Cert.Spec.wordsOf x1) (Cert.Spec.wordsOf x2) r := by
  rw [val_main_v42_apply, val_main_v41_apply, val_main_v39_apply, val_main_v40_apply, val_main_cst_10_apply,
    val_main_call5_v0_apply, val_main_call5_cst_apply, v30_at, v38_at]
  simp only [Ideal.maximumf_def, Ideal.addf_def, Ideal.subf_def, Ideal.ofBits_def, Ideal.ofBits_zero_f32]
  rfl

/-- The row is counted. -/
theorem v46_at : val_main_v46 (F := Ideal) x0 x1 x2 (ix1 r) = 1#1
    ↔ Cert.Spec.incl (Cert.Spec.rowsOf (val_main_v4 (F := Ideal) x0)) (Cert.Spec.wordsOf x1) (Cert.Spec.wordsOf x2) r := by
  rw [val_main_v46_apply, val_main_v43_apply, val_main_v45_apply, val_main_v44_apply, val_main_cst_11_apply,
    IntOp.andi_eq_one, IntOp.andi_eq_one, v35_at, v37_at, v42_at, cmpf_ogt_eq_one, Ideal.ofBits_def,
    Ideal.ofBits_zero_f32, and_assoc]
  exact Iff.rfl

/-- The row's indicator and its contribution. -/
theorem v47_at : val_main_v47 (F := Ideal) x0 x1 x2 (ix1 r)
    = Cert.Spec.inclF (Cert.Spec.rowsOf (val_main_v4 (F := Ideal) x0)) (Cert.Spec.wordsOf x1) (Cert.Spec.wordsOf x2) r := by
  rw [val_main_v47_apply]
  unfold Cert.Spec.inclF
  exact uitofp_ite _ _ (v46_at x0 x1 x2 r)

theorem v49_at : val_main_v49 (F := Ideal) x0 x1 x2 (ix1 r)
    = Cert.Spec.contrib (Cert.Spec.rowsOf (val_main_v4 (F := Ideal) x0)) (Cert.Spec.wordsOf x1) (Cert.Spec.wordsOf x2) r := by
  rw [val_main_v49_apply, val_main_call6_v1_apply, val_main_call6_v0_apply, val_main_cst_13_apply, v42_at,
    Ideal.ofBits_def, Ideal.ofBits_zero_f32]
  unfold Cert.Spec.contrib
  exact select_ite _ _ (v46_at x0 x1 x2 r) _ _

/-! ## The two sums and the scalar tail -/

/-- The sum of the counted losses. -/
theorem v50_eq : val_main_v50 (F := Ideal) x0 x1 x2
    = fun _ => Cert.Spec.total (Cert.Spec.rowsOf (val_main_v4 (F := Ideal) x0)) (Cert.Spec.wordsOf x1) (Cert.Spec.wordsOf x2) := by
  funext i
  rw [val_main_v50_apply, val_main_cst_14_apply, Ideal.ofBits_def, Ideal.ofBits_zero_f32, zero_add]
  exact (Fintype.sum_equiv (idxEquiv1 (n := 8192)).symm _ _ (fun r => (v49_at x0 x1 x2 r).symm)).symm

/-- The number of counted rows. -/
theorem v48_eq : val_main_v48 (F := Ideal) x0 x1 x2
    = fun _ => Cert.Spec.count (Cert.Spec.rowsOf (val_main_v4 (F := Ideal) x0)) (Cert.Spec.wordsOf x1) (Cert.Spec.wordsOf x2) := by
  funext i
  rw [val_main_v48_apply, val_main_cst_12_apply, Ideal.ofBits_def, Ideal.ofBits_zero_f32, zero_add]
  exact (Fintype.sum_equiv (idxEquiv1 (n := 8192)).symm _ _ (fun r => (v47_at x0 x1 x2 r).symm)).symm

/-- The scalar tail: the result is the specification's tail of the two sums. -/
theorem v56_tail : val_main_v56 (F := Ideal) x0 x1 x2
    = Cert.Spec.tail (val_main_v50 (F := Ideal) x0 x1 x2) (val_main_v48 (F := Ideal) x0 x1 x2) := by
  unfold val_main_v56 val_main_v55 val_main_v54 val_main_v53 val_main_v52 val_main_v51 val_main_call8_v0 val_main_call7_v0
    val_main_cst_15 val_main_cst_16 val_main_cst_17 val_main_cst_18 Cert.Spec.tail
  rfl

end Rows

variable [Cert.ReferenceIdeal.Facts]

/-- The reference's normalised embeddings are the specification's normalisation of its first argument. -/
def normalized (e : FVec Ideal S8192x128 .f32) : FVec Ideal S8192x128 .f32 :=
  Cert.Spec.normalize reducesTo_S8192x128_S8192_d1 h_S_ bcast_S8192_S8192x1_0 bcast_S_S8192x1 bcast_S8192x1_S8192x128_0_1 e

/-- The reference's fourth stage is that normalisation. -/
theorem v4_eq (x0 : (⟨S8192x128, .f32⟩ : BufTy).Contents (Elt Ideal)) : val_main_v4 (F := Ideal) x0 = normalized x0 := rfl

/-- The reference's last stage is the specification of its arguments. -/
theorem value_eq (x0 : (⟨S8192x128, .f32⟩ : BufTy).Contents (Elt Ideal)) (x1 x2 : (⟨S8192, .i32⟩ : BufTy).Contents (Elt Ideal)) :
    val_main_v56 (F := Ideal) x0 x1 x2
      = Cert.Spec.final (Cert.Spec.rowsOf (normalized x0)) (Cert.Spec.wordsOf x1) (Cert.Spec.wordsOf x2) := by
  rw [v56_tail, v50_eq, v48_eq, v4_eq]
  rfl

/-- The run's result, the last stage of the arguments' launch contents, is the specification of the arguments. -/
theorem result_eq (m : (ℓ : Loc nD τ sig) → Buf (Elt Ideal) ℓ) (c : Dev nD) :
    (val_main_v56 (F := Ideal) (m ((c.tc : Thread nD τ).loc main_arg0)) (m ((c.tc : Thread nD τ).loc main_arg1))
        (m ((c.tc : Thread nD τ).loc main_arg2)) : FVec Ideal S_ .f32)
      = Cert.Spec.final (Cert.Spec.rowsOf (normalized (m ((c.tc : Thread nD τ).loc main_arg0))))
          (Cert.Spec.wordsOf (m ((c.tc : Thread nD τ).loc main_arg1))) (Cert.Spec.wordsOf (m ((c.tc : Thread nD τ).loc main_arg2))) :=
  value_eq _ _ _

/-- THE REFERENCE'S RUN, at the specification. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      (r.2.mem ((c.tc : Thread nD τ).loc main_v56) : FVec Ideal S_ .f32)
          = Cert.Spec.final (Cert.Spec.rowsOf (normalized (m ((c.tc : Thread nD τ).loc main_arg0))))
              (Cert.Spec.wordsOf (m ((c.tc : Thread nD τ).loc main_arg1))) (Cert.Spec.wordsOf (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (result_eq m c), (h c).2⟩) (Cert.ReferenceIdeal.RunHand.run (F := Ideal) m ρ)

end Cert.ReferenceIdeal.RefValue

end
-- ==== Proof.lean ====
/-
  The certificate: a hard-mining triplet loss, tiled, against its whole-matrix reference.

  Both programs normalise the 8192 embeddings, take the cosine distances `1 - ⟨x_r, x_j⟩`, and for each row the
  hardest positive (same label, another row) and the hardest negative (another label; of the row's own group when it
  has one), with the finite sentinels `∓1e9` on the masked-out columns; the row's hinge loss counts when the row
  has a positive, a negative and a positive loss, and the result is the mean of the counted losses. The kernel sweeps
  the columns in sixteen tiles with running maxima / minima started at the sentinels, and running 0/1 flags; since each
  row holds its sentinel on its own diagonal column, and a flag is positive exactly when some column satisfies its
  predicate, after the sixteenth tile the running values are the whole-row quantities. Over the extended reals no
  other law is used: the two sides are the same function of the arguments, and the precondition is never opened.

  The three frames: each program's run with its result dropped. The idealization rewrote nothing, so `preserves` is
  `True`.
-/
import proofs.«141537_j90099823936181_1_alg».proof.Defs
import proofs.«141537_j90099823936181_1_alg».proof.Proof.Gen.Kernel
import proofs.«141537_j90099823936181_1_alg».proof.Proof.Gen.KernelIdeal
import proofs.«141537_j90099823936181_1_alg».proof.Proof.Gen.ReferenceIdeal
import proofs.«141537_j90099823936181_1_alg».proof.Proof.Gen.Pre_finite_inputs
import proofs.«141537_j90099823936181_1_alg».proof.Proof.K.Run
import proofs.«141537_j90099823936181_1_alg».proof.Proof.KI.Result
import proofs.«141537_j90099823936181_1_alg».proof.Proof.RefValue
import Idealize.ShloMosaic.Adequacy
import Idealize.ShloMosaic.Init

noncomputable section

namespace Cert.Proof

open Idealize.ShloMosaic Idealize.SL.Sem

/-- The word-level program runs and leaves its arguments unchanged. -/
theorem frame_k : @Cert.frame_Kernel Cert.Kernel.Gen.facts Cert.Pre_finite_inputs.Gen.facts :=
  fun m ρ _ => Cert.Kernel.Hand.frame m ρ

/-- So does the idealized program, -/
theorem frame_ki : @Cert.frame_KernelIdeal Cert.KernelIdeal.Gen.facts Cert.Pre_finite_inputs.Gen.facts :=
  fun m ρ _ => Cert.KernelIdeal.Hand.frame m ρ

/-- and the reference: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.RefValue.run_spec m ρ)

/-- Over the extended reals both programs end at the specification's result of arguments that agree. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Spec.final (Cert.KernelIdeal.Hand.Xk m c) (Cert.KernelIdeal.Hand.labK m c) (Cert.KernelIdeal.Hand.grpK m c),
    Cert.KernelIdeal.Hand.run_spec m ρ, ?_⟩
  refine (θ_run Cert.ReferenceIdeal.defs _ _).mono (fun _ h c => ⟨(h c).1.trans ?_, (h c).2⟩) (Cert.ReferenceIdeal.RefValue.run_spec m' ρ')
  rw [(hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
